-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_t" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S4096x1 : Shape := ⟨2, ![4096, 1]⟩
abbrev S1024x256 : Shape := ⟨2, ![1024, 256]⟩
abbrev S1024x1 : Shape := ⟨2, ![1024, 1]⟩
abbrev S1024 : Shape := ⟨1, ![1024]⟩
abbrev S8192x256 : Shape := ⟨2, ![8192, 256]⟩
abbrev S8192x1 : Shape := ⟨2, ![8192, 1]⟩
abbrev S1x8192 : Shape := ⟨2, ![1, 8192]⟩
abbrev S8192 : Shape := ⟨1, ![8192]⟩
abbrev S512x256 : Shape := ⟨2, ![512, 256]⟩
abbrev S512x1 : Shape := ⟨2, ![512, 1]⟩
abbrev S2048x256 : Shape := ⟨2, ![2048, 256]⟩
abbrev S1x2048 : Shape := ⟨2, ![1, 2048]⟩
abbrev S256x2048 : Shape := ⟨2, ![256, 2048]⟩
abbrev S512x2048 : Shape := ⟨2, ![512, 2048]⟩
abbrev S512 : Shape := ⟨1, ![512]⟩
abbrev S_ : Shape := ⟨0, ![]⟩

abbrev nBuf : Space → Nat
  | .hbm => 23
  | .vmem => 23
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .bf16⟩
  | .hbm, ⟨3, _⟩ => ⟨S4096x256, .bf16⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S8192x256, .bf16⟩
  | .hbm, ⟨8, _⟩ => ⟨S8192x1, .f32⟩
  | .hbm, ⟨9, _⟩ => ⟨S1x8192, .f32⟩
  | .hbm, ⟨10, _⟩ => ⟨S8192x1, .f32⟩
  | .hbm, ⟨11, _⟩ => ⟨S8192, .f32⟩
  | .hbm, ⟨12, _⟩ => ⟨S8192x1, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S512x256, .bf16⟩
  | .local _ .vmem, ⟨15, _⟩ => ⟨S512x256, .bf16⟩
  | .local _ .vmem, ⟨16, _⟩ => ⟨S8192x256, .bf16⟩
  | .local _ .vmem, ⟨17, _⟩ => ⟨S512x1, .f32⟩
  | .local _ .vmem, ⟨18, _⟩ => ⟨S512x1, .f32⟩
  | .local _ .vmem, ⟨19, _⟩ => ⟨S1x8192, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

@[reducible] def k1_t1_loop : Scf.Loop 32 :=
  let c0_i32 : BitVec 32 := 0#32
  let c4_i32 : BitVec 32 := 4#32
  let v12 : BitVec 32 := Scalar.addi c0_i32 c4_i32
  let c1_i32 : BitVec 32 := 1#32
  ⟨c0_i32, v12, c1_i32⟩
def k1_mult1 (k1_t1 : Fin k1_t1_loop.trips) : BitVec 32 :=
  let c0_i32_11 : BitVec 32 := 0#32
  let c0_i32 : BitVec 32 := 0#32
  let c1_i32 : BitVec 32 := 1#32
  let arg7 : BitVec 32 := Scf.iv c0_i32 c1_i32 k1_t1
  let c1_i32_10 : BitVec 32 := 1#32
  let v16 : BitVec 32 := Scalar.muli arg7 c1_i32_10
  let v17 : BitVec 32 := Scalar.addi c0_i32_11 v16
  let c2048_i32 : BitVec 32 := 2048#32
  let v18 : BitVec 32 := Scalar.muli v17 c2048_i32
  v18
def k1_off1 (k1_t1 : Fin k1_t1_loop.trips) : Fin 2 → Nat :=
  let c0_i32_11 : BitVec 32 := 0#32
  let c0_i32 : BitVec 32 := 0#32
  let c1_i32 : BitVec 32 := 1#32
  let arg7 : BitVec 32 := Scf.iv c0_i32 c1_i32 k1_t1
  let c1_i32_10 : BitVec 32 := 1#32
  let v16 : BitVec 32 := Scalar.muli arg7 c1_i32_10
  let v17 : BitVec 32 := Scalar.addi c0_i32_11 v16
  let c2048_i32 : BitVec 32 := 2048#32
  let v18 : BitVec 32 := Scalar.muli v17 c2048_i32
  let v19 : BitVec 32 := v18
  let v20 : Index := Scalar.indexCast v19
  let c0_12 : Index := 0#32
  ![v20.toNat, 0]
def k1_off2 (k1_t1 : Fin k1_t1_loop.trips) : Fin 2 → Nat :=
  let c0_13 : Index := 0#32
  let c0_i32_11 : BitVec 32 := 0#32
  let c0_i32 : BitVec 32 := 0#32
  let c1_i32 : BitVec 32 := 1#32
  let arg7 : BitVec 32 := Scf.iv c0_i32 c1_i32 k1_t1
  let c1_i32_10 : BitVec 32 := 1#32
  let v16 : BitVec 32 := Scalar.muli arg7 c1_i32_10
  let v17 : BitVec 32 := Scalar.addi c0_i32_11 v16
  let c2048_i32 : BitVec 32 := 2048#32
  let v18 : BitVec 32 := Scalar.muli v17 c2048_i32
  let v19 : BitVec 32 := v18
  let v23 : Index := Scalar.indexCast v19
  ![0, v23.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  inb_S1024x1_S1024x1_0_0 : ∀ a, (![0, 0] : Fin 2 → Nat) a + S1024x1.size a ≤ S1024x1.size a
  h_S1024x1 : 0 < S1024x1.numel
  concatenates_S4096x256_S4096x256_S8192x256_d0 : Shape.Concatenates [S4096x256, S4096x256] S8192x256 0
  concatenates_S4096x1_S4096x1_S8192x1_d0 : Shape.Concatenates [S4096x1, S4096x1] S8192x1 0
  shapeCasts_S8192x1_S1x8192 : S8192x1.ShapeCasts S1x8192
  shapeCasts_S8192x1_S8192 : S8192x1.ShapeCasts S8192
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1_d0_w32 : S512x1.Iotas .tc 32 [0]
  h_S2048x256 : 0 < S2048x256.numel
  shapeCasts_S2048x256_S2048x256 : S2048x256.ShapeCasts S2048x256
  h_S1x2048 : 0 < S1x2048.numel
  shapeCasts_S1x2048_S1x2048 : S1x2048.ShapeCasts S1x2048
  transposes_S2048x256_p1_0_S256x2048 : S2048x256.Transposes [1, 0] S256x2048
  broadcasts_S512x1_S512x2048 : S512x1.Broadcasts S512x2048
  broadcasts_S1x2048_S512x2048 : S1x2048.Broadcasts S512x2048
  iota_S512x2048_d1_w32 : S512x2048.Iotas .tc 32 [1]
  reduces_S512x2048_S512 : S512x2048.Reduces [1] S512
  shapeCasts_S512_S512x1 : S512.ShapeCasts S512x1
  bcast_S_S8192 : S_.BroadcastsInDim S8192 (![] : Fin 0 → Fin S8192.rank)
  reducesTo_S8192_S_d0 : S8192.ReducesTo [0] S_
  h_S_ : 0 < S_.numel
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x256.size a
  hwx0_2 : ∀ i : grid0.Coords, EltTy.bits .bf16 = 32 ∨ (Rect.block (s := S4096x256) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x256.size a
  hwx0_3 : ∀ i : grid0.Coords, EltTy.bits .bf16 = 32 ∨ (Rect.block (s := S4096x256) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .f32 = 32 ∨ (Rect.block (s := S4096x1) S1024x1.size (cc0_transform_6 i) (hinb0_6 i)).WholeWords (EltTy.packing .f32)
  hrank1 : 0 < grid1.rank
  k1_t1_ok : k1_t1_loop.OK
  k1_mult1_dvd : ∀ k1_t1 : Fin k1_t1_loop.trips, 2048 ∣ (k1_mult1 k1_t1).toNat
  k1_off1_inb : ∀ k1_t1 : Fin k1_t1_loop.trips, ∀ a, (k1_off1 k1_t1) a + S2048x256.size a ≤ S8192x256.size a
  k1_off2_inb : ∀ k1_t1 : Fin k1_t1_loop.trips, ∀ a, (k1_off2 k1_t1) a + S1x2048.size a ≤ S1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x256.size a
  hwx1_0 : ∀ i : grid1.Coords, EltTy.bits .bf16 = 32 ∨ (Rect.block (s := S8192x256) S512x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .f32 = 32 ∨ (Rect.block (s := S1x8192) S1x8192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .f32 = 32 ∨ (Rect.block (s := S8192x1) S512x1.size (cc1_transform_4 i) (hinb1_4 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S512x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩
abbrev S4096x2 : Shape := ⟨2, ![4096, 2]⟩

abbrev nBuf : Space → Nat
  | .hbm => 109
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S1x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S256x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S_, .i32⟩
  | .hbm, ⟨43, _⟩ => ⟨S4096, .i32⟩
  | .hbm, ⟨44, _⟩ => ⟨S4096, .i1⟩
  | .hbm, ⟨45, _⟩ => ⟨S_, .i32⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S_, .i32⟩
  | .hbm, ⟨50, _⟩ => ⟨S4096, .i32⟩
  | .hbm, ⟨51, _⟩ => ⟨S4096, .i1⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S4096, .i32⟩
  | .hbm, ⟨56, _⟩ => ⟨S4096x1, .i32⟩
  | .hbm, ⟨57, _⟩ => ⟨S4096x1, .i32⟩
  | .hbm, ⟨58, _⟩ => ⟨S4096x2, .i32⟩
  | .hbm, ⟨59, _⟩ => ⟨S4096, .f32⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S_, .i32⟩
  | .hbm, ⟨64, _⟩ => ⟨S4096, .i32⟩
  | .hbm, ⟨65, _⟩ => ⟨S4096, .i1⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .i32⟩
  | .hbm, ⟨70, _⟩ => ⟨S_, .i32⟩
  | .hbm, ⟨71, _⟩ => ⟨S4096, .i32⟩
  | .hbm, ⟨72, _⟩ => ⟨S4096, .i1⟩
  | .hbm, ⟨73, _⟩ => ⟨S_, .i32⟩
  | .hbm, ⟨74, _⟩ => ⟨S4096, .i32⟩
  | .hbm, ⟨75, _⟩ => ⟨S4096, .i32⟩
  | .hbm, ⟨76, _⟩ => ⟨S4096, .i32⟩
  | .hbm, ⟨77, _⟩ => ⟨S4096x1, .i32⟩
  | .hbm, ⟨78, _⟩ => ⟨S4096x1, .i32⟩
  | .hbm, ⟨79, _⟩ => ⟨S4096x2, .i32⟩
  | .hbm, ⟨80, _⟩ => ⟨S4096, .f32⟩
  | .hbm, ⟨81, _⟩ => ⟨S8192, .f32⟩
  | .hbm, ⟨82, _⟩ => ⟨S8192x8192, .i32⟩
  | .hbm, ⟨83, _⟩ => ⟨S8192x8192, .i32⟩
  | .hbm, ⟨84, _⟩ => ⟨S_, .i32⟩
  | .hbm, ⟨85, _⟩ => ⟨S8192x8192, .i32⟩
  | .hbm, ⟨86, _⟩ => ⟨S8192x8192, .i32⟩
  | .hbm, ⟨87, _⟩ => ⟨S8192x8192, .i1⟩
  | .hbm, ⟨88, _⟩ => ⟨S8192x8192, .f32⟩
  | .hbm, ⟨89, _⟩ => ⟨S_, .f32⟩
  | .hbm, ⟨90, _⟩ => ⟨S8192x8192, .f32⟩
  | .hbm, ⟨91, _⟩ => ⟨S8192x8192, .f32⟩
  | .hbm, ⟨92, _⟩ => ⟨S_, .f32⟩
  | .hbm, ⟨93, _⟩ => ⟨S8192x8192, .f32⟩
  | .hbm, ⟨94, _⟩ => ⟨S8192x8192, .f32⟩
  | .hbm, ⟨95, _⟩ => ⟨S8192x8192, .f32⟩
  | .hbm, ⟨96, _⟩ => ⟨S8192x8192, .f32⟩
  | .hbm, ⟨97, _⟩ => ⟨S_, .f32⟩
  | .hbm, ⟨98, _⟩ => ⟨S8192, .f32⟩
  | .hbm, ⟨99, _⟩ => ⟨S8192, .f32⟩
  | .hbm, ⟨100, _⟩ => ⟨S_, .f32⟩
  | .hbm, ⟨101, _⟩ => ⟨S8192, .f32⟩
  | .hbm, ⟨102, _⟩ => ⟨S8192, .f32⟩
  | .hbm, ⟨103, _⟩ => ⟨S8192, .f32⟩
  | .hbm, ⟨104, _⟩ => ⟨S8192, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_v31 : Ref sig .tc := ⟨.hbm, 40, rfl⟩
abbrev main_v32 : Ref sig .tc := ⟨.hbm, 41, rfl⟩
abbrev main_c_5 : Ref sig .tc := ⟨.hbm, 42, rfl⟩
abbrev main_v33 : Ref sig .tc := ⟨.hbm, 43, rfl⟩
abbrev main_v34 : Ref sig .tc := ⟨.hbm, 44, rfl⟩
abbrev main_c_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_7 : Ref sig .tc := ⟨.hbm, 49, rfl⟩
abbrev main_v38 : Ref sig .tc := ⟨.hbm, 50, rfl⟩
abbrev main_v39 : Ref sig .tc := ⟨.hbm, 51, rfl⟩
abbrev main_c_8 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_9 : Ref sig .tc := ⟨.hbm, 60, rfl⟩
abbrev main_v47 : Ref sig .tc := ⟨.hbm, 61, rfl⟩
abbrev main_v48 : Ref sig .tc := ⟨.hbm, 62, rfl⟩
abbrev main_c_10 : Ref sig .tc := ⟨.hbm, 63, rfl⟩
abbrev main_v49 : Ref sig .tc := ⟨.hbm, 64, rfl⟩
abbrev main_v50 : Ref sig .tc := ⟨.hbm, 65, rfl⟩
abbrev main_c_11 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_12 : Ref sig .tc := ⟨.hbm, 70, rfl⟩
abbrev main_v54 : Ref sig .tc := ⟨.hbm, 71, rfl⟩
abbrev main_v55 : Ref sig .tc := ⟨.hbm, 72, rfl⟩
abbrev main_c_13 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c_14 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_15 : Ref sig .tc := ⟨.hbm, 89, rfl⟩
abbrev main_v70 : Ref sig .tc := ⟨.hbm, 90, rfl⟩
abbrev main_v71 : Ref sig .tc := ⟨.hbm, 91, rfl⟩
abbrev main_cst_16 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_17 : Ref sig .tc := ⟨.hbm, 97, rfl⟩
abbrev main_v76 : Ref sig .tc := ⟨.hbm, 98, rfl⟩
abbrev main_v77 : Ref sig .tc := ⟨.hbm, 99, rfl⟩
abbrev main_cst_18 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_19 : Ref sig .tc := ⟨.hbm, 105, rfl⟩
abbrev main_v82 : Ref sig .tc := ⟨.hbm, 106, rfl⟩
abbrev main_cst_20 : Ref sig .tc := ⟨.hbm, 107, rfl⟩
abbrev main_v83 : Ref sig .tc := ⟨.hbm, 108, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  reducesTo_S8192x256_S8192_d1 : S8192x256.ReducesTo [1] S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.LibAfter.lean ====
/-
  The contents of a buffer after a line of host operations, read one operation at a time.

  Every buffer of a printed program is written by one operation. So what the line leaves in the buffer operation k
  writes is what operation k left there, and that is its function applied to what the WHOLE line leaves in the buffers
  it reads, since no operation from k on writes those. The bookkeeping is a list ys of the references the operations
  write, in order: "x is not written from position k on" is "x is not among ys from position k on", a decidable
  question about a list of references.
-/
import Idealize.ShloMosaic.Lib.StableHlo.Run

noncomputable section

namespace Cert.LibAfter

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer no operation from position k on writes holds what the first k operations left. -/
theorem after_take (ops : List (HloOp τ sig Val)) (k : Nat) (V : Valuation τ sig Val) (b : DevRef τ sig)
    (h : ∀ o ∈ ops.drop k, b ∉ o.writes) : after ops V b = after (ops.take k) V b := by
  conv_lhs => rw [← List.take_append_drop k ops]
  rw [after_append, after_of_forall_not_mem _ _ h]

/-- A buffer no operation after position k writes holds what operation k left, run on what the first k operations left. -/
theorem after_at (ops : List (HloOp τ sig Val)) (k : Nat) (hk : k < ops.length) (V : Valuation τ sig Val)
    (b : DevRef τ sig) (h : ∀ o ∈ ops.drop (k + 1), b ∉ o.writes) :
    after ops V b = (ops[k]).result (after (ops.take k) V) b := by
  conv_lhs => rw [← List.take_append_drop k ops, List.drop_eq_getElem_cons hk]
  rw [after_append, after_cons, after_of_forall_not_mem _ _ h]

/-- The line writes, operation by operation, exactly the references ys, one each. -/
def Writes (ops : List (HloOp τ sig Val)) (ys : List (Ref sig .tc)) : Prop :=
  ops.map (fun o => o.writes) = ys.map fun y => ({Proc.devRef .tc y} : Finset (DevRef τ sig))

/-- A reference that is not among ys from position k on is written by no operation from position k on. -/
theorem Writes.not_written {ops : List (HloOp τ sig Val)} {ys : List (Ref sig .tc)} (hW : Writes ops ys) (k : Nat)
    (x : Ref sig .tc) (hx : x ∉ ys.drop k) : ∀ o ∈ ops.drop k, (Proc.devRef .tc x : DevRef τ sig) ∉ o.writes := by
  intro o ho hmem
  have h1 : o.writes ∈ (ops.drop k).map (fun o => o.writes) := List.mem_map_of_mem ho
  rw [List.map_drop, hW, ← List.map_drop] at h1
  obtain ⟨y', hy', he⟩ := List.mem_map.mp h1
  rw [← he, Finset.mem_singleton] at hmem
  have hxy : x = y' := Proc.devRef_injective _ hmem
  exact hx (hxy ▸ hy')

variable {ops : List (HloOp τ sig Val)} {ys : List (Ref sig .tc)}

/-- What the line leaves in the buffer operation k writes: operation k's result on what the first k operations left. -/
theorem Writes.at (hW : Writes ops ys) (V : Valuation τ sig Val) (k : Nat) {op : HloOp τ sig Val} {y : Ref sig .tc}
    (hop : ops[k]? = some op) (hy : y ∉ ys.drop (k + 1)) :
    after ops V (Proc.devRef .tc y) = op.result (after (ops.take k) V) (Proc.devRef .tc y) := by
  obtain ⟨hk, he⟩ := List.getElem?_eq_some_iff.mp hop
  rw [after_at ops k hk V _ (hW.not_written (k + 1) y hy), he]

/-- A buffer not written from position k on: what the first k operations left there is what the whole line leaves. -/
theorem Writes.back (hW : Writes ops ys) (V : Valuation τ sig Val) (k : Nat) (x : Ref sig .tc) (hx : x ∉ ys.drop k) :
    after (ops.take k) V (Proc.devRef .tc x) = after ops V (Proc.devRef .tc x) :=
  (after_take ops k V _ (hW.not_written k x hx)).symm

/-- A buffer the line never writes keeps its contents. -/
theorem Writes.kept (hW : Writes ops ys) (V : Valuation τ sig Val) (x : Ref sig .tc) (hx : x ∉ ys) :
    after ops V (Proc.devRef .tc x) = V (Proc.devRef .tc x) :=
  after_of_forall_not_mem ops V (hW.not_written 0 x hx)

/-! ## One operation: its result buffer from its operands' buffers, all after the whole line -/

theorem Writes.nullary (hW : Writes ops ys) (V : Valuation τ sig Val) (k : Nat) {y : Ref sig .tc} {v : y.ty.Contents Val} {hy}
    (hop : ops[k]? = some (nullary y v hy)) (hy' : y ∉ ys.drop (k + 1)) :
    after ops V (Proc.devRef .tc y) = v := by
  rw [hW.at V k hop hy', nullary_result]

theorem Writes.unary (hW : Writes ops ys) (V : Valuation τ sig Val) (k : Nat) {x y : Ref sig .tc}
    {f : x.ty.Contents Val → y.ty.Contents Val} {hx hy}
    (hop : ops[k]? = some (unary x y f hx hy)) (hy' : y ∉ ys.drop (k + 1)) (hx' : x ∉ ys.drop k) :
    after ops V (Proc.devRef .tc y) = f (after ops V (Proc.devRef .tc x)) := by
  rw [hW.at V k hop hy', unary_result]
  exact congrArg f (hW.back V k x hx')

theorem Writes.binary (hW : Writes ops ys) (V : Valuation τ sig Val) (k : Nat) {a b y : Ref sig .tc}
    {f : a.ty.Contents Val → b.ty.Contents Val → y.ty.Contents Val} {ha hb hy}
    (hop : ops[k]? = some (binary a b y f ha hb hy)) (hy' : y ∉ ys.drop (k + 1)) (ha' : a ∉ ys.drop k)
    (hb' : b ∉ ys.drop k) :
    after ops V (Proc.devRef .tc y) = f (after ops V (Proc.devRef .tc a)) (after ops V (Proc.devRef .tc b)) := by
  rw [hW.at V k hop hy', binary_result]
  exact congrArg₂ f (hW.back V k a ha') (hW.back V k b hb')

theorem Writes.ternary (hW : Writes ops ys) (V : Valuation τ sig Val) (k : Nat) {c a b y : Ref sig .tc}
    {f : c.ty.Contents Val → a.ty.Contents Val → b.ty.Contents Val → y.ty.Contents Val} {hc ha hb hy}
    (hop : ops[k]? = some (ternary c a b y f hc ha hb hy)) (hy' : y ∉ ys.drop (k + 1)) (hc' : c ∉ ys.drop k)
    (ha' : a ∉ ys.drop k) (hb' : b ∉ ys.drop k) :
    after ops V (Proc.devRef .tc y)
      = f (after ops V (Proc.devRef .tc c)) (after ops V (Proc.devRef .tc a)) (after ops V (Proc.devRef .tc b)) := by
  rw [hW.at V k hop hy', ternary_result, hW.back V k c hc', hW.back V k a ha', hW.back V k b hb']

theorem Writes.reshape (hW : Writes ops ys) (V : Valuation τ sig Val) (k : Nat) {x y : Ref sig .tc}
    {he : x.ty.elt = y.ty.elt} {hn : x.ty.shape.ShapeCasts y.ty.shape} {hx hy}
    (hop : ops[k]? = some (reshape x y he hn hx hy)) (hy' : y ∉ ys.drop (k + 1)) (hx' : x ∉ ys.drop k) :
    after ops V (Proc.devRef .tc y) = fun i => he ▸ shapeCast y.ty.shape (after ops V (Proc.devRef .tc x)) hn i := by
  rw [hW.at V k hop hy', reshape_result, hW.back V k x hx']

/-! ## The same for an operation of a called function

  A called function's operation names its buffers through typed references and carries contents across the equation
  "the buffer's type is the value's type". When that equation is the reflexive one the transport is the identity, and
  the operation's function applies to the buffers' contents as they are. -/

theorem Writes.tunary (hW : Writes ops ys) (V : Valuation τ sig Val) (k : Nat) {x y : Ref sig .tc} {ox ux oy uy}
    {g : x.ty.Contents Val → y.ty.Contents Val}
    (hop : ops[k]? = some (TRef.unary (⟨x, rfl, ox, ux⟩ : TRef sig x.ty) (⟨y, rfl, oy, uy⟩ : TRef sig y.ty) g))
    (hy' : y ∉ ys.drop (k + 1)) (hx' : x ∉ ys.drop k) :
    after ops V (Proc.devRef .tc y) = g (after ops V (Proc.devRef .tc x)) := by
  have h := hW.unary V k hop hy' hx'
  simpa only [TRef.toBuf, TRef.ofBuf, cast_eq] using h

theorem Writes.tbinary (hW : Writes ops ys) (V : Valuation τ sig Val) (k : Nat) {a b y : Ref sig .tc} {oa ua ob ub oy uy}
    {g : a.ty.Contents Val → b.ty.Contents Val → y.ty.Contents Val}
    (hop : ops[k]? = some (TRef.binary (⟨a, rfl, oa, ua⟩ : TRef sig a.ty) (⟨b, rfl, ob, ub⟩ : TRef sig b.ty)
      (⟨y, rfl, oy, uy⟩ : TRef sig y.ty) g))
    (hy' : y ∉ ys.drop (k + 1)) (ha' : a ∉ ys.drop k) (hb' : b ∉ ys.drop k) :
    after ops V (Proc.devRef .tc y) = g (after ops V (Proc.devRef .tc a)) (after ops V (Proc.devRef .tc b)) := by
  have h := hW.binary V k hop hy' ha' hb'
  simpa only [TRef.toBuf, TRef.ofBuf, cast_eq] using h

theorem Writes.tternary (hW : Writes ops ys) (V : Valuation τ sig Val) (k : Nat) {c a b y : Ref sig .tc}
    {oc uc oa ua ob ub oy uy} {g : c.ty.Contents Val → a.ty.Contents Val → b.ty.Contents Val → y.ty.Contents Val}
    (hop : ops[k]? = some (TRef.ternary (⟨c, rfl, oc, uc⟩ : TRef sig c.ty) (⟨a, rfl, oa, ua⟩ : TRef sig a.ty)
      (⟨b, rfl, ob, ub⟩ : TRef sig b.ty) (⟨y, rfl, oy, uy⟩ : TRef sig y.ty) g))
    (hy' : y ∉ ys.drop (k + 1)) (hc' : c ∉ ys.drop k) (ha' : a ∉ ys.drop k) (hb' : b ∉ ys.drop k) :
    after ops V (Proc.devRef .tc y)
      = g (after ops V (Proc.devRef .tc c)) (after ops V (Proc.devRef .tc a)) (after ops V (Proc.devRef .tc b)) := by
  have h := hW.ternary V k hop hy' hc' ha' hb'
  simpa only [TRef.toBuf, TRef.ofBuf, cast_eq] using h

end Cert.LibAfter

end
-- ==== Proof.RefStages.lean ====
/- The reference's buffers after the whole line of @main, one operation at a time.

   @main is a line of 107 host operations, each writing one buffer of its own. What the line leaves in the buffer
   operation k writes is operation k's function of what the line leaves in the buffers it reads (Proof/LibAfter.lean:
   no operation from k on writes those). Read in program order this names every buffer's final contents as the stage
   the read-at-an-index module defines for it, `ReadP.val_<buffer>` of the two arguments: operation k's stage IS its
   function applied to its operands' stages, by definition.

   Each of the 107 rows `st_<buffer>` is one rewrite by the lemma for its operation's kind (no operand, one, two,
   three) at its position in the line, then by its operands' rows, and `rfl`. Around them: the list `ys` of written
   references, that the line writes exactly those (`hW`), the two arguments kept, and the run. -/
import proofs.«413375_j26920855012068_3_alg».proof.Proof.PRun
import proofs.«413375_j26920855012068_3_alg».proof.Proof.PRead
import proofs.«413375_j26920855012068_3_alg».proof.Proof.LibAfter

noncomputable section

namespace Cert.RefStages

open Cert.ReferenceIdeal Cert.ReferenceIdeal.Gen Cert.ReferenceIdeal.ValueP Cert.LibAfter
open Idealize.ShloMosaic Idealize.ShloMosaic.TcCoe Idealize.SL.Sem Idealize.ShloMosaic.StableHlo

variable {F : FTy → Type} [FloatOps F]

/-- The references the operations write, in program order: one each. -/
abbrev ys : List (Ref sig .tc) :=
  [main_v0, main_cst, main_v1, main_v2, main_v3, main_cst_0, main_v4, main_v5,
   main_v6, main_v7, main_v8, main_cst_1, main_v9, main_v10, main_v11, main_cst_2,
   main_v12, main_v13, main_v14, main_v15, main_v16, main_v17, main_cst_3, main_v18,
   main_v19, main_v20, main_v21, main_v22, main_v23, main_v24, main_v25, main_cst_4,
   main_v26, main_v27, main_v28, main_v29, main_v30, main_c, main_v31, main_v32,
   main_c_5, main_v33, main_v34, main_c_6, main_v35, main_v36, main_v37, main_c_7,
   main_v38, main_v39, main_c_8, main_v40, main_v41, main_v42, main_v43, main_v44,
   main_v45, main_v46, main_c_9, main_v47, main_v48, main_c_10, main_v49, main_v50,
   main_c_11, main_v51, main_v52, main_v53, main_c_12, main_v54, main_v55, main_c_13,
   main_v56, main_v57, main_v58, main_v59, main_v60, main_v61, main_v62, main_v63,
   main_v64, main_v65, main_c_14, main_v66, main_v67, main_v68, main_v69, main_cst_15,
   main_v70, main_v71, main_cst_16, main_v72, main_v73, main_v74, main_v75, main_cst_17,
   main_v76, main_v77, main_cst_18, main_v78, main_v79, main_v80, main_v81, main_cst_19,
   main_v82, main_cst_20, main_v83]

set_option maxRecDepth 8192 in
/-- The line writes exactly those: each operation's written set is the one buffer of its result. -/
theorem hW : Writes (ops (F := F)) ys := rfl

/-- No operation writes an argument of @main: it keeps its contents. -/
theorem st_arg0 (V : Valuation τ sig (Elt F)) :
    after (ops (F := F)) V (Proc.devRef .tc main_arg0) = V (Proc.devRef .tc main_arg0) :=
  hW.kept V main_arg0 (by decide)
theorem st_arg1 (V : Valuation τ sig (Elt F)) :
    after (ops (F := F)) V (Proc.devRef .tc main_arg1) = V (Proc.devRef .tc main_arg1) :=
  hW.kept V main_arg1 (by decide)

/-! ## Operation k's buffer holds its stage -/

theorem st_v0 (V : Valuation τ sig (Elt F)) :
    after ops V (Proc.devRef .tc main_v0) = ReadP.val_main_v0 (F := F) (V (Proc.devRef .tc main_arg0)) := by
  rw [hW.binary V 0 rfl (by decide) (by decide) (by decide), st_arg0 V] <;> rfl

theorem st_cst (V : Valuation τ sig (Elt F)) :
    after ops V (Proc.devRef .tc main_cst) = ReadP.val_main_cst (F := F) := by
  rw [hW.nullary V 1 rfl (by decide)] <;> rfl

theorem st_v1 (V : Valuation τ sig (Elt F)) :
    after ops V (Proc.devRef .tc main_v1) = ReadP.val_main_v1 (F := F) (V (Proc.devRef .tc main_arg0)) := by
  rw [hW.binary V 2 rfl (by decide) (by decide) (by decide), st_v0 V, st_cst V] <;> rfl

theorem st_v2 (V : Valuation τ sig (Elt F)) :
    after ops V (Proc.devRef .tc main_v2) = ReadP.val_main_v2 (F := F) (V (Proc.devRef .tc main_arg0)) := by
  rw [hW.unary V 3 rfl (by decide) (by decide), st_v1 V] <;> rfl

theorem st_v3 (V : Valuation τ sig (Elt F)) :
    after ops V (Proc.devRef .tc main_v3) = ReadP.val_main_v3 (F := F) (V (Proc.devRef .tc main_arg0)) := by
  rw [hW.unary V 4 rfl (by decide) (by decide), st_v2 V] <;> rfl

theorem st_cst_0 (V : Valuation τ sig (Elt F)) :
    after ops V (Proc.devRef .tc main_cst_0) = ReadP.val_main_cst_0 (F := F) := by
  rw [hW.nullary V 5 rfl (by decide)] <;> rfl

theorem st_v4 (V : Valuation τ sig (Elt F)) :
    after ops V (Proc.devRef .tc main_v4) = ReadP.val_main_v4 (F := F) := by
  rw [hW.unary V 6 rfl (by decide) (by decide), st_cst_0 V] <;> rfl

theorem st_v5 (V : Valuation τ sig (Elt F)) :
    after ops V (Proc.devRef .tc main_v5) = ReadP.val_main_v5 (F := F) (V (Proc.devRef .tc main_arg0)) := by
  rw [hW.binary V 7 rfl (by decide) (by decide) (by decide), st_v3 V, st_v4 V] <;> rfl

theorem st_v6 (V : Valuation τ sig (Elt F)) :
    after ops V (Proc.devRef .tc main_v6) = ReadP.val_main_v6 (F := F) (V (Proc.devRef .tc main_arg0)) := by
  rw [hW.unary V 8 rfl (by decide) (by decide), st_v5 V] <;> rfl

theorem st_v7 (V : Valuation τ sig (Elt F)) :
    after ops V (Proc.devRef .tc main_v7) = ReadP.val_main_v7 (F := F) (V (Proc.devRef .tc main_arg0)) := by
  rw [hW.binary V 9 rfl (by decide) (by decide) (by decide), st_arg0 V, st_v6 V] <;> rfl

theorem st_v8 (V : Valuation τ sig (Elt F)) :
    after ops V (Proc.devRef .tc main_v8) = ReadP.val_main_v8 (F := F) (V (Proc.devRef .tc main_arg1)) := by
  rw [hW.binary V 10 rfl (by decide) (by decide) (by decide), st_arg1 V] <;> rfl

theorem st_cst_1 (V : Valuation τ sig (Elt F)) :
    after ops V (Proc.devRef .tc main_cst_1) = ReadP.val_main_cst_1 (F := F) := by
  rw [hW.nullary V 11 rfl (by decide)] <;> rfl

theorem st_v9 (V : Valuation τ sig (Elt F)) :
    after ops V (Proc.devRef .tc main_v9) = ReadP.val_main_v9 (F := F) (V (Proc.devRef .tc main_arg1)) := by
  rw [hW.binary V 12 rfl (by decide) (by decide) (by decide), st_v8 V, st_cst_1 V] <;> rfl

theorem st_v10 (V : Valuation τ sig (Elt F)) :
    after ops V (Proc.devRef .tc main_v10) = ReadP.val_main_v10 (F := F) (V (Proc.devRef .tc main_arg1)) := by
  rw [hW.unary V 13 rfl (by decide) (by decide), st_v9 V] <;> rfl

theorem st_v11 (V : Valuation τ sig (Elt F)) :
    after ops V (Proc.devRef .tc main_v11) = ReadP.val_main_v11 (F := F) (V (Proc.devRef .tc main_arg1)) := by
  rw [hW.unary V 14 rfl (by decide) (by decide), st_v10 V] <;> rfl

theorem st_cst_2 (V : Valuation τ sig (Elt F)) :
    after ops V (Proc.devRef .tc main_cst_2) = ReadP.val_main_cst_2 (F := F) := by
  rw [hW.nullary V 15 rfl (by decide)] <;> rfl

theorem st_v12 (V : Valuation τ sig (Elt F)) :
    after ops V (Proc.devRef .tc main_v12) = ReadP.val_main_v12 (F := F) := by
  rw [hW.unary V 16 rfl (by decide) (by decide), st_cst_2 V] <;> rfl

theorem st_v13 (V : Valuation τ sig (Elt F)) :
    after ops V (Proc.devRef .tc main_v13) = ReadP.val_main_v13 (F := F) (V (Proc.devRef .tc main_arg1)) := by
  rw [hW.binary V 17 rfl (by decide) (by decide) (by decide), st_v11 V, st_v12 V] <;> rfl

theorem st_v14 (V : Valuation τ sig (Elt F)) :
    after ops V (Proc.devRef .tc main_v14) = ReadP.val_main_v14 (F := F) (V (Proc.devRef .tc main_arg1)) := by
  rw [hW.unary V 18 rfl (by decide) (by decide), st_v13 V] <;> rfl

theorem st_v15 (V : Valuation τ sig (Elt F)) :
    after ops V (Proc.devRef .tc main_v15) = ReadP.val_main_v15 (F := F) (V (Proc.devRef .tc main_arg1)) := by
  rw [hW.binary V 19 rfl (by decide) (by decide) (by decide), st_arg1 V, st_v14 V] <;> rfl

theorem st_v16 (V : Valuation τ sig (Elt F)) :
    after ops V (Proc.devRef .tc main_v16) = ReadP.val_main_v16 (F := F) (V (Proc.devRef .tc main_arg0)) (V (Proc.devRef .tc main_arg1)) := by
  rw [hW.binary V 20 rfl (by decide) (by decide) (by decide), st_v7 V, st_v15 V] <;> rfl

theorem st_v17 (V : Valuation τ sig (Elt F)) :
    after ops V (Proc.devRef .tc main_v17) = ReadP.val_main_v17 (F := F) (V (Proc.devRef .tc main_arg0)) (V (Proc.devRef .tc main_arg1)) := by
  rw [hW.binary V 21 rfl (by decide) (by decide) (by decide), st_v16 V] <;> rfl

theorem st_cst_3 (V : Valuation τ sig (Elt F)) :
    after ops V (Proc.devRef .tc main_cst_3) = ReadP.val_main_cst_3 (F := F) := by
  rw [hW.nullary V 22 rfl (by decide)] <;> rfl

theorem st_v18 (V : Valuation τ sig (Elt F)) :
    after ops V (Proc.devRef .tc main_v18) = ReadP.val_main_v18 (F := F) (V (Proc.devRef .tc main_arg0)) (V (Proc.devRef .tc main_arg1)) := by
  rw [hW.binary V 23 rfl (by decide) (by decide) (by decide), st_v17 V, st_cst_3 V] <;> rfl

theorem st_v19 (V : Valuation τ sig (Elt F)) :
    after ops V (Proc.devRef .tc main_v19) = ReadP.val_main_v19 (F := F) (V (Proc.devRef .tc main_arg0)) (V (Proc.devRef .tc main_arg1)) := by
  rw [hW.unary V 24 rfl (by decide) (by decide), st_v18 V] <;> rfl

theorem st_v20 (V : Valuation τ sig (Elt F)) :
    after ops V (Proc.devRef .tc main_v20) = ReadP.val_main_v20 (F := F) (V (Proc.devRef .tc main_arg0)) (V (Proc.devRef .tc main_arg1)) := by
  rw [hW.unary V 25 rfl (by decide) (by decide), st_v18 V] <;> rfl

theorem st_v21 (V : Valuation τ sig (Elt F)) :
    after ops V (Proc.devRef .tc main_v21) = ReadP.val_main_v21 (F := F) (V (Proc.devRef .tc main_arg0)) (V (Proc.devRef .tc main_arg1)) := by
  rw [hW.unary V 26 rfl (by decide) (by decide), st_v19 V] <;> rfl

theorem st_v22 (V : Valuation τ sig (Elt F)) :
    after ops V (Proc.devRef .tc main_v22) = ReadP.val_main_v22 (F := F) (V (Proc.devRef .tc main_arg0)) (V (Proc.devRef .tc main_arg1)) := by
  rw [hW.unary V 27 rfl (by decide) (by decide), st_v20 V] <;> rfl

theorem st_v23 (V : Valuation τ sig (Elt F)) :
    after ops V (Proc.devRef .tc main_v23) = ReadP.val_main_v23 (F := F) (V (Proc.devRef .tc main_arg0)) (V (Proc.devRef .tc main_arg1)) := by
  rw [hW.binary V 28 rfl (by decide) (by decide) (by decide), st_v21 V, st_v22 V] <;> rfl

theorem st_v24 (V : Valuation τ sig (Elt F)) :
    after ops V (Proc.devRef .tc main_v24) = ReadP.val_main_v24 (F := F) (V (Proc.devRef .tc main_arg0)) (V (Proc.devRef .tc main_arg1)) := by
  rw [hW.unary V 29 rfl (by decide) (by decide), st_v16 V] <;> rfl

theorem st_v25 (V : Valuation τ sig (Elt F)) :
    after ops V (Proc.devRef .tc main_v25) = ReadP.val_main_v25 (F := F) (V (Proc.devRef .tc main_arg0)) (V (Proc.devRef .tc main_arg1)) := by
  rw [hW.binary V 30 rfl (by decide) (by decide) (by decide), st_v16 V, st_v24 V] <;> rfl

theorem st_cst_4 (V : Valuation τ sig (Elt F)) :
    after ops V (Proc.devRef .tc main_cst_4) = ReadP.val_main_cst_4 (F := F) := by
  rw [hW.nullary V 31 rfl (by decide)] <;> rfl

theorem st_v26 (V : Valuation τ sig (Elt F)) :
    after ops V (Proc.devRef .tc main_v26) = ReadP.val_main_v26 (F := F) := by
  rw [hW.unary V 32 rfl (by decide) (by decide), st_cst_4 V] <;> rfl

theorem st_v27 (V : Valuation τ sig (Elt F)) :
    after ops V (Proc.devRef .tc main_v27) = ReadP.val_main_v27 (F := F) (V (Proc.devRef .tc main_arg0)) (V (Proc.devRef .tc main_arg1)) := by
  rw [hW.binary V 33 rfl (by decide) (by decide) (by decide), st_v26 V, st_v25 V] <;> rfl

theorem st_v28 (V : Valuation τ sig (Elt F)) :
    after ops V (Proc.devRef .tc main_v28) = ReadP.val_main_v28 (F := F) (V (Proc.devRef .tc main_arg0)) (V (Proc.devRef .tc main_arg1)) := by
  rw [hW.binary V 34 rfl (by decide) (by decide) (by decide), st_v23 V, st_v27 V] <;> rfl

theorem st_v29 (V : Valuation τ sig (Elt F)) :
    after ops V (Proc.devRef .tc main_v29) = ReadP.val_main_v29 (F := F) (V (Proc.devRef .tc main_arg0)) (V (Proc.devRef .tc main_arg1)) := by
  rw [hW.unary V 35 rfl (by decide) (by decide), st_v28 V] <;> rfl

theorem st_v30 (V : Valuation τ sig (Elt F)) :
    after ops V (Proc.devRef .tc main_v30) = ReadP.val_main_v30 (F := F) := by
  rw [hW.nullary V 36 rfl (by decide)] <;> rfl

theorem st_c (V : Valuation τ sig (Elt F)) :
    after ops V (Proc.devRef .tc main_c) = ReadP.val_main_c (F := F) := by
  rw [hW.nullary V 37 rfl (by decide)] <;> rfl

theorem st_v31 (V : Valuation τ sig (Elt F)) :
    after ops V (Proc.devRef .tc main_v31) = ReadP.val_main_v31 (F := F) := by
  rw [hW.unary V 38 rfl (by decide) (by decide), st_c V] <;> rfl

theorem st_v32 (V : Valuation τ sig (Elt F)) :
    after ops V (Proc.devRef .tc main_v32) = ReadP.val_main_v32 (F := F) := by
  rw [hW.binary V 39 rfl (by decide) (by decide) (by decide), st_v30 V, st_v31 V] <;> rfl

theorem st_c_5 (V : Valuation τ sig (Elt F)) :
    after ops V (Proc.devRef .tc main_c_5) = ReadP.val_main_c_5 (F := F) := by
  rw [hW.nullary V 40 rfl (by decide)] <;> rfl

theorem st_v33 (V : Valuation τ sig (Elt F)) :
    after ops V (Proc.devRef .tc main_v33) = ReadP.val_main_v33 (F := F) := by
  rw [hW.unary V 41 rfl (by decide) (by decide), st_c_5 V] <;> rfl

theorem st_v34 (V : Valuation τ sig (Elt F)) :
    after ops V (Proc.devRef .tc main_v34) = ReadP.val_main_v34 (F := F) := by
  rw [hW.binary V 42 rfl (by decide) (by decide) (by decide), st_v30 V, st_v33 V] <;> rfl

theorem st_c_6 (V : Valuation τ sig (Elt F)) :
    after ops V (Proc.devRef .tc main_c_6) = ReadP.val_main_c_6 (F := F) := by
  rw [hW.nullary V 43 rfl (by decide)] <;> rfl

theorem st_v35 (V : Valuation τ sig (Elt F)) :
    after ops V (Proc.devRef .tc main_v35) = ReadP.val_main_v35 (F := F) := by
  rw [hW.unary V 44 rfl (by decide) (by decide), st_c_6 V] <;> rfl

theorem st_v36 (V : Valuation τ sig (Elt F)) :
    after ops V (Proc.devRef .tc main_v36) = ReadP.val_main_v36 (F := F) := by
  rw [hW.binary V 45 rfl (by decide) (by decide) (by decide), st_v30 V, st_v35 V] <;> rfl

theorem st_v37 (V : Valuation τ sig (Elt F)) :
    after ops V (Proc.devRef .tc main_v37) = ReadP.val_main_v37 (F := F) := by
  rw [hW.ternary V 46 rfl (by decide) (by decide) (by decide) (by decide), st_v34 V, st_v36 V, st_v30 V] <;> rfl

theorem st_c_7 (V : Valuation τ sig (Elt F)) :
    after ops V (Proc.devRef .tc main_c_7) = ReadP.val_main_c_7 (F := F) := by
  rw [hW.nullary V 47 rfl (by decide)] <;> rfl

theorem st_v38 (V : Valuation τ sig (Elt F)) :
    after ops V (Proc.devRef .tc main_v38) = ReadP.val_main_v38 (F := F) := by
  rw [hW.unary V 48 rfl (by decide) (by decide), st_c_7 V] <;> rfl

theorem st_v39 (V : Valuation τ sig (Elt F)) :
    after ops V (Proc.devRef .tc main_v39) = ReadP.val_main_v39 (F := F) := by
  rw [hW.binary V 49 rfl (by decide) (by decide) (by decide), st_v32 V, st_v38 V] <;> rfl

theorem st_c_8 (V : Valuation τ sig (Elt F)) :
    after ops V (Proc.devRef .tc main_c_8) = ReadP.val_main_c_8 (F := F) := by
  rw [hW.nullary V 50 rfl (by decide)] <;> rfl

theorem st_v40 (V : Valuation τ sig (Elt F)) :
    after ops V (Proc.devRef .tc main_v40) = ReadP.val_main_v40 (F := F) := by
  rw [hW.unary V 51 rfl (by decide) (by decide), st_c_8 V] <;> rfl

theorem st_v41 (V : Valuation τ sig (Elt F)) :
    after ops V (Proc.devRef .tc main_v41) = ReadP.val_main_v41 (F := F) := by
  rw [hW.binary V 52 rfl (by decide) (by decide) (by decide), st_v32 V, st_v40 V] <;> rfl

theorem st_v42 (V : Valuation τ sig (Elt F)) :
    after ops V (Proc.devRef .tc main_v42) = ReadP.val_main_v42 (F := F) := by
  rw [hW.ternary V 53 rfl (by decide) (by decide) (by decide) (by decide), st_v39 V, st_v41 V, st_v32 V] <;> rfl

theorem st_v43 (V : Valuation τ sig (Elt F)) :
    after ops V (Proc.devRef .tc main_v43) = ReadP.val_main_v43 (F := F) := by
  rw [hW.unary V 54 rfl (by decide) (by decide), st_v37 V] <;> rfl

theorem st_v44 (V : Valuation τ sig (Elt F)) :
    after ops V (Proc.devRef .tc main_v44) = ReadP.val_main_v44 (F := F) := by
  rw [hW.unary V 55 rfl (by decide) (by decide), st_v42 V] <;> rfl

theorem st_v45 (V : Valuation τ sig (Elt F)) :
    after ops V (Proc.devRef .tc main_v45) = ReadP.val_main_v45 (F := F) := by
  rw [hW.binary V 56 rfl (by decide) (by decide) (by decide), st_v43 V, st_v44 V] <;> rfl

theorem st_v46 (V : Valuation τ sig (Elt F)) :
    after ops V (Proc.devRef .tc main_v46) = ReadP.val_main_v46 (F := F) (V (Proc.devRef .tc main_arg0)) (V (Proc.devRef .tc main_arg1)) := by
  rw [hW.binary V 57 rfl (by decide) (by decide) (by decide), st_v29 V, st_v45 V] <;> rfl

theorem st_c_9 (V : Valuation τ sig (Elt F)) :
    after ops V (Proc.devRef .tc main_c_9) = ReadP.val_main_c_9 (F := F) := by
  rw [hW.nullary V 58 rfl (by decide)] <;> rfl

theorem st_v47 (V : Valuation τ sig (Elt F)) :
    after ops V (Proc.devRef .tc main_v47) = ReadP.val_main_v47 (F := F) := by
  rw [hW.unary V 59 rfl (by decide) (by decide), st_c_9 V] <;> rfl

theorem st_v48 (V : Valuation τ sig (Elt F)) :
    after ops V (Proc.devRef .tc main_v48) = ReadP.val_main_v48 (F := F) := by
  rw [hW.binary V 60 rfl (by decide) (by decide) (by decide), st_v30 V, st_v47 V] <;> rfl

theorem st_c_10 (V : Valuation τ sig (Elt F)) :
    after ops V (Proc.devRef .tc main_c_10) = ReadP.val_main_c_10 (F := F) := by
  rw [hW.nullary V 61 rfl (by decide)] <;> rfl

theorem st_v49 (V : Valuation τ sig (Elt F)) :
    after ops V (Proc.devRef .tc main_v49) = ReadP.val_main_v49 (F := F) := by
  rw [hW.unary V 62 rfl (by decide) (by decide), st_c_10 V] <;> rfl

theorem st_v50 (V : Valuation τ sig (Elt F)) :
    after ops V (Proc.devRef .tc main_v50) = ReadP.val_main_v50 (F := F) := by
  rw [hW.binary V 63 rfl (by decide) (by decide) (by decide), st_v48 V, st_v49 V] <;> rfl

theorem st_c_11 (V : Valuation τ sig (Elt F)) :
    after ops V (Proc.devRef .tc main_c_11) = ReadP.val_main_c_11 (F := F) := by
  rw [hW.nullary V 64 rfl (by decide)] <;> rfl

theorem st_v51 (V : Valuation τ sig (Elt F)) :
    after ops V (Proc.devRef .tc main_v51) = ReadP.val_main_v51 (F := F) := by
  rw [hW.unary V 65 rfl (by decide) (by decide), st_c_11 V] <;> rfl

theorem st_v52 (V : Valuation τ sig (Elt F)) :
    after ops V (Proc.devRef .tc main_v52) = ReadP.val_main_v52 (F := F) := by
  rw [hW.binary V 66 rfl (by decide) (by decide) (by decide), st_v48 V, st_v51 V] <;> rfl

theorem st_v53 (V : Valuation τ sig (Elt F)) :
    after ops V (Proc.devRef .tc main_v53) = ReadP.val_main_v53 (F := F) := by
  rw [hW.ternary V 67 rfl (by decide) (by decide) (by decide) (by decide), st_v50 V, st_v52 V, st_v48 V] <;> rfl

theorem st_c_12 (V : Valuation τ sig (Elt F)) :
    after ops V (Proc.devRef .tc main_c_12) = ReadP.val_main_c_12 (F := F) := by
  rw [hW.nullary V 68 rfl (by decide)] <;> rfl

theorem st_v54 (V : Valuation τ sig (Elt F)) :
    after ops V (Proc.devRef .tc main_v54) = ReadP.val_main_v54 (F := F) := by
  rw [hW.unary V 69 rfl (by decide) (by decide), st_c_12 V] <;> rfl

theorem st_v55 (V : Valuation τ sig (Elt F)) :
    after ops V (Proc.devRef .tc main_v55) = ReadP.val_main_v55 (F := F) := by
  rw [hW.binary V 70 rfl (by decide) (by decide) (by decide), st_v30 V, st_v54 V] <;> rfl

theorem st_c_13 (V : Valuation τ sig (Elt F)) :
    after ops V (Proc.devRef .tc main_c_13) = ReadP.val_main_c_13 (F := F) := by
  rw [hW.nullary V 71 rfl (by decide)] <;> rfl

theorem st_v56 (V : Valuation τ sig (Elt F)) :
    after ops V (Proc.devRef .tc main_v56) = ReadP.val_main_v56 (F := F) := by
  rw [hW.unary V 72 rfl (by decide) (by decide), st_c_13 V] <;> rfl

theorem st_v57 (V : Valuation τ sig (Elt F)) :
    after ops V (Proc.devRef .tc main_v57) = ReadP.val_main_v57 (F := F) := by
  rw [hW.binary V 73 rfl (by decide) (by decide) (by decide), st_v30 V, st_v56 V] <;> rfl

theorem st_v58 (V : Valuation τ sig (Elt F)) :
    after ops V (Proc.devRef .tc main_v58) = ReadP.val_main_v58 (F := F) := by
  rw [hW.ternary V 74 rfl (by decide) (by decide) (by decide) (by decide), st_v55 V, st_v57 V, st_v30 V] <;> rfl

theorem st_v59 (V : Valuation τ sig (Elt F)) :
    after ops V (Proc.devRef .tc main_v59) = ReadP.val_main_v59 (F := F) := by
  rw [hW.unary V 75 rfl (by decide) (by decide), st_v53 V] <;> rfl

theorem st_v60 (V : Valuation τ sig (Elt F)) :
    after ops V (Proc.devRef .tc main_v60) = ReadP.val_main_v60 (F := F) := by
  rw [hW.unary V 76 rfl (by decide) (by decide), st_v58 V] <;> rfl

theorem st_v61 (V : Valuation τ sig (Elt F)) :
    after ops V (Proc.devRef .tc main_v61) = ReadP.val_main_v61 (F := F) := by
  rw [hW.binary V 77 rfl (by decide) (by decide) (by decide), st_v59 V, st_v60 V] <;> rfl

theorem st_v62 (V : Valuation τ sig (Elt F)) :
    after ops V (Proc.devRef .tc main_v62) = ReadP.val_main_v62 (F := F) (V (Proc.devRef .tc main_arg0)) (V (Proc.devRef .tc main_arg1)) := by
  rw [hW.binary V 78 rfl (by decide) (by decide) (by decide), st_v29 V, st_v61 V] <;> rfl

theorem st_v63 (V : Valuation τ sig (Elt F)) :
    after ops V (Proc.devRef .tc main_v63) = ReadP.val_main_v63 (F := F) (V (Proc.devRef .tc main_arg0)) (V (Proc.devRef .tc main_arg1)) := by
  rw [hW.binary V 79 rfl (by decide) (by decide) (by decide), st_v46 V, st_v62 V] <;> rfl

theorem st_v64 (V : Valuation τ sig (Elt F)) :
    after ops V (Proc.devRef .tc main_v64) = ReadP.val_main_v64 (F := F) := by
  rw [hW.nullary V 80 rfl (by decide)] <;> rfl

theorem st_v65 (V : Valuation τ sig (Elt F)) :
    after ops V (Proc.devRef .tc main_v65) = ReadP.val_main_v65 (F := F) := by
  rw [hW.nullary V 81 rfl (by decide)] <;> rfl

theorem st_c_14 (V : Valuation τ sig (Elt F)) :
    after ops V (Proc.devRef .tc main_c_14) = ReadP.val_main_c_14 (F := F) := by
  rw [hW.nullary V 82 rfl (by decide)] <;> rfl

theorem st_v66 (V : Valuation τ sig (Elt F)) :
    after ops V (Proc.devRef .tc main_v66) = ReadP.val_main_v66 (F := F) := by
  rw [hW.unary V 83 rfl (by decide) (by decide), st_c_14 V] <;> rfl

theorem st_v67 (V : Valuation τ sig (Elt F)) :
    after ops V (Proc.devRef .tc main_v67) = ReadP.val_main_v67 (F := F) := by
  rw [hW.binary V 84 rfl (by decide) (by decide) (by decide), st_v64 V, st_v66 V] <;> rfl

theorem st_v68 (V : Valuation τ sig (Elt F)) :
    after ops V (Proc.devRef .tc main_v68) = ReadP.val_main_v68 (F := F) := by
  rw [hW.binary V 85 rfl (by decide) (by decide) (by decide), st_v67 V, st_v65 V] <;> rfl

theorem st_v69 (V : Valuation τ sig (Elt F)) :
    after ops V (Proc.devRef .tc main_v69) = ReadP.val_main_v69 (F := F) := by
  rw [hW.unary V 86 rfl (by decide) (by decide), st_v68 V] <;> rfl

theorem st_cst_15 (V : Valuation τ sig (Elt F)) :
    after ops V (Proc.devRef .tc main_cst_15) = ReadP.val_main_cst_15 (F := F) := by
  rw [hW.nullary V 87 rfl (by decide)] <;> rfl

theorem st_v70 (V : Valuation τ sig (Elt F)) :
    after ops V (Proc.devRef .tc main_v70) = ReadP.val_main_v70 (F := F) := by
  rw [hW.unary V 88 rfl (by decide) (by decide), st_cst_15 V] <;> rfl

theorem st_v71 (V : Valuation τ sig (Elt F)) :
    after ops V (Proc.devRef .tc main_v71) = ReadP.val_main_v71 (F := F) := by
  rw [hW.binary V 89 rfl (by decide) (by decide) (by decide), st_v70 V, st_v69 V] <;> rfl

theorem st_cst_16 (V : Valuation τ sig (Elt F)) :
    after ops V (Proc.devRef .tc main_cst_16) = ReadP.val_main_cst_16 (F := F) := by
  rw [hW.nullary V 90 rfl (by decide)] <;> rfl

theorem st_v72 (V : Valuation τ sig (Elt F)) :
    after ops V (Proc.devRef .tc main_v72) = ReadP.val_main_v72 (F := F) := by
  rw [hW.unary V 91 rfl (by decide) (by decide), st_cst_16 V] <;> rfl

theorem st_v73 (V : Valuation τ sig (Elt F)) :
    after ops V (Proc.devRef .tc main_v73) = ReadP.val_main_v73 (F := F) (V (Proc.devRef .tc main_arg0)) (V (Proc.devRef .tc main_arg1)) := by
  rw [hW.binary V 92 rfl (by decide) (by decide) (by decide), st_v29 V, st_v72 V] <;> rfl

theorem st_v74 (V : Valuation τ sig (Elt F)) :
    after ops V (Proc.devRef .tc main_v74) = ReadP.val_main_v74 (F := F) (V (Proc.devRef .tc main_arg0)) (V (Proc.devRef .tc main_arg1)) := by
  rw [hW.unary V 93 rfl (by decide) (by decide), st_v73 V] <;> rfl

theorem st_v75 (V : Valuation τ sig (Elt F)) :
    after ops V (Proc.devRef .tc main_v75) = ReadP.val_main_v75 (F := F) (V (Proc.devRef .tc main_arg0)) (V (Proc.devRef .tc main_arg1)) := by
  rw [hW.binary V 94 rfl (by decide) (by decide) (by decide), st_v71 V, st_v74 V] <;> rfl

theorem st_cst_17 (V : Valuation τ sig (Elt F)) :
    after ops V (Proc.devRef .tc main_cst_17) = ReadP.val_main_cst_17 (F := F) := by
  rw [hW.nullary V 95 rfl (by decide)] <;> rfl

theorem st_v76 (V : Valuation τ sig (Elt F)) :
    after ops V (Proc.devRef .tc main_v76) = ReadP.val_main_v76 (F := F) (V (Proc.devRef .tc main_arg0)) (V (Proc.devRef .tc main_arg1)) := by
  rw [hW.binary V 96 rfl (by decide) (by decide) (by decide), st_v75 V, st_cst_17 V] <;> rfl

theorem st_v77 (V : Valuation τ sig (Elt F)) :
    after ops V (Proc.devRef .tc main_v77) = ReadP.val_main_v77 (F := F) (V (Proc.devRef .tc main_arg0)) (V (Proc.devRef .tc main_arg1)) := by
  rw [hW.unary V 97 rfl (by decide) (by decide), st_v63 V] <;> rfl

theorem st_cst_18 (V : Valuation τ sig (Elt F)) :
    after ops V (Proc.devRef .tc main_cst_18) = ReadP.val_main_cst_18 (F := F) := by
  rw [hW.nullary V 98 rfl (by decide)] <;> rfl

theorem st_v78 (V : Valuation τ sig (Elt F)) :
    after ops V (Proc.devRef .tc main_v78) = ReadP.val_main_v78 (F := F) := by
  rw [hW.unary V 99 rfl (by decide) (by decide), st_cst_18 V] <;> rfl

theorem st_v79 (V : Valuation τ sig (Elt F)) :
    after ops V (Proc.devRef .tc main_v79) = ReadP.val_main_v79 (F := F) (V (Proc.devRef .tc main_arg0)) (V (Proc.devRef .tc main_arg1)) := by
  rw [hW.binary V 100 rfl (by decide) (by decide) (by decide), st_v77 V, st_v78 V] <;> rfl

theorem st_v80 (V : Valuation τ sig (Elt F)) :
    after ops V (Proc.devRef .tc main_v80) = ReadP.val_main_v80 (F := F) (V (Proc.devRef .tc main_arg0)) (V (Proc.devRef .tc main_arg1)) := by
  rw [hW.unary V 101 rfl (by decide) (by decide), st_v76 V] <;> rfl

theorem st_v81 (V : Valuation τ sig (Elt F)) :
    after ops V (Proc.devRef .tc main_v81) = ReadP.val_main_v81 (F := F) (V (Proc.devRef .tc main_arg0)) (V (Proc.devRef .tc main_arg1)) := by
  rw [hW.binary V 102 rfl (by decide) (by decide) (by decide), st_v79 V, st_v80 V] <;> rfl

theorem st_cst_19 (V : Valuation τ sig (Elt F)) :
    after ops V (Proc.devRef .tc main_cst_19) = ReadP.val_main_cst_19 (F := F) := by
  rw [hW.nullary V 103 rfl (by decide)] <;> rfl

theorem st_v82 (V : Valuation τ sig (Elt F)) :
    after ops V (Proc.devRef .tc main_v82) = ReadP.val_main_v82 (F := F) (V (Proc.devRef .tc main_arg0)) (V (Proc.devRef .tc main_arg1)) := by
  rw [hW.binary V 104 rfl (by decide) (by decide) (by decide), st_v81 V, st_cst_19 V] <;> rfl

theorem st_cst_20 (V : Valuation τ sig (Elt F)) :
    after ops V (Proc.devRef .tc main_cst_20) = ReadP.val_main_cst_20 (F := F) := by
  rw [hW.nullary V 105 rfl (by decide)] <;> rfl

theorem st_v83 (V : Valuation τ sig (Elt F)) :
    after ops V (Proc.devRef .tc main_v83) = ReadP.val_main_v83 (F := F) (V (Proc.devRef .tc main_arg0)) (V (Proc.devRef .tc main_arg1)) := by
  rw [hW.binary V 106 rfl (by decide) (by decide) (by decide), st_v82 V, st_cst_20 V] <;> rfl

/-! ## The run -/

/-- On every device, for any float values, from any memory with zero counters: every weakly fair execution of @main
    terminates with the result buffer at its stage of the two arguments' launch contents, and the arguments unchanged. -/
theorem ref_result (m : (ℓ : Loc nD τ sig) → Buf (Elt F) ℓ) (ρ : Dev nD → PrngReg) : θ_run defs (onTc (τ := τ) (main (F := F))) ⟨m, fun _ => 0, ρ⟩ fun r => ∀ c : Dev nD,
      r.2.mem ((c.tc : Thread nD τ).loc main_v83) = ReadP.val_main_v83 (F := F) (m ((c.tc : Thread nD τ).loc main_arg0)) (m ((c.tc : Thread nD τ).loc main_arg1))
      ∧ r.2.mem ((c.tc : Thread nD τ).loc main_arg0) = m ((c.tc : Thread nD τ).loc main_arg0) ∧ r.2.mem ((c.tc : Thread nD τ).loc main_arg1) = m ((c.tc : Thread nD τ).loc main_arg1) :=
  (θ_run defs _ _).mono (fun _ h c =>
      ⟨(h c main_v83).trans (st_v83 (launchContents m c)),
        (h c main_arg0).trans (st_arg0 (launchContents m c)),
        (h c main_arg1).trans (st_arg1 (launchContents m c))⟩)
    (run_after m ρ)

end Cert.RefStages

end
-- ==== Proof.KR0.lean ====
/-
  The first pallas_call (row normalisation, 4 blocks of 1024 rows), as a pipeline region entered with the TensorCore's
  buffers at contents `V`.

  At grid point `t` the two input windows hold rows `1024·t … 1024·t + 1023` of the two embedding arrays. The body loads
  both blocks whole and stores five blocks whole: the two normalised blocks (rounded to bf16), the squared norms of their
  rows, and the positive-pair value of each row. So each output's staging buffer after the body is ONE piece covering it,
  a pure function of the two input blocks; nothing is kept between points and no buffer of the kernel's own is used.
-/
import proofs.«413375_j26920855012068_3_alg».proof.Proof.Gen.Kernel.Launch
import proofs.«413375_j26920855012068_3_alg».proof.Proof.Gen.Kernel.Skeleton
import proofs.«413375_j26920855012068_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point: it is fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA : Rect S1024x256 := Rect.unit (s := S1024x256) ![0, 0] S1024x256.size inb_S1024x256_S1024x256_0_0
abbrev rB : Rect S1024x1 := Rect.unit (s := S1024x1) ![0, 0] S1024x1.size inb_S1024x1_S1024x1_0_0

/-! ## What the body leaves in each output window's buffer: one piece, the whole block -/

/-- The first array's rows normalised, -/
def out0_2 (x0 : Vec F S1024x256 .f32) : Vec F S1024x256 .bf16 := View.canon [⟨rA, k0_pay6 (View.ld x0 rA)⟩]
/-- the second's, -/
def out0_3 (x1 : Vec F S1024x256 .f32) : Vec F S1024x256 .bf16 := View.canon [⟨rA, k0_pay7 (View.ld x1 rA)⟩]
/-- the squared norms of the normalised rows of the first -/
def out0_4 (x0 : Vec F S1024x256 .f32) : Vec F S1024x1 .f32 := View.canon [⟨rB, k0_pay3 (View.ld x0 rA)⟩]
/-- and of the second, -/
def out0_5 (x1 : Vec F S1024x256 .f32) : Vec F S1024x1 .f32 := View.canon [⟨rB, k0_pay4 (View.ld x1 rA)⟩]
/-- and each row's positive-pair value. -/
def out0_6 (x0 x1 : Vec F S1024x256 .f32) : Vec F S1024x1 .f32 := View.canon [⟨rB, k0_pay5 (View.ld x0 rA) (View.ld x1 rA)⟩]

/-- One whole-block piece covers its buffer. -/
theorem coverA (p0 : Vec F S1024x256 .bf16) (y : S1024x256.Idx) :
    ∃ pc ∈ ([⟨rA, p0⟩] : List (View.Piece (Elt F) S1024x256 .bf16)), y ∈ pc.1.set :=
  View.cover_of_tiled [⟨rA, p0⟩] S1024x256.size (by rfl) y
theorem coverB (p0 : Vec F S1024x1 .f32) (y : S1024x1.Idx) :
    ∃ pc ∈ ([⟨rB, p0⟩] : List (View.Piece (Elt F) S1024x1 .f32)), y ∈ pc.1.set :=
  View.cover_of_tiled [⟨rB, p0⟩] S1024x1.size (by rfl) y

/-! ## The body's triple -/

set_option maxHeartbeats 4000000 in
/-- On whole staging memrefs, the inputs' at contents `x0`, `x1` and the outputs' at anything, the body runs to the
    continuation holding the inputs as they were and each output at its block. -/
theorem sound_kernel0 (c : Dev nD) (E : Set ℕ) (i : grid0.Coords)
    (arg1 : Memref sig .tc .vmem S1024x256 .f32) (harg1 : arg1.IsWhole) (arg2 : Memref sig .tc .vmem S1024x256 .f32) (harg2 : arg2.IsWhole)
    (arg3 : Memref sig .tc .vmem S1024x256 .bf16) (harg3 : arg3.IsWhole) (arg4 : Memref sig .tc .vmem S1024x256 .bf16) (harg4 : arg4.IsWhole)
    (arg5 : Memref sig .tc .vmem S1024x1 .f32) (harg5 : arg5.IsWhole) (arg6 : Memref sig .tc .vmem S1024x1 .f32) (harg6 : arg6.IsWhole)
    (arg7 : Memref sig .tc .vmem S1024x1 .f32) (harg7 : arg7.IsWhole)
    (x0 x1 : Vec F S1024x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)
            ∗ owns (c : Thread nD τ) arg5 fullShare (out0_4 x0) ∗ owns (c : Thread nD τ) arg6 fullShare (out0_5 x1)
            ∗ owns (c : Thread nD τ) arg7 fullShare (out0_6 x0 x1)) -∗ K ⟨⟩))
      ⊢ wp frame (wpE (defs₀ (F := F)) Variants.none c none) E (cc0__prep_kernel i arg1 harg1 arg2 harg2 arg3 harg3 arg4 harg4 arg5 harg5 arg6 harg6 arg7 harg7) K := by
  simp only [cc0__prep_kernel_eq_skeleton]; unfold cc0__prep_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; try dsimp only
    exact View.read_writes_eq_canon _ _ _ (coverA _)
  isplitl [H3]
  · iexists _; isplitr
    swap; · iexact H3
    ipureintro; try dsimp only
    exact View.read_writes_eq_canon _ _ _ (coverA _)
  isplitl [H4]
  · iexists _; isplitr
    swap; · iexact H4
    ipureintro; try dsimp only
    exact View.read_writes_eq_canon _ _ _ (coverB _)
  isplitl [H5]
  · iexists _; isplitr
    swap; · iexact H5
    ipureintro; try dsimp only
    exact View.read_writes_eq_canon _ _ _ (coverB _)
  iexists _; isplitr
  swap; · iexact H6
  ipureintro; try dsimp only
  exact View.read_writes_eq_canon _ _ _ (coverB _)

/-! ## The pipeline's proof data -/

/-- The arrays as the region finds them; after the body at point `t` each input's buffer at its block and each output's at its
    function of the two input blocks; the invariant is the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
    | ⟨4, _⟩ => out0_4 (iblk0 V c 0 t)
    | ⟨5, _⟩ => out0_5 (iblk0 V c 1 t)
    | ⟨6, _⟩ => out0_6 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]
theorem after0_4 (c : Dev nD) (t : Fin cfg0.N) : (dat0 V c).after 4 t = out0_4 (iblk0 V c 0 t) := by dsimp only [dat0]
theorem after0_5 (c : Dev nD) (t : Fin cfg0.N) : (dat0 V c).after 5 t = out0_5 (iblk0 V c 1 t) := by dsimp only [dat0]
theorem after0_6 (c : Dev nD) (t : Fin cfg0.N) : (dat0 V c).after 6 t = out0_6 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The inputs' memrefs hold their blocks, so the body's triple applies; the invariant and the core's dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1.lean ====
/-
  The second pallas_call (log-denominators, 16 blocks of 512 rows), as a pipeline region entered with the TensorCore's
  buffers at contents `V`.

  Window 0 is the point's 512 representation rows, window 1 ALL 8192 representation rows (the same array as window 0, read
  whole and fetched once), window 2 the point's 512 squared norms as a column, window 3 all 8192 squared norms as a row
  (fetched once), window 4 the output column of 512 log-denominators. The body zero-fills a scratch column, adds to it the
  row sums of the masked exponentials over four runs of 2048 columns (a counted loop, gone through by its invariant), and
  stores the logarithm of the scratch into the output block. The scratch is written whole before it is read at every point,
  so nothing is carried between points: the invariant holds it at any contents. The two windows on one array each hold half
  of the array's share.
-/
import proofs.«413375_j26920855012068_3_alg».proof.Proof.Gen.Kernel.Launch
import proofs.«413375_j26920855012068_3_alg».proof.Proof.Gen.Kernel.Skeleton
import proofs.«413375_j26920855012068_3_alg».proof.Proof.Gen.Kernel.Loops
import proofs.«413375_j26920855012068_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs the pipeline passes the body -/

/-- One staging buffer of the output window, through which its contents are stated (the choice does not matter). -/
abbrev VO1 : View sig .tc .vmem S512x1 .f32 := (Memref.whole cc1_stg4_0 : Memref sig .tc .vmem S512x1 .f32).view
abbrev ms1_0 (t : Fin cfg1.N) : Memref sig .tc .vmem S512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8192 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
/-- The scratch column: a whole scoped buffer of the kernel's own, passed beside the windows. -/
abbrev scM1 : Memref sig .tc .vmem S512x1 .f32 := Memref.whole cc1_scratch0

/-- The region's invariant, conjunct by conjunct: every scoped buffer that is no staging buffer of this call at some
    contents — the last of them the scratch column, as the body takes it — and the generator register at some state. -/
theorem PhiA1_eq (c : Dev nD) :
    (Pipeline.ΦA (U := UR sig nD τ) (Val := Elt F) spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc1_scratch0), owns (c : Thread nD τ) scM1 fullShare f)) ∗ ∃ r, prngReg c r) := by
  unfold Pipeline.ΦA; rw [scopedRest1_eq]; simp only [scM1, owns_whole]

/-! ## The body's run -/

set_option maxHeartbeats 4000000 in
/-- What the body's one store leaves in the output's staging memref, as pieces, WITH the proof that on whole staging
    memrefs — the four inputs' at their contents, the output's and the scratch's at anything — the body runs to the
    continuation holding the inputs as they were, the scratch at some contents and the output's buffer with the pieces
    written. The pieces are what the run finds. -/
noncomputable def kernelRun1 (c : Dev nD) (i : grid1.Coords)
    (arg1 : Memref sig .tc .vmem S512x256 .bf16) (harg1 : arg1.IsWhole) (arg2 : Memref sig .tc .vmem S8192x256 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S512x1 .f32) (harg5 : arg5.IsWhole) (arg6 : Memref sig .tc .vmem S512x1 .f32) (harg6 : arg6.IsWhole)
    (x0 : Vec F S512x256 .bf16) (x1 : Vec F S8192x256 .bf16) (x2 : Vec F S512x1 .f32) (x3 : Vec F S1x8192 .f32) :
    { L : List (View.Piece (Elt F) S512x1 .f32) //
      ∀ (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L)
                ∗ (∃ d, owns (c : Thread nD τ) arg6 fullShare d)) -∗ K ⟨⟩))
          ⊢ wp frame (wpE (defs₀ (F := F)) Variants.none c none) Set.univ
              (cc1__denom_kernel i arg1 harg1 arg2 harg2 arg3 harg3 arg4 harg4 arg5 harg5 arg6 harg6) K } := by
  refine ⟨?_, fun K => ?run⟩
  case run =>
    simp only [cc1__denom_kernel_eq_skeleton]; unfold cc1__denom_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0
    obtain rfl := harg2.eq_unread hf1
    obtain rfl := harg3.eq_unread hf2
    obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _, _; isplitr; swap; · iexact HS
    ipureintro; rfl

/-- The run's pieces for the output tile its block (one whole-block store), so they cover it. -/
theorem cover1_4 (c : Dev nD) (i : grid1.Coords)
    (arg1 : Memref sig .tc .vmem S512x256 .bf16) (harg1 : arg1.IsWhole) (arg2 : Memref sig .tc .vmem S8192x256 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S512x1 .f32) (harg5 : arg5.IsWhole) (arg6 : Memref sig .tc .vmem S512x1 .f32) (harg6 : arg6.IsWhole)
    (x0 : Vec F S512x256 .bf16) (x1 : Vec F S8192x256 .bf16) (x2 : Vec F S512x1 .f32) (x3 : Vec F S1x8192 .f32) (y : S512x1.Idx) :
    ∃ pc ∈ (kernelRun1 c i arg1 harg1 arg2 harg2 arg3 harg3 arg4 harg4 arg5 harg5 arg6 harg6 x0 x1 x2 x3).1, y ∈ pc.1.set :=
  View.cover_of_tiledL (kernelRun1 c i arg1 harg1 arg2 harg2 arg3 harg3 arg4 harg4 arg5 harg5 arg6 harg6 x0 x1 x2 x3).1 S512x1.size (by sl_kernel_rfl) y

/-- What the run leaves in the output's staging buffer: its pieces read back over anything. -/
def out1_4 (c : Dev nD) (i : grid1.Coords)
    (arg1 : Memref sig .tc .vmem S512x256 .bf16) (harg1 : arg1.IsWhole) (arg2 : Memref sig .tc .vmem S8192x256 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S512x1 .f32) (harg5 : arg5.IsWhole) (arg6 : Memref sig .tc .vmem S512x1 .f32) (harg6 : arg6.IsWhole)
    (x0 : Vec F S512x256 .bf16) (x1 : Vec F S8192x256 .bf16) (x2 : Vec F S512x1 .f32) (x3 : Vec F S1x8192 .f32) : Vec F S512x1 .f32 :=
  VO1.read (Elt F) (VO1.writes (Elt F) VO1.junk (kernelRun1 c i arg1 harg1 arg2 harg2 arg3 harg3 arg4 harg4 arg5 harg5 arg6 harg6 x0 x1 x2 x3).1)

/-- What the output's staging buffer holds after the body at point `t`: the run's contents at the point's memrefs and input blocks. -/
def outsAt1 (c : Dev nD) (t : Fin cfg1.N) : Vec F S512x1 .f32 :=
  out1_4 c (grid1.coords t) (ms1_0 t) (hs1_0 t) (ms1_1 t) (hs1_1 t) (ms1_2 t) (hs1_2 t) (ms1_3 t) (hs1_3 t) (ms1_4 t) (hs1_4 t) scM1 (Memref.isWhole_whole _)
    (iblk1 V c 0 t) (iblk1 V c 1 t) (iblk1 V c 2 t) (iblk1 V c 3 t)

/-! ## The pipeline's proof data -/

/-- The arrays as the region finds them; after the body each input's buffer at its block and the output's at the run's
    contents; the invariant the scoped rest (the scratch among it) and the generator register; the array the first two
    windows share held half by each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- The inputs' memrefs hold their blocks, so the run applies; the invariant hands the body its scratch and takes it back at
    whatever it then holds; the rest of the invariant and the core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  rw [show (dat1 V c).Φ t.castSucc = Pipeline.ΦA spec1 c from rfl, PhiA1_eq]
  unfold outsAt1
  unfold out1_4
  iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
  iapply ((kernelRun1 c (grid1.coords t) _ _ _ _ _ _ _ _ _ _ _ _ (iblk1 V c 0 t) (iblk1 V c 1 t) (iblk1 V c 2 t) (iblk1 V c 3 t)).2 _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, HS0⟩
  isplitl [HR0 HR1 HR2 HR3 HR4 HR5 HR6 HR7 HR8 HR9 HR10 HR11 HR12 HR13 HS0 Hg]
  · isplitl [HR0 HR1 HR2 HR3 HR4 HR5 HR6 HR7 HR8 HR9 HR10 HR11 HR12 HR13 HS0]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      iexact HS0
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_4 c _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole program as four segments — the first pallas_call, five host operations, the second pallas_call, ten host
  operations — over thread states that hold EVERY unscoped buffer at named contents.

  The contents at each boundary are a fold from the launch memory: after a pallas_call its output arrays hold what the
  pipeline's write-backs leave and every other buffer what it held; after a host stretch the stretch's operations applied.
  The run ends with every unscoped buffer at the last fold, from which both the frame (the two arguments are never written)
  and the value of the result buffer are read.

  The second call reads ONE array through two windows. At its entry that array's points-to is dealt to the two windows in
  halves, and at its exit the halves are joined again: an input window never writes its array, so both halves still hold
  the entry contents.
-/
import proofs.«413375_j26920855012068_3_alg».proof.Proof.KR0
import proofs.«413375_j26920855012068_3_alg».proof.Proof.KR1
import proofs.«413375_j26920855012068_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the first call's entry). -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the first call: its arrays at what the write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the five host operations (the second call's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the second call: its output array at what the write-backs leave, every other buffer as entered (its four input
    windows write nothing). -/
def W3 (c : Dev nD) : Valuation τ sig (Elt F) :=
  Function.update (W2 m c) (Proc.devRef .tc main_v6) ((dat1 (V2 m) c).arrAt 4 cfg1.N)
abbrev V3 : (c : Dev nD) → (b : Ref sig .tc) → Buf (Elt F) ((c : Thread nD τ).loc b) := fun c b => W3 m c b
theorem W3_out (c : Dev nD) : W3 m c (Proc.devRef .tc main_v6) = (dat1 (V2 m) c).arrAt 4 cfg1.N := by
  unfold W3; exact Function.update_self ..
theorem W3_of_ne (c : Dev nD) (b : Ref sig .tc) (hb : b ≠ main_v6) : W3 m c (Proc.devRef .tc b) = W2 m c (Proc.devRef .tc b) := by
  unfold W3; exact Function.update_of_ne (StableHlo.devRef_ne_of_ne hb) ..
/-- After the ten host operations: the end. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The first call as a segment -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second call as a segment: one array behind two windows -/

/-- The four distinct buffers behind the second call's five windows, listed. -/
theorem arrBufs1_eq (c : Dev nD) (V : (b : Ref sig .tc) → Buf (Elt F) ((c : Thread nD τ).loc b)) :
    (Pipeline.arrBufs spec1 c V : sProp 𝕄)
      = iprop((((c : Thread nD τ).loc main_v1) ↦{fullShare} V main_v1) ∗ (((c : Thread nD τ).loc main_v2) ↦{fullShare} V main_v2)
          ∗ (((c : Thread nD τ).loc main_v3) ↦{fullShare} V main_v3) ∗ (((c : Thread nD τ).loc main_v6) ↦{fullShare} V main_v6)) := by
  unfold Pipeline.arrBufs
  rw [BI.bigSep_eq_bigSepL_of_eq [main_v1, main_v2, main_v3, main_v6] (by decide) (by decide)]; rfl

/-- The five windows' arrays, window by window: the shared array in two halves. -/
theorem arrays1_eq (c : Dev nD) (A : (w : Fin cfg1.W) → Buf (Elt F) ((cfg1.win w).arr.view.loc (c : Thread nD τ))) :
    ((dat1 (V2 m) c).arrays A : sProp 𝕄)
      = iprop((((c : Thread nD τ).loc main_v1) ↦{fullShare.left} A 0) ∗ (((c : Thread nD τ).loc main_v1) ↦{fullShare.right} A 1)
          ∗ (((c : Thread nD τ).loc main_v2) ↦{fullShare} A 2) ∗ (((c : Thread nD τ).loc main_v3) ↦{fullShare} A 3)
          ∗ (((c : Thread nD τ).loc main_v6) ↦{fullShare} A 4)) := by
  unfold Dat.arrays
  rw [bigSep_W1]
  rw [(arr_whole1 0).set_eq_univ, (arr_whole1 2).set_eq_univ, (arr_whole1 3).set_eq_univ, (arr_whole1 4).set_eq_univ]
  rfl

/-- An input window's array is never written: after any number of points it holds the entry contents. -/
theorem arrAt1_in (c : Dev nD) (n : Nat) :
    (dat1 (V2 m) c).arrAt 0 n = V2 m c main_v1 ∧ (dat1 (V2 m) c).arrAt 1 n = V2 m c main_v1
      ∧ (dat1 (V2 m) c).arrAt 2 n = V2 m c main_v2 ∧ (dat1 (V2 m) c).arrAt 3 n = V2 m c main_v3 :=
  ⟨((dat1 (V2 m) c).arrAt_in 0 rfl n).trans (A_eq1 (V2 m) c 0), ((dat1 (V2 m) c).arrAt_in 1 rfl n).trans (A_eq1 (V2 m) c 1),
    ((dat1 (V2 m) c).arrAt_in 2 rfl n).trans (A_eq1 (V2 m) c 2), ((dat1 (V2 m) c).arrAt_in 3 rfl n).trans (A_eq1 (V2 m) c 3)⟩

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄) ⊢ iprop(Pipeline.arrBufs spec1 c (V2 m c) ∗ Pipeline.unscopedRest spec1 c (V2 m c)) :=
      Entails.of_eq (Pipeline.unscopedBufs_split₀ cfgs 1 winFacts₀1.arr_unscoped c (V2 m c))
    rw [Pipeline.unscopedBufs_held, arrBufs1_eq] at hsplit
    rw [show (pdats m 1 c).arrays ((pdats m 1 c).arrAt · 0) = (dat1 (V2 m) c).arrays ((dat1 (V2 m) c).arrAt · 0) from rfl, arrays1_eq]
    iintro ⟨⟨Hub, Hp, HO⟩, -, -⟩
    ihave H := hsplit $$ Hub
    icases H with ⟨⟨H1, H2, H3, H6⟩, Hrest⟩
    ihave H1 := (pointsTo_share (PosShare.mem_left_op_right fullShare)).1 $$ H1
    icases H1 with ⟨H1l, H1r⟩
    imodintro
    isplitl [H1l H1r H2 H3 H6]
    · isplitl [H1l]; · iexact H1l
      isplitl [H1r]; · iexact H1r
      isplitl [H2]; · iexact H2
      isplitl [H3]; · iexact H3
      iexact H6
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop(Pipeline.arrBufs spec1 c (V3 m c) ∗ Pipeline.unscopedRest spec1 c (V3 m c)) ⊢ (unscopedBufs c (V3 m c) : sProp 𝕄) :=
      Entails.of_eq (Pipeline.unscopedBufs_split₀ cfgs 1 winFacts₀1.arr_unscoped c (V3 m c)).symm
    rw [Pipeline.unscopedBufs_held, arrBufs1_eq] at hjoin
    have hrest : (Pipeline.unscopedRest spec1 c (V2 m c) : sProp 𝕄) = Pipeline.unscopedRest spec1 c (V3 m c) := by
      unfold Pipeline.unscopedRest
      exact bigSep_congr fun b hb => by
        rw [show V3 m c b = V2 m c b from W3_of_ne m c b fun e => (Finset.mem_sdiff.mp hb).2 (Finset.mem_image.mpr ⟨4, Finset.mem_univ _, e ▸ rfl⟩)]
    obtain ⟨e0, e1, e2, e3⟩ := arrAt1_in m c cfg1.N
    rw [show (pdats m 1 c).arrays ((pdats m 1 c).arrAt · (Pipeline.pin (pcfgs (F := F)) adm 1).N) = (dat1 (V2 m) c).arrays ((dat1 (V2 m) c).arrAt · cfg1.N) from rfl,
      arrays1_eq, e0, e1, e2, e3, hrest,
      show V2 m c main_v1 = V3 m c main_v1 from (W3_of_ne m c main_v1 (by decide)).symm,
      show V2 m c main_v2 = V3 m c main_v2 from (W3_of_ne m c main_v2 (by decide)).symm,
      show V2 m c main_v3 = V3 m c main_v3 from (W3_of_ne m c main_v3 (by decide)).symm,
      show (dat1 (V2 m) c).arrAt 4 cfg1.N = V3 m c main_v6 from (W3_out m c).symm]
    iintro ⟨⟨H1l, H1r, H2, H3, H6⟩, HO, HY, Hrest⟩
    ihave H1 := (pointsTo_share (PosShare.mem_left_op_right fullShare)).2 $$ [H1l H1r]
    · isplitl [H1l] <;> iassumption
    imodintro
    isplitl [H1 H2 H3 H6 Hrest]
    · iapply hjoin
      isplitl [H1 H2 H3 H6]
      · isplitl [H1]; · iexact H1
        isplitl [H2]; · iexact H2
        isplitl [H3]; · iexact H3
        iexact H6
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds every unscoped buffer at the last fold of the boundary contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c =>
      (show iprop(StableHlo.held (c : Thread nD τ) (Pipeline.ucRefs τ sig) (W4 m c) ∗ R c)
          ⊢ iprop(Tₙ m c ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The frame: the arguments end as launched -/

/-- No host operation writes an argument and no call's output window is on one; the first call reads both through input
    windows, which never write their arrays. So the fold at an argument's buffer walks back to the launch memory. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := StableHlo.after_of_writes_sub hostOps1 _ hostOps1_writes (by decide)
    _ = m ((c : Thread nD τ).loc main_arg0) := (W1_arr m c 0).trans (((dat0 (V0 m) c).arrAt_in 0 rfl _).trans (A_eq0 (V0 m) c 0))
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := StableHlo.after_of_writes_sub hostOps1 _ hostOps1_writes (by decide)
    _ = m ((c : Thread nD τ).loc main_arg1) := (W1_arr m c 1).trans (((dat0 (V0 m) c).arrAt_in 1 rfl _).trans (A_eq0 (V0 m) c 1))

/-- Every weakly fair execution terminates, nothing faulting, with the result buffer at the last fold and the two
    arguments as launched. -/
theorem run_result : θ_run defs (onTc (τ := τ) (main (F := F))) ⟨m, fun _ => 0, ρ⟩ (fun r => ∀ c : Dev nD,
      r.2.mem ((c.tc : Thread nD τ).loc main_v13) = W4 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨h c _ (mem_uc main_v13 (by decide)),
      (h c _ (mem_uc main_arg0 (by decide))).trans (W4_main_arg0 m c),
      (h c _ (mem_uc main_arg1 (by decide))).trans (W4_main_arg1 m c)⟩) (run_all m ρ)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_result m ρ)

end Cert.Kernel.Hand

end
-- ==== Proof.R0.lean ====
/-
  The first pallas_call (row normalisation, 4 blocks of 1024 rows), as a pipeline region entered with the TensorCore's
  buffers at contents `V`.

  At grid point `t` the two input windows hold rows `1024·t … 1024·t + 1023` of the two embedding arrays. The body loads
  both blocks whole and stores five blocks whole: the two normalised blocks (rounded to bf16), the squared norms of their
  rows, and the positive-pair value of each row. So each output's staging buffer after the body is ONE piece covering it,
  a pure function of the two input blocks; nothing is kept between points and no buffer of the kernel's own is used.
-/
import proofs.«413375_j26920855012068_3_alg».proof.Proof.Gen.KernelIdeal.Launch
import proofs.«413375_j26920855012068_3_alg».proof.Proof.Gen.KernelIdeal.Skeleton
import proofs.«413375_j26920855012068_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point: it is fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA : Rect S1024x256 := Rect.unit (s := S1024x256) ![0, 0] S1024x256.size inb_S1024x256_S1024x256_0_0
abbrev rB : Rect S1024x1 := Rect.unit (s := S1024x1) ![0, 0] S1024x1.size inb_S1024x1_S1024x1_0_0

/-! ## What the body leaves in each output window's buffer: one piece, the whole block -/

/-- The first array's rows normalised, -/
def out0_2 (x0 : Vec F S1024x256 .f32) : Vec F S1024x256 .bf16 := View.canon [⟨rA, k0_pay6 (View.ld x0 rA)⟩]
/-- the second's, -/
def out0_3 (x1 : Vec F S1024x256 .f32) : Vec F S1024x256 .bf16 := View.canon [⟨rA, k0_pay7 (View.ld x1 rA)⟩]
/-- the squared norms of the normalised rows of the first -/
def out0_4 (x0 : Vec F S1024x256 .f32) : Vec F S1024x1 .f32 := View.canon [⟨rB, k0_pay3 (View.ld x0 rA)⟩]
/-- and of the second, -/
def out0_5 (x1 : Vec F S1024x256 .f32) : Vec F S1024x1 .f32 := View.canon [⟨rB, k0_pay4 (View.ld x1 rA)⟩]
/-- and each row's positive-pair value. -/
def out0_6 (x0 x1 : Vec F S1024x256 .f32) : Vec F S1024x1 .f32 := View.canon [⟨rB, k0_pay5 (View.ld x0 rA) (View.ld x1 rA)⟩]

/-- One whole-block piece covers its buffer. -/
theorem coverA (p0 : Vec F S1024x256 .bf16) (y : S1024x256.Idx) :
    ∃ pc ∈ ([⟨rA, p0⟩] : List (View.Piece (Elt F) S1024x256 .bf16)), y ∈ pc.1.set :=
  View.cover_of_tiled [⟨rA, p0⟩] S1024x256.size (by rfl) y
theorem coverB (p0 : Vec F S1024x1 .f32) (y : S1024x1.Idx) :
    ∃ pc ∈ ([⟨rB, p0⟩] : List (View.Piece (Elt F) S1024x1 .f32)), y ∈ pc.1.set :=
  View.cover_of_tiled [⟨rB, p0⟩] S1024x1.size (by rfl) y

/-! ## The body's triple -/

set_option maxHeartbeats 4000000 in
/-- On whole staging memrefs, the inputs' at contents `x0`, `x1` and the outputs' at anything, the body runs to the
    continuation holding the inputs as they were and each output at its block. -/
theorem sound_kernel0 (c : Dev nD) (E : Set ℕ) (i : grid0.Coords)
    (arg1 : Memref sig .tc .vmem S1024x256 .f32) (harg1 : arg1.IsWhole) (arg2 : Memref sig .tc .vmem S1024x256 .f32) (harg2 : arg2.IsWhole)
    (arg3 : Memref sig .tc .vmem S1024x256 .bf16) (harg3 : arg3.IsWhole) (arg4 : Memref sig .tc .vmem S1024x256 .bf16) (harg4 : arg4.IsWhole)
    (arg5 : Memref sig .tc .vmem S1024x1 .f32) (harg5 : arg5.IsWhole) (arg6 : Memref sig .tc .vmem S1024x1 .f32) (harg6 : arg6.IsWhole)
    (arg7 : Memref sig .tc .vmem S1024x1 .f32) (harg7 : arg7.IsWhole)
    (x0 x1 : Vec F S1024x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare (out0_2 x0) ∗ owns (c : Thread nD τ) arg4 fullShare (out0_3 x1)
            ∗ owns (c : Thread nD τ) arg5 fullShare (out0_4 x0) ∗ owns (c : Thread nD τ) arg6 fullShare (out0_5 x1)
            ∗ owns (c : Thread nD τ) arg7 fullShare (out0_6 x0 x1)) -∗ K ⟨⟩))
      ⊢ wp frame (wpE (defs₀ (F := F)) Variants.none c none) E (cc0__prep_kernel i arg1 harg1 arg2 harg2 arg3 harg3 arg4 harg4 arg5 harg5 arg6 harg6 arg7 harg7) K := by
  simp only [cc0__prep_kernel_eq_skeleton]; unfold cc0__prep_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; try dsimp only
    exact View.read_writes_eq_canon _ _ _ (coverA _)
  isplitl [H3]
  · iexists _; isplitr
    swap; · iexact H3
    ipureintro; try dsimp only
    exact View.read_writes_eq_canon _ _ _ (coverA _)
  isplitl [H4]
  · iexists _; isplitr
    swap; · iexact H4
    ipureintro; try dsimp only
    exact View.read_writes_eq_canon _ _ _ (coverB _)
  isplitl [H5]
  · iexists _; isplitr
    swap; · iexact H5
    ipureintro; try dsimp only
    exact View.read_writes_eq_canon _ _ _ (coverB _)
  iexists _; isplitr
  swap; · iexact H6
  ipureintro; try dsimp only
  exact View.read_writes_eq_canon _ _ _ (coverB _)

/-! ## The pipeline's proof data -/

/-- The arrays as the region finds them; after the body at point `t` each input's buffer at its block and each output's at its
    function of the two input blocks; the invariant is the scoped rest and the generator register, untouched. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
    | ⟨4, _⟩ => out0_4 (iblk0 V c 0 t)
    | ⟨5, _⟩ => out0_5 (iblk0 V c 1 t)
    | ⟨6, _⟩ => out0_6 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]
theorem after0_4 (c : Dev nD) (t : Fin cfg0.N) : (dat0 V c).after 4 t = out0_4 (iblk0 V c 0 t) := by dsimp only [dat0]
theorem after0_5 (c : Dev nD) (t : Fin cfg0.N) : (dat0 V c).after 5 t = out0_5 (iblk0 V c 1 t) := by dsimp only [dat0]
theorem after0_6 (c : Dev nD) (t : Fin cfg0.N) : (dat0 V c).after 6 t = out0_6 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The inputs' memrefs hold their blocks, so the body's triple applies; the invariant and the core's dues pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1.lean ====
/-
  The second pallas_call (log-denominators, 16 blocks of 512 rows), as a pipeline region entered with the TensorCore's
  buffers at contents `V`.

  Window 0 is the point's 512 representation rows, window 1 ALL 8192 representation rows (the same array as window 0, read
  whole and fetched once), window 2 the point's 512 squared norms as a column, window 3 all 8192 squared norms as a row
  (fetched once), window 4 the output column of 512 log-denominators. The body zero-fills a scratch column, adds to it the
  row sums of the masked exponentials over four runs of 2048 columns (a counted loop, gone through by its invariant), and
  stores the logarithm of the scratch into the output block. The scratch is written whole before it is read at every point,
  so nothing is carried between points: the invariant holds it at any contents. The two windows on one array each hold half
  of the array's share.
-/
import proofs.«413375_j26920855012068_3_alg».proof.Proof.Gen.KernelIdeal.Launch
import proofs.«413375_j26920855012068_3_alg».proof.Proof.Gen.KernelIdeal.Skeleton
import proofs.«413375_j26920855012068_3_alg».proof.Proof.Gen.KernelIdeal.Loops
import proofs.«413375_j26920855012068_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs the pipeline passes the body -/

/-- One staging buffer of the output window, through which its contents are stated (the choice does not matter). -/
abbrev VO1 : View sig .tc .vmem S512x1 .f32 := (Memref.whole cc1_stg4_0 : Memref sig .tc .vmem S512x1 .f32).view
abbrev ms1_0 (t : Fin cfg1.N) : Memref sig .tc .vmem S512x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8192 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
/-- The scratch column: a whole scoped buffer of the kernel's own, passed beside the windows. -/
abbrev scM1 : Memref sig .tc .vmem S512x1 .f32 := Memref.whole cc1_scratch0

/-- The region's invariant, conjunct by conjunct: every scoped buffer that is no staging buffer of this call at some
    contents — the last of them the scratch column, as the body takes it — and the generator register at some state. -/
theorem PhiA1_eq (c : Dev nD) :
    (Pipeline.ΦA (U := UR sig nD τ) (Val := Elt F) spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc1_scratch0), owns (c : Thread nD τ) scM1 fullShare f)) ∗ ∃ r, prngReg c r) := by
  unfold Pipeline.ΦA; rw [scopedRest1_eq]; simp only [scM1, owns_whole]

/-! ## The body's run -/

set_option maxHeartbeats 4000000 in
/-- What the body's one store leaves in the output's staging memref, as pieces, WITH the proof that on whole staging
    memrefs — the four inputs' at their contents, the output's and the scratch's at anything — the body runs to the
    continuation holding the inputs as they were, the scratch at some contents and the output's buffer with the pieces
    written. The pieces are what the run finds. -/
noncomputable def kernelRun1 (c : Dev nD) (i : grid1.Coords)
    (arg1 : Memref sig .tc .vmem S512x256 .bf16) (harg1 : arg1.IsWhole) (arg2 : Memref sig .tc .vmem S8192x256 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S512x1 .f32) (harg5 : arg5.IsWhole) (arg6 : Memref sig .tc .vmem S512x1 .f32) (harg6 : arg6.IsWhole)
    (x0 : Vec F S512x256 .bf16) (x1 : Vec F S8192x256 .bf16) (x2 : Vec F S512x1 .f32) (x3 : Vec F S1x8192 .f32) :
    { L : List (View.Piece (Elt F) S512x1 .f32) //
      ∀ (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L)
                ∗ (∃ d, owns (c : Thread nD τ) arg6 fullShare d)) -∗ K ⟨⟩))
          ⊢ wp frame (wpE (defs₀ (F := F)) Variants.none c none) Set.univ
              (cc1__denom_kernel i arg1 harg1 arg2 harg2 arg3 harg3 arg4 harg4 arg5 harg5 arg6 harg6) K } := by
  refine ⟨?_, fun K => ?run⟩
  case run =>
    simp only [cc1__denom_kernel_eq_skeleton]; unfold cc1__denom_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
    obtain rfl := harg1.eq_unread hf0
    obtain rfl := harg2.eq_unread hf1
    obtain rfl := harg3.eq_unread hf2
    obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _, _; isplitr; swap; · iexact HS
    ipureintro; rfl

/-- The run's pieces for the output tile its block (one whole-block store), so they cover it. -/
theorem cover1_4 (c : Dev nD) (i : grid1.Coords)
    (arg1 : Memref sig .tc .vmem S512x256 .bf16) (harg1 : arg1.IsWhole) (arg2 : Memref sig .tc .vmem S8192x256 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S512x1 .f32) (harg5 : arg5.IsWhole) (arg6 : Memref sig .tc .vmem S512x1 .f32) (harg6 : arg6.IsWhole)
    (x0 : Vec F S512x256 .bf16) (x1 : Vec F S8192x256 .bf16) (x2 : Vec F S512x1 .f32) (x3 : Vec F S1x8192 .f32) (y : S512x1.Idx) :
    ∃ pc ∈ (kernelRun1 c i arg1 harg1 arg2 harg2 arg3 harg3 arg4 harg4 arg5 harg5 arg6 harg6 x0 x1 x2 x3).1, y ∈ pc.1.set :=
  View.cover_of_tiledL (kernelRun1 c i arg1 harg1 arg2 harg2 arg3 harg3 arg4 harg4 arg5 harg5 arg6 harg6 x0 x1 x2 x3).1 S512x1.size (by sl_kernel_rfl) y

/-- What the run leaves in the output's staging buffer: its pieces read back over anything. -/
def out1_4 (c : Dev nD) (i : grid1.Coords)
    (arg1 : Memref sig .tc .vmem S512x256 .bf16) (harg1 : arg1.IsWhole) (arg2 : Memref sig .tc .vmem S8192x256 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S512x1 .f32) (harg5 : arg5.IsWhole) (arg6 : Memref sig .tc .vmem S512x1 .f32) (harg6 : arg6.IsWhole)
    (x0 : Vec F S512x256 .bf16) (x1 : Vec F S8192x256 .bf16) (x2 : Vec F S512x1 .f32) (x3 : Vec F S1x8192 .f32) : Vec F S512x1 .f32 :=
  VO1.read (Elt F) (VO1.writes (Elt F) VO1.junk (kernelRun1 c i arg1 harg1 arg2 harg2 arg3 harg3 arg4 harg4 arg5 harg5 arg6 harg6 x0 x1 x2 x3).1)

/-- What the output's staging buffer holds after the body at point `t`: the run's contents at the point's memrefs and input blocks. -/
def outsAt1 (c : Dev nD) (t : Fin cfg1.N) : Vec F S512x1 .f32 :=
  out1_4 c (grid1.coords t) (ms1_0 t) (hs1_0 t) (ms1_1 t) (hs1_1 t) (ms1_2 t) (hs1_2 t) (ms1_3 t) (hs1_3 t) (ms1_4 t) (hs1_4 t) scM1 (Memref.isWhole_whole _)
    (iblk1 V c 0 t) (iblk1 V c 1 t) (iblk1 V c 2 t) (iblk1 V c 3 t)

/-! ## The pipeline's proof data -/

/-- The arrays as the region finds them; after the body each input's buffer at its block and the output's at the run's
    contents; the invariant the scoped rest (the scratch among it) and the generator register; the array the first two
    windows share held half by each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outsAt1 V c t
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outsAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- The inputs' memrefs hold their blocks, so the run applies; the invariant hands the body its scratch and takes it back at
    whatever it then holds; the rest of the invariant and the core's dues pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  rw [show (dat1 V c).Φ t.castSucc = Pipeline.ΦA spec1 c from rfl, PhiA1_eq]
  unfold outsAt1
  unfold out1_4
  iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩, ⟨%d4, H4⟩⟩
  iapply ((kernelRun1 c (grid1.coords t) _ _ _ _ _ _ _ _ _ _ _ _ (iblk1 V c 0 t) (iblk1 V c 1 t) (iblk1 V c 2 t) (iblk1 V c 3 t)).2 _)
  isplitl [H0]; · iexact H0
  isplitl [H1]; · iexact H1
  isplitl [H2]; · iexact H2
  isplitl [H3]; · iexact H3
  isplitl [H4]; · iexists _; iexact H4
  isplitl [HS0]; · iexact HS0
  iintro ⟨H0, H1, H2, H3, ⟨%e4, H4⟩, HS0⟩
  isplitl [HR0 HR1 HR2 HR3 HR4 HR5 HR6 HR7 HR8 HR9 HR10 HR11 HR12 HR13 HS0 Hg]
  · isplitl [HR0 HR1 HR2 HR3 HR4 HR5 HR6 HR7 HR8 HR9 HR10 HR11 HR12 HR13 HS0]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR9]; · iexact HR9
      isplitl [HR10]; · iexact HR10
      isplitl [HR11]; · iexact HR11
      isplitl [HR12]; · iexact HR12
      isplitl [HR13]; · iexact HR13
      iexact HS0
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_4 c _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The whole program as four segments — the first pallas_call, five host operations, the second pallas_call, ten host
  operations — over thread states that hold EVERY unscoped buffer at named contents.

  The contents at each boundary are a fold from the launch memory: after a pallas_call its output arrays hold what the
  pipeline's write-backs leave and every other buffer what it held; after a host stretch the stretch's operations applied.
  The run ends with every unscoped buffer at the last fold, from which both the frame (the two arguments are never written)
  and the value of the result buffer are read.

  The second call reads ONE array through two windows. At its entry that array's points-to is dealt to the two windows in
  halves, and at its exit the halves are joined again: an input window never writes its array, so both halves still hold
  the entry contents.
-/
import proofs.«413375_j26920855012068_3_alg».proof.Proof.R0
import proofs.«413375_j26920855012068_3_alg».proof.Proof.R1
import proofs.«413375_j26920855012068_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the first call's entry). -/
abbrev W0 : Dev nD → Valuation τ sig (Elt F) := fun c b => m ((c : Dev nD), b)
abbrev V0 : (c : Dev nD) → (b : Ref sig .tc) → Buf (Elt F) ((c : Thread nD τ).loc b) := fun c b => W0 m c b
/-- After the first call: its arrays at what the write-backs leave, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the five host operations (the second call's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the second call: its output array at what the write-backs leave, every other buffer as entered (its four input
    windows write nothing). -/
def W3 (c : Dev nD) : Valuation τ sig (Elt F) :=
  Function.update (W2 m c) (Proc.devRef .tc main_v6) ((dat1 (V2 m) c).arrAt 4 cfg1.N)
abbrev V3 : (c : Dev nD) → (b : Ref sig .tc) → Buf (Elt F) ((c : Thread nD τ).loc b) := fun c b => W3 m c b
theorem W3_out (c : Dev nD) : W3 m c (Proc.devRef .tc main_v6) = (dat1 (V2 m) c).arrAt 4 cfg1.N := by
  unfold W3; exact Function.update_self ..
theorem W3_of_ne (c : Dev nD) (b : Ref sig .tc) (hb : b ≠ main_v6) : W3 m c (Proc.devRef .tc b) = W2 m c (Proc.devRef .tc b) := by
  unfold W3; exact Function.update_of_ne (StableHlo.devRef_ne_of_ne hb) ..
/-- After the ten host operations: the end. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The first call as a segment -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second call as a segment: one array behind two windows -/

/-- The four distinct buffers behind the second call's five windows, listed. -/
theorem arrBufs1_eq (c : Dev nD) (V : (b : Ref sig .tc) → Buf (Elt F) ((c : Thread nD τ).loc b)) :
    (Pipeline.arrBufs spec1 c V : sProp 𝕄)
      = iprop((((c : Thread nD τ).loc main_v1) ↦{fullShare} V main_v1) ∗ (((c : Thread nD τ).loc main_v2) ↦{fullShare} V main_v2)
          ∗ (((c : Thread nD τ).loc main_v3) ↦{fullShare} V main_v3) ∗ (((c : Thread nD τ).loc main_v6) ↦{fullShare} V main_v6)) := by
  unfold Pipeline.arrBufs
  rw [BI.bigSep_eq_bigSepL_of_eq [main_v1, main_v2, main_v3, main_v6] (by decide) (by decide)]; rfl

/-- The five windows' arrays, window by window: the shared array in two halves. -/
theorem arrays1_eq (c : Dev nD) (A : (w : Fin cfg1.W) → Buf (Elt F) ((cfg1.win w).arr.view.loc (c : Thread nD τ))) :
    ((dat1 (V2 m) c).arrays A : sProp 𝕄)
      = iprop((((c : Thread nD τ).loc main_v1) ↦{fullShare.left} A 0) ∗ (((c : Thread nD τ).loc main_v1) ↦{fullShare.right} A 1)
          ∗ (((c : Thread nD τ).loc main_v2) ↦{fullShare} A 2) ∗ (((c : Thread nD τ).loc main_v3) ↦{fullShare} A 3)
          ∗ (((c : Thread nD τ).loc main_v6) ↦{fullShare} A 4)) := by
  unfold Dat.arrays
  rw [bigSep_W1]
  rw [(arr_whole1 0).set_eq_univ, (arr_whole1 2).set_eq_univ, (arr_whole1 3).set_eq_univ, (arr_whole1 4).set_eq_univ]
  rfl

/-- An input window's array is never written: after any number of points it holds the entry contents. -/
theorem arrAt1_in (c : Dev nD) (n : Nat) :
    (dat1 (V2 m) c).arrAt 0 n = V2 m c main_v1 ∧ (dat1 (V2 m) c).arrAt 1 n = V2 m c main_v1
      ∧ (dat1 (V2 m) c).arrAt 2 n = V2 m c main_v2 ∧ (dat1 (V2 m) c).arrAt 3 n = V2 m c main_v3 :=
  ⟨((dat1 (V2 m) c).arrAt_in 0 rfl n).trans (A_eq1 (V2 m) c 0), ((dat1 (V2 m) c).arrAt_in 1 rfl n).trans (A_eq1 (V2 m) c 1),
    ((dat1 (V2 m) c).arrAt_in 2 rfl n).trans (A_eq1 (V2 m) c 2), ((dat1 (V2 m) c).arrAt_in 3 rfl n).trans (A_eq1 (V2 m) c 3)⟩

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄) ⊢ iprop(Pipeline.arrBufs spec1 c (V2 m c) ∗ Pipeline.unscopedRest spec1 c (V2 m c)) :=
      Entails.of_eq (Pipeline.unscopedBufs_split₀ cfgs 1 winFacts₀1.arr_unscoped c (V2 m c))
    rw [Pipeline.unscopedBufs_held, arrBufs1_eq] at hsplit
    rw [show (pdats m 1 c).arrays ((pdats m 1 c).arrAt · 0) = (dat1 (V2 m) c).arrays ((dat1 (V2 m) c).arrAt · 0) from rfl, arrays1_eq]
    iintro ⟨⟨Hub, Hp, HO⟩, -, -⟩
    ihave H := hsplit $$ Hub
    icases H with ⟨⟨H1, H2, H3, H6⟩, Hrest⟩
    ihave H1 := (pointsTo_share (PosShare.mem_left_op_right fullShare)).1 $$ H1
    icases H1 with ⟨H1l, H1r⟩
    imodintro
    isplitl [H1l H1r H2 H3 H6]
    · isplitl [H1l]; · iexact H1l
      isplitl [H1r]; · iexact H1r
      isplitl [H2]; · iexact H2
      isplitl [H3]; · iexact H3
      iexact H6
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop(Pipeline.arrBufs spec1 c (V3 m c) ∗ Pipeline.unscopedRest spec1 c (V3 m c)) ⊢ (unscopedBufs c (V3 m c) : sProp 𝕄) :=
      Entails.of_eq (Pipeline.unscopedBufs_split₀ cfgs 1 winFacts₀1.arr_unscoped c (V3 m c)).symm
    rw [Pipeline.unscopedBufs_held, arrBufs1_eq] at hjoin
    have hrest : (Pipeline.unscopedRest spec1 c (V2 m c) : sProp 𝕄) = Pipeline.unscopedRest spec1 c (V3 m c) := by
      unfold Pipeline.unscopedRest
      exact bigSep_congr fun b hb => by
        rw [show V3 m c b = V2 m c b from W3_of_ne m c b fun e => (Finset.mem_sdiff.mp hb).2 (Finset.mem_image.mpr ⟨4, Finset.mem_univ _, e ▸ rfl⟩)]
    obtain ⟨e0, e1, e2, e3⟩ := arrAt1_in m c cfg1.N
    rw [show (pdats m 1 c).arrays ((pdats m 1 c).arrAt · (Pipeline.pin (pcfgs (F := F)) adm 1).N) = (dat1 (V2 m) c).arrays ((dat1 (V2 m) c).arrAt · cfg1.N) from rfl,
      arrays1_eq, e0, e1, e2, e3, hrest,
      show V2 m c main_v1 = V3 m c main_v1 from (W3_of_ne m c main_v1 (by decide)).symm,
      show V2 m c main_v2 = V3 m c main_v2 from (W3_of_ne m c main_v2 (by decide)).symm,
      show V2 m c main_v3 = V3 m c main_v3 from (W3_of_ne m c main_v3 (by decide)).symm,
      show (dat1 (V2 m) c).arrAt 4 cfg1.N = V3 m c main_v6 from (W3_out m c).symm]
    iintro ⟨⟨H1l, H1r, H2, H3, H6⟩, HO, HY, Hrest⟩
    ihave H1 := (pointsTo_share (PosShare.mem_left_op_right fullShare)).2 $$ [H1l H1r]
    · isplitl [H1l] <;> iassumption
    imodintro
    isplitl [H1 H2 H3 H6 Hrest]
    · iapply hjoin
      isplitl [H1 H2 H3 H6]
      · isplitl [H1]; · iexact H1
        isplitl [H2]; · iexact H2
        isplitl [H3]; · iexact H3
        iexact H6
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds every unscoped buffer at the last fold of the boundary contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c =>
      (show iprop(StableHlo.held (c : Thread nD τ) (Pipeline.ucRefs τ sig) (W4 m c) ∗ R c)
          ⊢ iprop(Tₙ m c ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## The frame: the arguments end as launched -/

/-- No host operation writes an argument and no call's output window is on one; the first call reads both through input
    windows, which never write their arrays. So the fold at an argument's buffer walks back to the launch memory. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := StableHlo.after_of_writes_sub hostOps1 _ hostOps1_writes (by decide)
    _ = m ((c : Thread nD τ).loc main_arg0) := (W1_arr m c 0).trans (((dat0 (V0 m) c).arrAt_in 0 rfl _).trans (A_eq0 (V0 m) c 0))
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := StableHlo.after_of_writes_sub hostOps1 _ hostOps1_writes (by decide)
    _ = m ((c : Thread nD τ).loc main_arg1) := (W1_arr m c 1).trans (((dat0 (V0 m) c).arrAt_in 1 rfl _).trans (A_eq0 (V0 m) c 1))

/-- Every weakly fair execution terminates, nothing faulting, with the result buffer at the last fold and the two
    arguments as launched. -/
theorem run_result : θ_run defs (onTc (τ := τ) (main (F := F))) ⟨m, fun _ => 0, ρ⟩ (fun r => ∀ c : Dev nD,
      r.2.mem ((c.tc : Thread nD τ).loc main_v13) = W4 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨h c _ (mem_uc main_v13 (by decide)),
      (h c _ (mem_uc main_arg0 (by decide))).trans (W4_main_arg0 m c),
      (h c _ (mem_uc main_arg1 (by decide))).trans (W4_main_arg1 m c)⟩) (run_all m ρ)

/-- The frame claim's post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_result m ρ)

end Cert.KernelIdeal.Hand

end
-- ==== Proof.Spec.lean ====
/-
  The contrastive loss as one function of the two embedding arrays, row by row, on the extended reals.

  A row `a : Fin 256 → EReal` is normalised to `a k / max (√(∑ a²)) ε`. The normalised rows of the first array
  followed by those of the second are the 8192 representations `R`; `S r = ∑ₖ R r k²`. The similarity of rows
  `r`, `s` is `-(S r + S s - 2·⟨R r, R s⟩)`, the positive of row `r` is its similarity with its partner `r ± 4096`,
  the denominator of row `r` sums `exp (sim / T)` over every `s ≠ r`, and the loss is the mean over `r` of
  `-pos r / T + log (denom r)`, with `T` the single-precision word nearest to one tenth.

  Two spellings of each piece are given: the one that sums a row in one go, divides by `T` and masks by a product
  with `1 - [r = s]`, and the one that multiplies by the reciprocal of `T`, masks by a choice, and sums the
  columns in four runs of 2048 onto a zero start. They are shown equal elsewhere.
-/
import Idealize.ShloMosaic.PureOps.Ideal
import Idealize.ShloMosaic.Lib.ValueIdx

noncomputable section

namespace Cert.Spec

open Idealize.ShloMosaic

/-- The guard under the norm, the factor two, the temperature, the row count: the words both programs carry. -/
abbrev eps : EReal := Ideal.ofBits .f32 0x2B8CBCCC#32
abbrev two : EReal := Ideal.ofBits .f32 0x40000000#32
abbrev tenth : EReal := Ideal.ofBits .f32 0x3DCCCCCD#32
abbrev nrows : EReal := Ideal.ofBits .f32 0x46000000#32
/-- The reciprocal of the temperature word, as a real. -/
abbrev invT : EReal := ((134217728 / 13421773 : ℝ) : EReal)

/-- A row's guarded norm, and the row normalised by it. -/
def nrm (a : Fin 256 → EReal) : EReal := max (Ideal.sqrt (∑ k, a k * a k)) eps
def zrow (a : Fin 256 → EReal) (k : Fin 256) : EReal := Ideal.div (a k) (nrm a)
/-- Squared norm of a normalised row; inner product of two normalised rows. -/
def sqz (a : Fin 256 → EReal) : EReal := ∑ k, zrow a k * zrow a k
def dotz (a b : Fin 256 → EReal) : EReal := ∑ k, zrow a k * zrow b k
/-- The positive pair's value as the first pass computes it: `2⟨a, b⟩ - |a|² - |b|²`. -/
def posK (a b : Fin 256 → EReal) : EReal := two * dotz a b - sqz a - sqz b

/-- The 8192 representations: the normalised rows of `x`, then those of `y`. -/
def reps (x y : Fin 4096 → Fin 256 → EReal) (r : Fin 8192) (k : Fin 256) : EReal :=
  if h : r.val < 4096 then zrow (x ⟨r.val, h⟩) k else zrow (y ⟨r.val - 4096, by omega⟩) k
/-- The partner of a row: `r + 4096` in the first half, `r - 4096` in the second. -/
def partner (r : Fin 8192) : Fin 8192 := if h : r.val < 4096 then ⟨r.val + 4096, by omega⟩ else ⟨r.val - 4096, by omega⟩

section Over
variable (R : Fin 8192 → Fin 256 → EReal) (S : Fin 8192 → EReal)

/-- Inner product of two representations; their similarity. -/
def dotR (r s : Fin 8192) : EReal := ∑ k, R r k * R s k
def sim (r s : Fin 8192) : EReal := -(S r + S s - two * dotR R r s)
/-- One term of a row's denominator, masked by a product; the denominator; its logarithm. -/
def termR (r s : Fin 8192) : EReal := (1 - (if r = s then (1 : EReal) else 0)) * Ideal.exp (Ideal.div (sim R S r s) tenth)
def denomR (r : Fin 8192) : EReal := ∑ s, termR R S r s
/-- The same term with the reciprocal temperature and the mask as a choice; the four runs of 2048 columns
    added one after the other onto zero. -/
def termK (r s : Fin 8192) : EReal := if r = s then 0 else Ideal.exp ((0 - (S r + S s - two * dotR R r s)) * invT)
def chunk (r : Fin 8192) (c : Fin 4) : EReal := ∑ j : Fin 2048, termK R S r ⟨c.val * 2048 + j.val, by omega⟩
def denomK (r : Fin 8192) : EReal := (((0 + chunk R S r 0) + chunk R S r 1) + chunk R S r 2) + chunk R S r 3
end Over

/-- The loss from the positives `p` and the log-denominators `l`: the mean of `-p / T + l`. -/
def lossOf (p l : Fin 8192 → EReal) : EReal := Ideal.div (∑ r, (Ideal.div (-(p r)) tenth + l r)) nrows

/-- The loss, read the first way (the reference's). -/
def lossR (x y : Fin 4096 → Fin 256 → EReal) : EReal :=
  lossOf (fun r => sim (reps x y) (fun r => ∑ k, reps x y r k * reps x y r k) r (partner r))
    (fun r => Ideal.log (denomR (reps x y) (fun r => ∑ k, reps x y r k * reps x y r k) r))

/-- The loss, read the second way (the kernel's): the positives from the first pass, row `r` and `r + 4096` alike. -/
def lossK (x y : Fin 4096 → Fin 256 → EReal) : EReal :=
  lossOf (fun r => posK (x ⟨r.val % 4096, Nat.mod_lt _ (by decide)⟩) (y ⟨r.val % 4096, Nat.mod_lt _ (by decide)⟩))
    (fun r => Ideal.log (denomK (reps x y)
      (fun r => if h : r.val < 4096 then sqz (x ⟨r.val, h⟩) else sqz (y ⟨r.val - 4096, by omega⟩)) r))

end Cert.Spec

end
-- ==== Proof.Pay0.lean ====
/-
  The first pass's arithmetic, read one element at a time on the extended reals.

  Each value the first pass computes from a block of 1024 rows of 256 lanes is a pointwise expression around three
  layout steps: the sum of a row's lanes, that sum set down as a column of height 1024, and the column spread back over
  the 256 lanes. Read at row `p`, these are `∑ₖ v (p, k)`, the same number, and the same number again; everything else
  (products, the root, the guard by the maximum, the quotient, the change of format, the differences) acts on the one
  element. So the normalised blocks read at `(p, q)` are `zrow` of row `p` at lane `q`, the squared norms of the
  normalised rows are `sqz`, and the positive pair's value is `posK`.
-/
import proofs.«413375_j26920855012068_3_alg».proof.Proof.Gen.KernelIdeal.Skeleton
import proofs.«413375_j26920855012068_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Pay0

open Idealize.ShloMosaic
open Cert.KernelIdeal Cert.KernelIdeal.Gen Cert.Spec ValueIdx

/-! ## The three layout steps at a row -/

/-- The sum over the lanes of a block, read at row `p`: the sum over `k` of the block at `(p, k)`. The reduced index
    with the lane put back is `(p, k)`, coordinate by coordinate. -/
theorem rowsum_apply (v : FVec Ideal S1024x256 .f32) (h : S1024x256.Reduces [1] S1024)
    (hφ : FKind.Formats .f32) (hacc : (0x00000000#32 : BitVec 32) = FKind.add.neutral .f32 hφ) (p : Fin 1024) :
    multiReduction .add [1] S1024 v 0x00000000#32 h hφ hacc (ix1 p) = ∑ k : Fin 256, v (ix2 p k) := by
  refine (Ideal.multiReduction_add_single v _ h hφ hacc (ix1 p)).trans ?_
  refine Finset.sum_congr rfl fun k _ => congrArg v ?_
  funext c
  match c with
  | ⟨0, _⟩ => rfl
  | ⟨1, _⟩ => rfl

/-- A vector of 1024 numbers set down as a column: the entry at `(p, z)` is the vector's entry `p` (the row-major
    positions agree, `p = p · 1 + 0`). -/
theorem col_apply {α : Type} (v : S1024.Idx → α) (h : S1024.ShapeCasts S1024x1) (p : Fin 1024) (z : Fin 1) :
    shapeCast S1024x1 v h (ix2 p z) = v (ix1 p) :=
  shapeCast_apply v h _ _ (by
    have hz : z.val = 0 := by omega
    rw [Shape.rowMajor_val_one, Shape.rowMajor_val_two]
    show p.val = p.val * 1 + z.val
    rw [hz, Nat.mul_one, Nat.add_zero])

/-- A column spread over 256 lanes: the entry at `(p, q)` is the column's entry in row `p`. -/
theorem spread_apply {α : Type} (v : S1024x1.Idx → α) (h : S1024x1.Broadcasts S1024x256) (p : Fin 1024) (q : Fin 256)
    (z : Fin 1) : broadcastTo S1024x256 v h (ix2 p q) = v (ix2 p z) := by
  refine broadcastTo_apply v h (ix2 p q) (ix2 p z) fun ax => ?_
  match ax with
  | ⟨0, _⟩ => rfl
  | ⟨1, _⟩ =>
    show z.val = 0
    omega

/-! ## The normalised blocks -/

/-- The first block divided by its rows' guarded norms, at `(p, q)`: the quotient's numerator is the element, its
    denominator the spread column at row `p`, which is the maximum of the root of the row's sum of squares and the guard. -/
theorem pay1_apply (x : Vec Ideal S1024x256 .f32) (p : Fin 1024) (q : Fin 256) :
    k0_pay1 (F := Ideal) x (ix2 p q) = zrow (fun k => x (ix2 p k)) q := by
  unfold k0_pay1
  refine congrArg (Ideal.div (x (ix2 p q))) ?_
  refine (spread_apply _ _ p q 0).trans ?_
  refine congrArg (fun t => max (Ideal.sqrt t) eps) ?_
  refine (col_apply _ _ p 0).trans ?_
  exact rowsum_apply _ _ _ _ p

/-- The second block likewise. -/
theorem pay2_apply (x : Vec Ideal S1024x256 .f32) (p : Fin 1024) (q : Fin 256) :
    k0_pay2 (F := Ideal) x (ix2 p q) = zrow (fun k => x (ix2 p k)) q := by
  unfold k0_pay2
  refine congrArg (Ideal.div (x (ix2 p q))) ?_
  refine (spread_apply _ _ p q 0).trans ?_
  refine congrArg (fun t => max (Ideal.sqrt t) eps) ?_
  refine (col_apply _ _ p 0).trans ?_
  exact rowsum_apply _ _ _ _ p

/-- The first normalised block in the narrower format: the change of format is the identity on the extended reals. -/
theorem pay6_apply (x : Vec Ideal S1024x256 .f32) (p : Fin 1024) (q : Fin 256) :
    k0_pay6 (F := Ideal) x (ix2 p q) = zrow (fun k => x (ix2 p k)) q := by
  unfold k0_pay6
  exact pay1_apply x p q

/-- The second normalised block in the narrower format. -/
theorem pay7_apply (x : Vec Ideal S1024x256 .f32) (p : Fin 1024) (q : Fin 256) :
    k0_pay7 (F := Ideal) x (ix2 p q) = zrow (fun k => x (ix2 p k)) q := by
  unfold k0_pay7
  exact pay2_apply x p q

/-! ## The squared norms of the normalised rows, and the positive pair -/

/-- The column of the first block's squared norms at row `p`: the sum over the lanes of the normalised element squared. -/
theorem pay3_apply (x : Vec Ideal S1024x256 .f32) (p : Fin 1024) (z : Fin 1) :
    k0_pay3 (F := Ideal) x (ix2 p z) = sqz (fun k => x (ix2 p k)) := by
  unfold k0_pay3
  refine (col_apply _ _ p z).trans ?_
  refine (rowsum_apply _ _ _ _ p).trans ?_
  refine Finset.sum_congr rfl fun k _ => ?_
  show k0_pay1 (F := Ideal) x (ix2 p k) * k0_pay1 (F := Ideal) x (ix2 p k) = _
  rw [pay1_apply]

/-- The column of the second block's squared norms at row `p`. -/
theorem pay4_apply (x : Vec Ideal S1024x256 .f32) (p : Fin 1024) (z : Fin 1) :
    k0_pay4 (F := Ideal) x (ix2 p z) = sqz (fun k => x (ix2 p k)) := by
  unfold k0_pay4
  refine (col_apply _ _ p z).trans ?_
  refine (rowsum_apply _ _ _ _ p).trans ?_
  refine Finset.sum_congr rfl fun k _ => ?_
  show k0_pay2 (F := Ideal) x (ix2 p k) * k0_pay2 (F := Ideal) x (ix2 p k) = _
  rw [pay2_apply]

/-- The positive pair's value at row `p`: twice the inner product of the two normalised rows, less each one's squared
    norm. The inner product is the lane sum of the products, term by term the two normalised elements. -/
theorem pay5_apply (x0 x1 : Vec Ideal S1024x256 .f32) (p : Fin 1024) (z : Fin 1) :
    k0_pay5 (F := Ideal) x0 x1 (ix2 p z) = posK (fun k => x0 (ix2 p k)) (fun k => x1 (ix2 p k)) := by
  unfold k0_pay5
  show (two * shapeCast S1024x1 _ _ (ix2 p z) - k0_pay3 (F := Ideal) x0 (ix2 p z)) - k0_pay4 (F := Ideal) x1 (ix2 p z) = _
  rw [pay3_apply, pay4_apply]
  refine congrArg (fun t => two * t - sqz (fun k => x0 (ix2 p k)) - sqz (fun k => x1 (ix2 p k))) ?_
  refine (col_apply _ _ p z).trans ?_
  refine (rowsum_apply _ _ _ _ p).trans ?_
  refine Finset.sum_congr rfl fun k _ => ?_
  show k0_pay1 (F := Ideal) x0 (ix2 p k) * k0_pay2 (F := Ideal) x1 (ix2 p k) = _
  rw [pay1_apply, pay2_apply]

end Cert.Pay0

end
-- ==== Proof.Val0.lean ====
/-
  What the first pass leaves in each of its five result arrays, as one function of the two argument arrays.

  The pass visits four points; at point `t` every window's block is rows `1024·t … 1024·t + 1023` of its array, all
  columns. What a point writes back to a result array is a function of the two argument blocks at that point, and read
  at a row of the block it depends on the same row of the argument blocks only. So each point writes its block of ONE
  whole-array function: row `r` of the result is that function of row `r` of the arguments. The four blocks cover the
  array, hence the array ends holding the function everywhere: the normalised rows, their squared norms, and the
  positive pair's value.
-/
import proofs.«413375_j26920855012068_3_alg».proof.Proof.R0
import proofs.«413375_j26920855012068_3_alg».proof.Proof.Pay0
import proofs.«413375_j26920855012068_3_alg».proof.Proof.Spec
import proofs.«413375_j26920855012068_3_alg».proof.Proof.Gen.KernelIdeal.Points
import Idealize.ShloMosaic.Lib.Pipeline.Value
import Idealize.ShloMosaic.Lib.ValueIdx

noncomputable section

namespace Cert.Val0

open Idealize.ShloMosaic Idealize.ShloMosaic.TcCoe Idealize.SL.Sem
open Idealize.ShloMosaic.Pipeline (Dat)
open Cert.KernelIdeal Cert.KernelIdeal.Gen Cert.KernelIdeal.Hand Cert.Spec ValueIdx

variable (V : (c : Dev nD) → (b : Ref sig .tc) → Buf (Elt Ideal) ((c : Thread nD τ).loc b))

/-- Row `r` of the first argument array as the pass finds it, and of the second. -/
abbrev xrow (c : Dev nD) (r : Fin 4096) : Fin 256 → EReal := fun k => V c main_arg0 (ix2 r k)
abbrev yrow (c : Dev nD) (r : Fin 4096) : Fin 256 → EReal := fun k => V c main_arg1 (ix2 r k)

/-! ## Where the blocks lie -/

/-- Every window's block index at point `t` is `(t, 0)` (decided over the four points). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

theorem hz : (![0, 0] : Fin 2 → Nat) = fun _ => 0 := funext fun a => by fin_cases a <;> rfl

/-- The first argument's block at point `t`, read at `y`, is the argument at row `1024·t + y₀`, column `y₁`. -/
theorem iblk_x (c : Dev nD) (t : Fin cfg0.N) (y : S1024x256.Idx) (k : S4096x256.Idx)
    (hk0 : (k 0).val = t.val * 1024 + (y 0).val) (hk1 : (k 1).val = (y 1).val) :
    (iblk0 V c 0 t : Vec Ideal S1024x256 .f32) y = (V c main_arg0 : S4096x256.Idx → EReal) k := by
  obtain ⟨⟨e0, e1⟩, -⟩ := idx_facts t
  unfold iblk0
  rw [View.read_apply]
  show V c main_arg0 _ = V c main_arg0 _
  congr 1
  funext a
  apply Fin.ext
  match a with
  | ⟨0, _⟩ => show win0_0.index t 0 * 1024 + 1 * (y 0).val = (k 0).val; rw [e0, hk0]; omega
  | ⟨1, _⟩ => show win0_0.index t 1 * 256 + 1 * (y 1).val = (k 1).val; rw [e1, hk1]; omega

/-- The second argument's block likewise. -/
theorem iblk_y (c : Dev nD) (t : Fin cfg0.N) (y : S1024x256.Idx) (k : S4096x256.Idx)
    (hk0 : (k 0).val = t.val * 1024 + (y 0).val) (hk1 : (k 1).val = (y 1).val) :
    (iblk0 V c 1 t : Vec Ideal S1024x256 .f32) y = (V c main_arg1 : S4096x256.Idx → EReal) k := by
  obtain ⟨-, ⟨e0, e1⟩, -⟩ := idx_facts t
  unfold iblk0
  rw [View.read_apply]
  show V c main_arg1 _ = V c main_arg1 _
  congr 1
  funext a
  apply Fin.ext
  match a with
  | ⟨0, _⟩ => show win0_1.index t 0 * 1024 + 1 * (y 0).val = (k 0).val; rw [e0, hk0]; omega
  | ⟨1, _⟩ => show win0_1.index t 1 * 256 + 1 * (y 1).val = (k 1).val; rw [e1, hk1]; omega

/-! ## One block of a result, read where it lies in the array

A block `x` that is rows `1024·n …` of an array `A` (`hx`), pushed through a row-wise function, read at `y`, is the
function of row `1024·n + y₀` of `A`. -/

/-- A normalised block (full width). -/
theorem norm_block (pay : Vec Ideal S1024x256 .f32 → FVec Ideal S1024x256 .bf16)
    (hpay : ∀ x (p : Fin 1024) (q : Fin 256), pay x (ix2 p q) = zrow (fun k => x (ix2 p k)) q)
    (x : Vec Ideal S1024x256 .f32) (A : S4096x256.Idx → EReal) (n : Nat)
    (hx : ∀ (y : S1024x256.Idx) (k : S4096x256.Idx), (k 0).val = n * 1024 + (y 0).val → (k 1).val = (y 1).val → x y = A k)
    (y : S1024x256.Idx) (i : S4096x256.Idx) (hi0 : (i 0).val = n * 1024 + (y 0).val) (hi1 : (i 1).val = (y 1).val) :
    pay x y = zrow (fun k => A (ix2 (i 0) k)) (i 1) := by
  obtain ⟨p, q, rfl⟩ : ∃ (p : Fin 1024) (q : Fin 256), y = ix2 p q := ⟨y 0, y 1, eq_ix2 y⟩
  obtain ⟨r, s, rfl⟩ : ∃ (r : Fin 4096) (s : Fin 256), i = ix2 r s := ⟨i 0, i 1, eq_ix2 i⟩
  rw [hpay]
  obtain rfl : s = q := Fin.ext hi1
  exact congrArg (fun a => zrow a s) (funext fun k => hx _ _ hi0 rfl)

/-- A column of squared norms. -/
theorem sq_block (pay : Vec Ideal S1024x256 .f32 → FVec Ideal S1024x1 .f32)
    (hpay : ∀ x (p : Fin 1024) (z : Fin 1), pay x (ix2 p z) = sqz (fun k => x (ix2 p k)))
    (x : Vec Ideal S1024x256 .f32) (A : S4096x256.Idx → EReal) (n : Nat)
    (hx : ∀ (y : S1024x256.Idx) (k : S4096x256.Idx), (k 0).val = n * 1024 + (y 0).val → (k 1).val = (y 1).val → x y = A k)
    (y : S1024x1.Idx) (i : S4096x1.Idx) (hi0 : (i 0).val = n * 1024 + (y 0).val) :
    pay x y = sqz (fun k => A (ix2 (i 0) k)) := by
  obtain ⟨p, z, rfl⟩ : ∃ (p : Fin 1024) (z : Fin 1), y = ix2 p z := ⟨y 0, y 1, eq_ix2 y⟩
  obtain ⟨r, s, rfl⟩ : ∃ (r : Fin 4096) (s : Fin 1), i = ix2 r s := ⟨i 0, i 1, eq_ix2 i⟩
  rw [hpay]
  exact congrArg sqz (funext fun k => hx _ _ hi0 rfl)

/-- The column of positive-pair values, of two blocks. -/
theorem pos_block (x0 x1 : Vec Ideal S1024x256 .f32) (A B : S4096x256.Idx → EReal) (n : Nat)
    (hx0 : ∀ (y : S1024x256.Idx) (k : S4096x256.Idx), (k 0).val = n * 1024 + (y 0).val → (k 1).val = (y 1).val → x0 y = A k)
    (hx1 : ∀ (y : S1024x256.Idx) (k : S4096x256.Idx), (k 0).val = n * 1024 + (y 0).val → (k 1).val = (y 1).val → x1 y = B k)
    (y : S1024x1.Idx) (i : S4096x1.Idx) (hi0 : (i 0).val = n * 1024 + (y 0).val) :
    k0_pay5 (F := Ideal) x0 x1 y = posK (fun k => A (ix2 (i 0) k)) (fun k => B (ix2 (i 0) k)) := by
  obtain ⟨p, z, rfl⟩ : ∃ (p : Fin 1024) (z : Fin 1), y = ix2 p z := ⟨y 0, y 1, eq_ix2 y⟩
  obtain ⟨r, s, rfl⟩ : ∃ (r : Fin 4096) (s : Fin 1), i = ix2 r s := ⟨i 0, i 1, eq_ix2 i⟩
  rw [Cert.Pay0.pay5_apply]
  exact congrArg₂ posK (funext fun k => hx0 _ _ hi0 rfl) (funext fun k => hx1 _ _ hi0 rfl)

/-- Row `i₀` of a 4096-row array lies in the block of point `i₀ / 1024`, whatever the width `m`. -/
theorem row_in_block (m i0 i1 ix0 ix1 : Nat) (h0 : i0 < 4096) (h1 : i1 < m) (e0 : ix0 = i0 / 1024) (e1 : ix1 = 0) :
    (ix0 * 1024 ≤ i0 ∧ i0 < ix0 * 1024 + 1024) ∧ (ix1 * m ≤ i1 ∧ i1 < ix1 * m + m) := by
  subst e0 e1
  omega

/-- The point whose blocks hold row `r`. -/
abbrev pointOf (r : Nat) (h : r < 4096) : Fin cfg0.N := ⟨r / 1024, by rw [show cfg0.N = 4 from N_0]; omega⟩

/-! ## The first argument's rows normalised -/

abbrev G2 (c : Dev nD) : S4096x256.Idx → Elt Ideal .bf16 := fun i => zrow (fun k => V c main_arg0 (ix2 (i 0) k)) (i 1)

/-- What point `t` writes back is block `t` of `G2`. -/
theorem flushed2_eq (c : Dev nD) (t : Fin cfg0.N) :
    (dat0 V c).flushed 2 t = ((cfg0.win 2).blk t).view.read (Elt Ideal) (G2 V c) := by
  show (cfg0.win 2).cut (grid0.coords t) ((dat0 V c).after 2 t) = _
  rw [after0_2]
  unfold out0_2
  rw [View.canon_unit_zero hz]
  simp only [View.ld_unit_zero (S := S1024x256) hz]
  obtain ⟨-, -, ⟨e0, e1⟩, -⟩ := idx_facts t
  funext j
  refine norm_block _ Cert.Pay0.pay6_apply (iblk0 V c 0 t) (V c main_arg0) t.val (iblk_x V c t) _ _ ?_ ?_
  · show win0_2.index t (0 : Fin 2) * 1024 + 1 * (j 0).val = t.val * 1024 + (j 0).val
    rw [e0]; omega
  · show win0_2.index t (1 : Fin 2) * 256 + 1 * (j 1).val = (j 1).val
    rw [e1]; omega

/-- An index of the array is in point `t`'s block iff each coordinate is in the block's range on its axis. -/
theorem mem_blk2 (t : Fin cfg0.N) (i : S4096x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v0_0).slice (win0_2.rect t)).set ↔ _
  rw [View.set_slice_whole, Rect.mem_set_unit]
  exact Iff.rfl

/-- Every index is in the block of its row's point. -/
theorem cover2 (i : S4096x256.Idx) : ∃ t : Fin cfg0.N, (cfg0.win 2).flush t = true ∧ i ∈ ((cfg0.win 2).blk t).view.set := by
  obtain ⟨-, -, ⟨e0, e1⟩, -⟩ := idx_facts (pointOf (i 0).val (i 0).isLt)
  refine ⟨pointOf (i 0).val (i 0).isLt, flush0_2 _, ?_⟩
  rw [mem_blk2]
  have h := row_in_block 256 (i 0).val (i 1).val _ _ (i 0).isLt (i 1).isLt e0 e1
  intro a
  match a with
  | ⟨0, _⟩ => exact h.1
  | ⟨1, _⟩ => exact h.2

/-- The first result array: row `p` is row `p` of the first argument, normalised. -/
theorem arr0_2 (c : Dev nD) (p : Fin 4096) (q : Fin 256) : (dat0 V c).arrAt 2 cfg0.N (ix2 p q) = zrow (xrow V c p) q :=
  congrFun ((dat0 V c).arrAt_eq_of_cover 2 (G2 V c) (fun t _ => flushed2_eq V c t) cover2) (ix2 p q)

/-! ## The second argument's rows normalised -/

abbrev G3 (c : Dev nD) : S4096x256.Idx → Elt Ideal .bf16 := fun i => zrow (fun k => V c main_arg1 (ix2 (i 0) k)) (i 1)

/-- What point `t` writes back is block `t` of `G3`. -/
theorem flushed3_eq (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3]
  unfold out0_3
  rw [View.canon_unit_zero hz]
  simp only [View.ld_unit_zero (S := S1024x256) hz]
  obtain ⟨-, -, -, ⟨e0, e1⟩, -⟩ := idx_facts t
  funext j
  refine norm_block _ Cert.Pay0.pay7_apply (iblk0 V c 1 t) (V c main_arg1) t.val (iblk_y V c t) _ _ ?_ ?_
  · show win0_3.index t (0 : Fin 2) * 1024 + 1 * (j 0).val = t.val * 1024 + (j 0).val
    rw [e0]; omega
  · show win0_3.index t (1 : Fin 2) * 256 + 1 * (j 1).val = (j 1).val
    rw [e1]; omega

/-- An index of the array is in point `t`'s block iff each coordinate is in the block's range on its axis. -/
theorem mem_blk3 (t : Fin cfg0.N) (i : S4096x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v0_1).slice (win0_3.rect t)).set ↔ _
  rw [View.set_slice_whole, Rect.mem_set_unit]
  exact Iff.rfl

/-- Every index is in the block of its row's point. -/
theorem cover3 (i : S4096x256.Idx) : ∃ t : Fin cfg0.N, (cfg0.win 3).flush t = true ∧ i ∈ ((cfg0.win 3).blk t).view.set := by
  obtain ⟨-, -, -, ⟨e0, e1⟩, -⟩ := idx_facts (pointOf (i 0).val (i 0).isLt)
  refine ⟨pointOf (i 0).val (i 0).isLt, flush0_3 _, ?_⟩
  rw [mem_blk3]
  have h := row_in_block 256 (i 0).val (i 1).val _ _ (i 0).isLt (i 1).isLt e0 e1
  intro a
  match a with
  | ⟨0, _⟩ => exact h.1
  | ⟨1, _⟩ => exact h.2

/-- The second result array: row `p` is row `p` of the second argument, normalised. -/
theorem arr0_3 (c : Dev nD) (p : Fin 4096) (q : Fin 256) : (dat0 V c).arrAt 3 cfg0.N (ix2 p q) = zrow (yrow V c p) q :=
  congrFun ((dat0 V c).arrAt_eq_of_cover 3 (G3 V c) (fun t _ => flushed3_eq V c t) cover3) (ix2 p q)

/-! ## The squared norms of the first argument's normalised rows -/

abbrev G4 (c : Dev nD) : S4096x1.Idx → Elt Ideal .f32 := fun i => sqz (fun k => V c main_arg0 (ix2 (i 0) k))

/-- What point `t` writes back is block `t` of `G4`. -/
theorem flushed4_eq (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  unfold out0_4
  rw [View.canon_unit_zero hz]
  simp only [View.ld_unit_zero (S := S1024x256) hz]
  obtain ⟨-, -, -, -, ⟨e0, e1⟩, -⟩ := idx_facts t
  funext j
  refine sq_block _ Cert.Pay0.pay3_apply (iblk0 V c 0 t) (V c main_arg0) t.val (iblk_x V c t) _ _ ?_
  show win0_4.index t (0 : Fin 2) * 1024 + 1 * (j 0).val = t.val * 1024 + (j 0).val
  rw [e0]; omega

/-- An index of the array is in point `t`'s block iff each coordinate is in the block's range on its axis. -/
theorem mem_blk4 (t : Fin cfg0.N) (i : S4096x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v0_2).slice (win0_4.rect t)).set ↔ _
  rw [View.set_slice_whole, Rect.mem_set_unit]
  exact Iff.rfl

/-- Every index is in the block of its row's point. -/
theorem cover4 (i : S4096x1.Idx) : ∃ t : Fin cfg0.N, (cfg0.win 4).flush t = true ∧ i ∈ ((cfg0.win 4).blk t).view.set := by
  obtain ⟨-, -, -, -, ⟨e0, e1⟩, -⟩ := idx_facts (pointOf (i 0).val (i 0).isLt)
  refine ⟨pointOf (i 0).val (i 0).isLt, flush0_4 _, ?_⟩
  rw [mem_blk4]
  have h := row_in_block 1 (i 0).val (i 1).val _ _ (i 0).isLt (i 1).isLt e0 e1
  intro a
  match a with
  | ⟨0, _⟩ => exact h.1
  | ⟨1, _⟩ => exact h.2

/-- The third result array: entry `p` is the squared norm of the first argument's normalised row `p`. -/
theorem arr0_4 (c : Dev nD) (p : Fin 4096) (z : Fin 1) : (dat0 V c).arrAt 4 cfg0.N (ix2 p z) = sqz (xrow V c p) :=
  congrFun ((dat0 V c).arrAt_eq_of_cover 4 (G4 V c) (fun t _ => flushed4_eq V c t) cover4) (ix2 p z)

/-! ## The squared norms of the second argument's normalised rows -/

abbrev G5 (c : Dev nD) : S4096x1.Idx → Elt Ideal .f32 := fun i => sqz (fun k => V c main_arg1 (ix2 (i 0) k))

/-- What point `t` writes back is block `t` of `G5`. -/
theorem flushed5_eq (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5]
  unfold out0_5
  rw [View.canon_unit_zero hz]
  simp only [View.ld_unit_zero (S := S1024x256) hz]
  obtain ⟨-, -, -, -, -, ⟨e0, e1⟩, -⟩ := idx_facts t
  funext j
  refine sq_block _ Cert.Pay0.pay4_apply (iblk0 V c 1 t) (V c main_arg1) t.val (iblk_y V c t) _ _ ?_
  show win0_5.index t (0 : Fin 2) * 1024 + 1 * (j 0).val = t.val * 1024 + (j 0).val
  rw [e0]; omega

/-- An index of the array is in point `t`'s block iff each coordinate is in the block's range on its axis. -/
theorem mem_blk5 (t : Fin cfg0.N) (i : S4096x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v0_3).slice (win0_5.rect t)).set ↔ _
  rw [View.set_slice_whole, Rect.mem_set_unit]
  exact Iff.rfl

/-- Every index is in the block of its row's point. -/
theorem cover5 (i : S4096x1.Idx) : ∃ t : Fin cfg0.N, (cfg0.win 5).flush t = true ∧ i ∈ ((cfg0.win 5).blk t).view.set := by
  obtain ⟨-, -, -, -, -, ⟨e0, e1⟩, -⟩ := idx_facts (pointOf (i 0).val (i 0).isLt)
  refine ⟨pointOf (i 0).val (i 0).isLt, flush0_5 _, ?_⟩
  rw [mem_blk5]
  have h := row_in_block 1 (i 0).val (i 1).val _ _ (i 0).isLt (i 1).isLt e0 e1
  intro a
  match a with
  | ⟨0, _⟩ => exact h.1
  | ⟨1, _⟩ => exact h.2

/-- The fourth result array: entry `p` is the squared norm of the second argument's normalised row `p`. -/
theorem arr0_5 (c : Dev nD) (p : Fin 4096) (z : Fin 1) : (dat0 V c).arrAt 5 cfg0.N (ix2 p z) = sqz (yrow V c p) :=
  congrFun ((dat0 V c).arrAt_eq_of_cover 5 (G5 V c) (fun t _ => flushed5_eq V c t) cover5) (ix2 p z)

/-! ## The positive pair's value of each row -/

abbrev G6 (c : Dev nD) : S4096x1.Idx → Elt Ideal .f32 :=
  fun i => posK (fun k => V c main_arg0 (ix2 (i 0) k)) (fun k => V c main_arg1 (ix2 (i 0) k))

/-- What point `t` writes back is block `t` of `G6`. -/
theorem flushed6_eq (c : Dev nD) (t : Fin cfg0.N) :
    (dat0 V c).flushed 6 t = ((cfg0.win 6).blk t).view.read (Elt Ideal) (G6 V c) := by
  show (cfg0.win 6).cut (grid0.coords t) ((dat0 V c).after 6 t) = _
  rw [after0_6]
  unfold out0_6
  rw [View.canon_unit_zero hz]
  simp only [View.ld_unit_zero (S := S1024x256) hz]
  obtain ⟨-, -, -, -, -, -, ⟨e0, e1⟩⟩ := idx_facts t
  funext j
  refine pos_block (iblk0 V c 0 t) (iblk0 V c 1 t) (V c main_arg0) (V c main_arg1) t.val (iblk_x V c t) (iblk_y V c t) _ _ ?_
  show win0_6.index t (0 : Fin 2) * 1024 + 1 * (j 0).val = t.val * 1024 + (j 0).val
  rw [e0]; omega

/-- An index of the array is in point `t`'s block iff each coordinate is in the block's range on its axis. -/
theorem mem_blk6 (t : Fin cfg0.N) (i : S4096x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v0_4).slice (win0_6.rect t)).set ↔ _
  rw [View.set_slice_whole, Rect.mem_set_unit]
  exact Iff.rfl

/-- Every index is in the block of its row's point. -/
theorem cover6 (i : S4096x1.Idx) : ∃ t : Fin cfg0.N, (cfg0.win 6).flush t = true ∧ i ∈ ((cfg0.win 6).blk t).view.set := by
  obtain ⟨-, -, -, -, -, -, ⟨e0, e1⟩⟩ := idx_facts (pointOf (i 0).val (i 0).isLt)
  refine ⟨pointOf (i 0).val (i 0).isLt, flush0_6 _, ?_⟩
  rw [mem_blk6]
  have h := row_in_block 1 (i 0).val (i 1).val _ _ (i 0).isLt (i 1).isLt e0 e1
  intro a
  match a with
  | ⟨0, _⟩ => exact h.1
  | ⟨1, _⟩ => exact h.2

/-- The fifth result array: entry `p` is the positive pair's value of rows `p` of the two arguments. -/
theorem arr0_6 (c : Dev nD) (p : Fin 4096) (z : Fin 1) : (dat0 V c).arrAt 6 cfg0.N (ix2 p z) = posK (xrow V c p) (yrow V c p) :=
  congrFun ((dat0 V c).arrAt_eq_of_cover 6 (G6 V c) (fun t _ => flushed6_eq V c t) cover6) (ix2 p z)

end Cert.Val0

end
-- ==== Proof.Pay1.lean ====
/-
  The second kernel's arithmetic, read one element at a time on the extended reals.

  The zero fill is zero, the last step is the logarithm, and one trip of the column loop adds to the running row sum
  the sum over the chunk's 2048 columns of the masked exponential: zero where the global row number equals the
  global column number, and otherwise the exponential of minus the squared distance times the reciprocal temperature,
  the squared distance being the two squared norms minus twice the inner product over the 256 features.
-/
import proofs.«413375_j26920855012068_3_alg».proof.Proof.Gen.KernelIdeal.Skeleton
import proofs.«413375_j26920855012068_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.Pay1

open Idealize.ShloMosaic Idealize.ShloMosaic.ValueIdx
open Cert.KernelIdeal Cert.KernelIdeal.Gen Cert.Spec

/-- The zero fill reads zero everywhere. -/
theorem pay1_apply (p : Fin 512) (z : Fin 1) : k1_pay1 (F := Ideal) (ix2 p z) = 0 := by
  unfold k1_pay1
  rw [shapeCast_self]
  exact Ideal.ofBits_zero_f32

/-- The last step is the logarithm of the element. -/
theorem pay3_apply (v : Vec Ideal S512x1 .f32) (p : Fin 512) (z : Fin 1) :
    k1_pay3 (F := Ideal) v (ix2 p z) = Ideal.log (v (ix2 p z)) := rfl

/-- The named reciprocal temperature is the rational the table gives it. -/
theorem inv_t : Named.named (F := Ideal) κ "inv_t" (φ := .f32) 0x41200000#32 = invT :=
  IdealRules.named_const.ideal_named_scalar _ _ _ _ rfl

/-! ## The inner products: the matrix product against the transposed chunk -/

theorem lhs_0 (x : S512x2048.Idx) (q : dot_S512x256_S256x2048_S512x2048_1_0_0_1_n_n.contr.Idx) : (dot_S512x256_S256x2048_S512x2048_1_0_0_1_n_n.lhsIdx x q 0).val = (x 0).val := by
  unfold DotDims.lhsIdx
  rw [dif_neg (show ¬(0 : Fin S512x256.rank) ∈ dot_S512x256_S256x2048_S512x2048_1_0_0_1_n_n.lhsBatch by decide),
    dif_pos (show (0 : Fin S512x256.rank) ∈ dot_S512x256_S256x2048_S512x2048_1_0_0_1_n_n.lhsNonContracting by decide)]
  rfl
theorem lhs_1 (x : S512x2048.Idx) (q : dot_S512x256_S256x2048_S512x2048_1_0_0_1_n_n.contr.Idx) : (dot_S512x256_S256x2048_S512x2048_1_0_0_1_n_n.lhsIdx x q 1).val = (q ⟨0, by decide⟩).val :=
  dot_S512x256_S256x2048_S512x2048_1_0_0_1_n_n.lhsIdx_val_of_single rfl x q
theorem rhs_0 (x : S512x2048.Idx) (q : dot_S512x256_S256x2048_S512x2048_1_0_0_1_n_n.contr.Idx) : (dot_S512x256_S256x2048_S512x2048_1_0_0_1_n_n.rhsIdx x q 0).val = (q ⟨0, by decide⟩).val :=
  dot_S512x256_S256x2048_S512x2048_1_0_0_1_n_n.rhsIdx_val_of_single rfl x q
theorem rhs_1 (x : S512x2048.Idx) (q : dot_S512x256_S256x2048_S512x2048_1_0_0_1_n_n.contr.Idx) : (dot_S512x256_S256x2048_S512x2048_1_0_0_1_n_n.rhsIdx x q 1).val = (x 1).val := by
  unfold DotDims.rhsIdx
  rw [dif_neg (show ¬(1 : Fin S256x2048.rank) ∈ dot_S512x256_S256x2048_S512x2048_1_0_0_1_n_n.rhsBatch by decide),
    dif_pos (show (1 : Fin S256x2048.rank) ∈ dot_S512x256_S256x2048_S512x2048_1_0_0_1_n_n.rhsNonContracting by decide)]
  rfl

/-- The product of the row block with the transposed column chunk, accumulated onto zero, is at (p, j) the inner
    product of row p of the block with row j of the chunk. -/
theorem dot_apply (a : FVec Ideal S512x256 .bf16) (b : FVec Ideal S2048x256 .bf16) (p : Fin 512) (j : Fin 2048) :
    matmul dot_S512x256_S256x2048_S512x2048_1_0_0_1_n_n none a (transpose S256x2048 [1, 0] b transposes_S2048x256_p1_0_S256x2048) (constant S512x2048 .f32 0x00000000#32) (ix2 p j)
      = ∑ kk : Fin 256, a (ix2 p kk) * b (ix2 j kk) := by
  simp only [matmul]
  rw [Ideal.matmul_constant_zero_apply, ← Equiv.sum_comp (contrEquiv1 dot_S512x256_S256x2048_S512x2048_1_0_0_1_n_n 256 rfl rfl).symm]
  refine Finset.sum_congr rfl fun kk _ => ?_
  have hk := contrEquiv1_symm_val dot_S512x256_S256x2048_S512x2048_1_0_0_1_n_n 256 rfl rfl kk
  have el : dot_S512x256_S256x2048_S512x2048_1_0_0_1_n_n.lhsIdx (ix2 p j) ((contrEquiv1 dot_S512x256_S256x2048_S512x2048_1_0_0_1_n_n 256 rfl rfl).symm kk) = ix2 p kk := funext fun c => Fin.ext (by
    match c with
    | ⟨0, _⟩ => exact lhs_0 _ _
    | ⟨1, _⟩ => exact (lhs_1 _ _).trans hk)
  have er : dot_S512x256_S256x2048_S512x2048_1_0_0_1_n_n.rhsIdx (ix2 p j) ((contrEquiv1 dot_S512x256_S256x2048_S512x2048_1_0_0_1_n_n 256 rfl rfl).symm kk) = ix2 kk j := funext fun c => Fin.ext (by
    match c with
    | ⟨0, _⟩ => exact (rhs_0 _ _).trans hk
    | ⟨1, _⟩ => exact rhs_1 _ _)
  rw [el, er, transpose_ix2_apply]

/-! ## The broadcasts and the elementwise term -/

/-- One column broadcast across the columns reads, at (p, j), the column at row p. -/
theorem bcast_col {α : Type} (x : S512x1.Idx → α) (p : Fin 512) (j : Fin 2048) :
    broadcastTo S512x2048 x broadcasts_S512x1_S512x2048 (ix2 p j) = x (ix2 p (0 : Fin 1)) :=
  broadcastTo_apply x broadcasts_S512x1_S512x2048 (ix2 p j) (ix2 p (0 : Fin 1)) fun c =>
    match c with
    | ⟨0, _⟩ => rfl
    | ⟨1, _⟩ => rfl

/-- The exponential of minus (the two squared norms less twice the inner product), scaled by the named reciprocal
    temperature, read at one element: every operation is the extended reals' own, the zero word is zero and the
    named word the table's rational. -/
theorem term_apply (a b m : FVec Ideal S512x2048 .f32) (x : S512x2048.Idx) :
    exp (mulf (subf (broadcast S512x2048 (Scalar.ofBits .f32 0x00000000#32))
          (subf (addf a b) (mulf (broadcast S512x2048 (Scalar.ofBits .f32 0x40000000#32)) m)))
        (broadcast S512x2048 (Named.named κ "inv_t" 0x41200000#32))) x
      = Ideal.exp ((0 - (a x + b x - two * m x)) * invT) := by
  show Ideal.exp ((Ideal.ofBits .f32 0x00000000#32 - (a x + b x - Ideal.ofBits .f32 0x40000000#32 * m x))
      * Named.named (F := Ideal) κ "inv_t" (φ := .f32) 0x41200000#32) = _
  rw [Ideal.ofBits_zero_f32, inv_t]

/-! ## The mask: global row number against global column number -/

/-- A choice on the equality bit of two small words is the choice on the equality of the numbers. -/
theorem select_eq_words {α : Type} (A B : Nat) (hA : A < 2 ^ 32) (hB : B < 2 ^ 32) (x y : α) :
    Scalar.select (IntOp.cmpi .eq (BitVec.ofNat 32 A) (BitVec.ofNat 32 B)) x y = if A = B then x else y := by
  by_cases h : A = B
  · subst h
    rw [if_pos rfl]
    have : IntOp.cmpi .eq (BitVec.ofNat 32 A) (BitVec.ofNat 32 A) = 1#1 := by
      simp [IntOp.cmpi]
    rw [this, select_one]
  · rw [if_neg h]
    have hne : BitVec.ofNat 32 A ≠ BitVec.ofNat 32 B := by
      intro e
      have := congrArg BitVec.toNat e
      rw [BitVec.toNat_ofNat, BitVec.toNat_ofNat, Nat.mod_eq_of_lt hA, Nat.mod_eq_of_lt hB] at this
      exact h this
    have : IntOp.cmpi .eq (BitVec.ofNat 32 A) (BitVec.ofNat 32 B) = 0#1 := by
      show BitVec.ofBool (BitVec.ofNat 32 A == BitVec.ofNat 32 B) = 0#1
      rw [beq_eq_false_iff_ne.mpr hne]
      rfl
    rw [this, select_zero]

/-- The row word: the block's first row number, 512 times the grid coordinate, plus the row within the block. -/
theorem row_word (g : Nat) (p : Fin 512) (j : Fin 2048) :
    broadcastTo S512x2048 (addi (broadcast S512x1 (Scalar.muli (BitVec.ofNat 32 g) 512#32))
        (iota .tc S512x1 32 [0] iota_S512x1_d0_w32)) broadcasts_S512x1_S512x2048 (ix2 p j)
      = BitVec.ofNat 32 (g * 512 + p.val) := by
  refine (bcast_col _ p j).trans ?_
  · show Scalar.muli (BitVec.ofNat 32 g) 512#32 + iota .tc S512x1 32 [0] iota_S512x1_d0_w32 (ix2 p (0 : Fin 1)) = _
    rw [iota_single_apply]
    show BitVec.ofNat 32 g * BitVec.ofNat 32 512 + BitVec.ofNat 32 p.val = _
    rw [← BitVec.ofNat_mul, ← BitVec.ofNat_add]

/-- The column word: the chunk's first column number, 2048 times the trip, plus the column within the chunk. -/
theorem col_word (k : Nat) (p : Fin 512) (j : Fin 2048) :
    addi (broadcast S512x2048 (Scalar.muli (Scalar.addi 0#32 (Scalar.muli (Scf.iv 0#32 1#32 k) 1#32)) 2048#32))
        (iota .tc S512x2048 32 [1] iota_S512x2048_d1_w32) (ix2 p j)
      = BitVec.ofNat 32 (k * 2048 + j.val) := by
  show Scalar.muli (Scalar.addi 0#32 (Scalar.muli (Scf.iv 0#32 1#32 k) 1#32)) 2048#32
      + iota .tc S512x2048 32 [1] iota_S512x2048_d1_w32 (ix2 p j) = _
  rw [iota_single_apply]
  show (0#32 + (0#32 + BitVec.ofNat 32 k * 1#32) * 1#32) * BitVec.ofNat 32 2048 + BitVec.ofNat 32 j.val = _
  rw [BitVec.mul_one, BitVec.mul_one, BitVec.zero_add, BitVec.zero_add, ← BitVec.ofNat_mul, ← BitVec.ofNat_add]

/-! ## The row sums: the lane reduction and its cast to a column -/

/-- The sum along the columns, cast to one column, reads at row p the sum of that row. -/
theorem rowsum_apply (w : FVec Ideal S512x2048 .f32) (p : Fin 512) (z : Fin 1) :
    shapeCast S512x1 (multiReduction .add [1] S512 w 0x00000000#32 reduces_S512x2048_S512 (.inl rfl) rfl)
        shapeCasts_S512_S512x1 (ix2 p z)
      = ∑ j : Fin 2048, w (ix2 p j) := by
  refine (shapeCast_apply _ shapeCasts_S512_S512x1 (ix2 p z) (ix1 p) ?_).trans ?_
  · rw [Shape.rowMajor_val_one, Shape.rowMajor_val_two]
    show p.val = p.val * 1 + z.val
    omega
  · refine (Ideal.multiReduction_add_single w _ reduces_S512x2048_S512 (.inl rfl) rfl (ix1 p)).trans ?_
    refine Finset.sum_congr rfl fun j _ => congrArg w (funext fun c => Fin.ext ?_)
    match c with
    | ⟨0, _⟩ => rfl
    | ⟨1, _⟩ => rfl

/-! ## One trip of the column loop -/

/-- One trip adds to the running row sum the chunk's masked exponentials summed along the row. -/
theorem pay2_apply (i : grid1.Coords) (v0 : Vec Ideal S512x256 .bf16) (v2 : Vec Ideal S512x1 .f32)
    (k : Fin k1_t1_loop.trips) (v21 : Vec Ideal S2048x256 .bf16) (v24 : Vec Ideal S1x2048 .f32)
    (v46 : Vec Ideal S512x1 .f32) (p : Fin 512) (z : Fin 1) :
    k1_pay2 (F := Ideal) i v0 v2 k v21 v24 v46 (ix2 p z)
      = v46 (ix2 p z) + ∑ j : Fin 2048,
          (if (i 0).val * 512 + p.val = k.val * 2048 + j.val then (0 : EReal)
           else Ideal.exp ((0 - (v2 (ix2 p 0) + v24 (ix2 0 j) - two * ∑ kk : Fin 256, v0 (ix2 p kk) * v21 (ix2 j kk))) * invT)) := by
  have hi : (i 0).val < 16 := (i 0).isLt
  have hk : k.val < 4 := Nat.lt_of_lt_of_le k.isLt k1_t1_abs.2.1
  unfold k1_pay2
  simp only [shapeCast_self]
  refine (addf_apply _ _ _).trans ?_
  refine congrArg (fun t => v46 (ix2 p z) + t) ?_
  refine (rowsum_apply _ p z).trans ?_
  refine Finset.sum_congr rfl fun j _ => ?_
  refine (select_apply _ _ _ _).trans ?_
  rw [cmpi]
  show Scalar.select (IntOp.cmpi .eq (broadcastTo S512x2048 _ broadcasts_S512x1_S512x2048 (ix2 p j)) (addi _ _ (ix2 p j))) _ _ = _
  rw [row_word, col_word, select_eq_words _ _ (by omega) (by omega)]
  by_cases h : (i 0).val * 512 + p.val = k.val * 2048 + j.val
  · rw [if_pos h, if_pos h]
    exact Ideal.ofBits_zero_f32
  · rw [if_neg h, if_neg h]
    refine (term_apply _ _ _ _).trans ?_
    rw [bcast_col, broadcastTo_1b_ab_apply, dot_apply]

end Cert.Pay1

end
-- ==== Proof.Val1Block.lean ====
/-
  The second kernel's output block, read one element at a time on the extended reals.

  The body zero-fills a scratch column, makes four trips that each add to it the row sums of the masked exponentials
  over one run of 2048 columns, and stores the logarithm of the column. Every store covers the whole column, so after
  each trip the column is that trip's sum of what the trip before left: an induction on the trip gives the column
  after n trips, and at row p it is the zero start plus the first n runs' sums, added in order.
-/
import proofs.«413375_j26920855012068_3_alg».proof.Proof.R1
import proofs.«413375_j26920855012068_3_alg».proof.Proof.Pay1
import proofs.«413375_j26920855012068_3_alg».proof.Proof.Spec
import Idealize.ShloMosaic.Lib.ValueIdx
import Idealize.ShloMosaic.Lib.ValueLayout
import Idealize.ShloMosaic.Lib.Pipeline.Value
import Idealize.ShloMosaic.Lib.Pipeline.FrameBody
import Idealize.ShloMosaic.Lib.Writes
import Idealize.ShloMosaic.PureOps.Ideal.Laws

noncomputable section

namespace Cert.Val1

open Idealize.ShloMosaic Idealize.ShloMosaic.ValueIdx
open Cert.KernelIdeal Cert.KernelIdeal.Gen Cert.KernelIdeal.Hand Cert.Spec Cert.Pay1

/-- One run of 2048 columns of one row's denominator, from the blocks the body loads: i0 is the grid coordinate, p the row inside the block, k the run. -/
def chunkB (i0 : ℕ) (x0 : Vec Ideal S512x256 .bf16) (x1 : Vec Ideal S8192x256 .bf16) (x2 : Vec Ideal S512x1 .f32) (x3 : Vec Ideal S1x8192 .f32) (p : Fin 512) (k : Fin 4) : EReal :=
  ∑ j : Fin 2048, (if i0 * 512 + p.val = k.val * 2048 + j.val then (0 : EReal)
    else Ideal.exp ((0 - (x2 (ix2 p 0) + x3 (ix2 0 ⟨k.val * 2048 + j.val, by omega⟩) - two * ∑ kk : Fin 256, x0 (ix2 p kk) * x1 (ix2 ⟨k.val * 2048 + j.val, by omega⟩ kk))) * invT))

/-! ## The run's one piece, and a trip's one piece -/

/-- The whole scratch column, as a rectangle. -/
abbrev colR : Rect S512x1 := Rect.unit (s := S512x1) ![0, 0] S512x1.size inb_S512x1_S512x1_0_0

/-- The zero fill's piece: the first write into the scratch. -/
abbrev zfill : List (View.Piece (Elt Ideal) S512x1 .f32) := [⟨colR, k1_pay1 (F := Ideal)⟩]

/-- What the loop finds in the scratch: the zero fill written over anything. -/
abbrev G6 (arg6 : Memref sig .tc .vmem S512x1 .f32) : BufTy.Contents (Elt Ideal) arg6.view.ty :=
  arg6.view.writes (Elt Ideal) arg6.view.junk zfill

/-- The pieces of the trips before n, at this run's loads. -/
abbrev pbN (c : Dev nD) (i : grid1.Coords)
    (arg1 : Memref sig .tc .vmem S512x256 .bf16) (harg1 : arg1.IsWhole) (arg2 : Memref sig .tc .vmem S8192x256 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S512x1 .f32) (harg5 : arg5.IsWhole) (arg6 : Memref sig .tc .vmem S512x1 .f32) (harg6 : arg6.IsWhole)
    (x0 : Vec Ideal S512x256 .bf16) (x1 : Vec Ideal S8192x256 .bf16) (x2 : Vec Ideal S512x1 .f32) (x3 : Vec Ideal S1x8192 .f32) (n : ℕ) :
    List (View.Piece (Elt Ideal) S512x1 .f32) :=
  pb_k1_t1 (F := Ideal) Variants.none c none i arg1 harg1 arg2 harg2 arg3 harg3 arg4 harg4 arg5 harg5 arg6 harg6
    (View.readAt (Elt Ideal) arg1.view (Rect.unit (s := S512x256) ![0, 0] S512x256.size inb_S512x256_S512x256_0_0).toLoadRect (harg1.unread x0))
    (View.readAt (Elt Ideal) arg3.view (Rect.unit (s := S512x1) ![0, 0] S512x1.size inb_S512x1_S512x1_0_0).toLoadRect (harg3.unread x2))
    (harg2.unread x1) (harg4.unread x3) (G6 arg6) n

/-- The run stores once into the output: the logarithm of the scratch column as the loop leaves it, the trips'
    pieces over the zero fill. -/
theorem run_pieces (c : Dev nD) (i : grid1.Coords)
    (arg1 : Memref sig .tc .vmem S512x256 .bf16) (harg1 : arg1.IsWhole) (arg2 : Memref sig .tc .vmem S8192x256 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S512x1 .f32) (harg5 : arg5.IsWhole) (arg6 : Memref sig .tc .vmem S512x1 .f32) (harg6 : arg6.IsWhole)
    (x0 : Vec Ideal S512x256 .bf16) (x1 : Vec Ideal S8192x256 .bf16) (x2 : Vec Ideal S512x1 .f32) (x3 : Vec Ideal S1x8192 .f32) :
    (kernelRun1 (F := Ideal) c i arg1 harg1 arg2 harg2 arg3 harg3 arg4 harg4 arg5 harg5 arg6 harg6 x0 x1 x2 x3).1
      = [⟨colR, k1_pay3 (View.readAt (Elt Ideal) arg6.view colR.toLoadRect
          (arg6.view.writes (Elt Ideal) arg6.view.junk
            (pbN c i arg1 harg1 arg2 harg2 arg3 harg3 arg4 harg4 arg5 harg5 arg6 harg6 x0 x1 x2 x3 k1_t1_loop.trips ++ zfill)))⟩] := by
  unfold kernelRun1
  dsimp only
  unfold kernelRun1.sl.v13 kernelRun1.sl.HS_1
  rfl

/-- One trip stores once into the scratch: the trip's sum of its loads at the trip's offsets and of the scratch
    column it finds. -/
theorem trip_piece (c : Dev nD) (i : grid1.Coords)
    (arg1 : Memref sig .tc .vmem S512x256 .bf16) (harg1 : arg1.IsWhole) (arg2 : Memref sig .tc .vmem S8192x256 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S512x1 .f32) (harg5 : arg5.IsWhole) (arg6 : Memref sig .tc .vmem S512x1 .f32) (harg6 : arg6.IsWhole)
    (v0 : Vec Ideal S512x256 .bf16) (v2 : Vec Ideal S512x1 .f32)
    (X2 : BufTy.Contents (Elt Ideal) arg2.view.ty) (X4 : BufTy.Contents (Elt Ideal) arg4.view.ty) (k : Fin k1_t1_loop.trips)
    (f : BufTy.Contents (Elt Ideal) arg6.view.ty) :
    tripL_k1_t1 (F := Ideal) Variants.none c none i arg1 harg1 arg2 harg2 arg3 harg3 arg4 harg4 arg5 harg5 arg6 harg6 v0 v2 X2 X4 k f
      = [⟨colR, k1_pay2 i v0 v2 k
          (View.readAt (Elt Ideal) arg2.view (Rect.unit (s := S8192x256) (k1_off1 k) S2048x256.size (k1_off1_inb k)).toLoadRect X2)
          (View.readAt (Elt Ideal) arg4.view (Rect.unit (s := S1x8192) (k1_off2 k) S1x2048.size (k1_off2_inb k)).toLoadRect X4)
          (View.readAt (Elt Ideal) arg6.view colR.toLoadRect f)⟩] := by
  unfold tripL_k1_t1 trip_k1_t1
  rfl

/-! ## The scratch column after each trip -/

theorem hz : (![0, 0] : Fin 2 → Nat) = fun _ => 0 := funext fun a => by fin_cases a <;> rfl

/-- The 2048 representation rows trip k loads, and the 2048 squared norms. -/
abbrev ldRows (x1 : Vec Ideal S8192x256 .bf16) (k : Fin k1_t1_loop.trips) : Vec Ideal S2048x256 .bf16 :=
  View.ld x1 (Rect.unit (s := S8192x256) (k1_off1 k) S2048x256.size (k1_off1_inb k))
abbrev ldNorms (x3 : Vec Ideal S1x8192 .f32) (k : Fin k1_t1_loop.trips) : Vec Ideal S1x2048 .f32 :=
  View.ld x3 (Rect.unit (s := S1x8192) (k1_off2 k) S1x2048.size (k1_off2_inb k))

/-- The scratch column after the first n trips: the zero fill, then each trip's sum onto what the trip before left. -/
def acc (i : grid1.Coords) (x0 : Vec Ideal S512x256 .bf16) (x1 : Vec Ideal S8192x256 .bf16) (x2 : Vec Ideal S512x1 .f32)
    (x3 : Vec Ideal S1x8192 .f32) : ℕ → Vec Ideal S512x1 .f32
  | 0 => k1_pay1 (F := Ideal)
  | n + 1 => if h : n < k1_t1_loop.trips then
      k1_pay2 (F := Ideal) i x0 x2 ⟨n, h⟩ (ldRows x1 ⟨n, h⟩) (ldNorms x3 ⟨n, h⟩) (acc i x0 x1 x2 x3 n)
    else acc i x0 x1 x2 x3 n

/-- Every trip's store covers the whole column, so the pieces of the trips before n over the zero fill read as the
    column after n trips: by induction on the trip, each trip reading back what the one before left. -/
theorem canon_pb (c : Dev nD) (i : grid1.Coords)
    (arg1 : Memref sig .tc .vmem S512x256 .bf16) (harg1 : arg1.IsWhole) (arg2 : Memref sig .tc .vmem S8192x256 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S512x1 .f32) (harg5 : arg5.IsWhole) (arg6 : Memref sig .tc .vmem S512x1 .f32) (harg6 : arg6.IsWhole)
    (x0 : Vec Ideal S512x256 .bf16) (x1 : Vec Ideal S8192x256 .bf16) (x2 : Vec Ideal S512x1 .f32) (x3 : Vec Ideal S1x8192 .f32) :
    ∀ n, n ≤ k1_t1_loop.trips → View.canon (pbN c i arg1 harg1 arg2 harg2 arg3 harg3 arg4 harg4 arg5 harg5 arg6 harg6 x0 x1 x2 x3 n ++ zfill) = acc i x0 x1 x2 x3 n
  | 0, _ => by
    show View.canon zfill = k1_pay1 (F := Ideal)
    exact View.canon_unit_zero (Val := Elt Ideal) (S := S512x1) (e := .f32) hz inb_S512x1_S512x1_0_0 _
  | n + 1, h => by
    have hn : n < k1_t1_loop.trips := h
    have ih := canon_pb c i arg1 harg1 arg2 harg2 arg3 harg3 arg4 harg4 arg5 harg5 arg6 harg6 x0 x1 x2 x3 n (Nat.le_of_lt hn)
    have e := pb_k1_t1_succ (F := Ideal) Variants.none c none i arg1 harg1 arg2 harg2 arg3 harg3 arg4 harg4 arg5 harg5 arg6 harg6
      (View.readAt (Elt Ideal) arg1.view (Rect.unit (s := S512x256) ![0, 0] S512x256.size inb_S512x256_S512x256_0_0).toLoadRect (harg1.unread x0))
      (View.readAt (Elt Ideal) arg3.view (Rect.unit (s := S512x1) ![0, 0] S512x1.size inb_S512x1_S512x1_0_0).toLoadRect (harg3.unread x2))
      (harg2.unread x1) (harg4.unread x3) (G6 arg6) ⟨n, hn⟩
    show View.canon (pb_k1_t1 (F := Ideal) _ _ _ _ _ _ _ _ _ _ _ _ _ _ _ _ _ _ _ _ _ (n + 1) ++ zfill) = _
    rw [e, trip_piece, List.singleton_append, List.cons_append, View.canon_cons_unit_zero hz]
    rw [acc, dif_pos hn]
    rw [← View.writes_append, View.readAt_writes_junk_eq_canon]
    show k1_pay2 _ _ _ _ _ _ (fun j => View.canon (pbN c i arg1 harg1 arg2 harg2 arg3 harg3 arg4 harg4 arg5 harg5 arg6 harg6 x0 x1 x2 x3 n ++ zfill) (colR.toLoadRect.idx j)) = _
    rw [ih]
    simp only [View.readAt_eq_ld, harg1.read_unread, harg2.read_unread, harg3.read_unread, harg4.read_unread,
      View.ld_unit_zero (S := S512x256) hz, View.ld_unit_zero (S := S512x1) hz]
    have hl : (fun j => acc i x0 x1 x2 x3 n (colR.idx j)) = acc i x0 x1 x2 x3 n :=
      View.ld_unit_zero (Val := Elt Ideal) (S := S512x1) hz inb_S512x1_S512x1_0_0 (acc i x0 x1 x2 x3 n)
    exact congrArg (k1_pay2 (F := Ideal) i x0 x2 ⟨n, hn⟩ (ldRows x1 ⟨n, hn⟩) (ldNorms x3 ⟨n, hn⟩)) hl

/-! ## The loads at a trip's offsets, and the column as sums -/

/-- The loop makes four trips. -/
theorem trips4 : k1_t1_loop.trips = 4 := by decide

/-- Row j of the chunk trip k loads is representation row 2048 k + j. -/
theorem ldRows_apply (x1 : Vec Ideal S8192x256 .bf16) (k : Fin k1_t1_loop.trips) (j : Fin 2048) (kk : Fin 256)
    (hb : k.val * 2048 + j.val < 8192) :
    ldRows x1 k (ix2 j kk) = x1 (ix2 ⟨k.val * 2048 + j.val, hb⟩ kk) := by
  refine congrArg x1 (funext fun a => Fin.ext ?_)
  match a with
  | ⟨0, _⟩ =>
    show k1_off1 k 0 + 1 * j.val = k.val * 2048 + j.val
    rw [k1_off1_eq]
    show 2048 * k.val + 1 * j.val = k.val * 2048 + j.val
    omega
  | ⟨1, _⟩ =>
    show k1_off1 k 1 + 1 * kk.val = kk.val
    rw [k1_off1_eq]
    show 0 + 1 * kk.val = kk.val
    omega

/-- Column j of the squared norms trip k loads is squared norm 2048 k + j. -/
theorem ldNorms_apply (x3 : Vec Ideal S1x8192 .f32) (k : Fin k1_t1_loop.trips) (j : Fin 2048)
    (hb : k.val * 2048 + j.val < 8192) :
    ldNorms x3 k (ix2 (0 : Fin 1) j) = x3 (ix2 (0 : Fin 1) ⟨k.val * 2048 + j.val, hb⟩) := by
  refine congrArg x3 (funext fun a => Fin.ext ?_)
  match a with
  | ⟨0, _⟩ =>
    show k1_off2 k 0 + 1 * 0 = 0
    rw [k1_off2_eq]
    rfl
  | ⟨1, _⟩ =>
    show k1_off2 k 1 + 1 * j.val = k.val * 2048 + j.val
    rw [k1_off2_eq]
    show 2048 * k.val + 1 * j.val = k.val * 2048 + j.val
    omega

/-- One more trip adds that run's masked exponentials to the row's entry of the column. -/
theorem acc_succ_apply (i : grid1.Coords) (x0 : Vec Ideal S512x256 .bf16) (x1 : Vec Ideal S8192x256 .bf16)
    (x2 : Vec Ideal S512x1 .f32) (x3 : Vec Ideal S1x8192 .f32) (k : Fin 4) (p : Fin 512) (z : Fin 1) :
    acc i x0 x1 x2 x3 (k.val + 1) (ix2 p z) = acc i x0 x1 x2 x3 k.val (ix2 p z) + chunkB (i 0).val x0 x1 x2 x3 p k := by
  have hn : k.val < k1_t1_loop.trips := by rw [trips4]; exact k.isLt
  rw [acc, dif_pos hn, pay2_apply]
  refine congrArg (fun t => acc i x0 x1 x2 x3 k.val (ix2 p z) + t) ?_
  unfold chunkB
  refine Finset.sum_congr rfl fun j _ => ?_
  have hb : k.val * 2048 + j.val < 8192 := by have := k.isLt; have := j.isLt; omega
  rw [ldNorms_apply x3 ⟨k.val, hn⟩ j hb]
  simp only [ldRows_apply x1 ⟨k.val, hn⟩ j _ hb]

/-! ## The output block -/

/-- The output block is the logarithm of the column after the last trip. -/
theorem out_eq (c : Dev nD) (i : grid1.Coords)
    (arg1 : Memref sig .tc .vmem S512x256 .bf16) (harg1 : arg1.IsWhole) (arg2 : Memref sig .tc .vmem S8192x256 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S512x1 .f32) (harg5 : arg5.IsWhole) (arg6 : Memref sig .tc .vmem S512x1 .f32) (harg6 : arg6.IsWhole)
    (x0 : Vec Ideal S512x256 .bf16) (x1 : Vec Ideal S8192x256 .bf16) (x2 : Vec Ideal S512x1 .f32) (x3 : Vec Ideal S1x8192 .f32) :
    out1_4 (F := Ideal) c i arg1 harg1 arg2 harg2 arg3 harg3 arg4 harg4 arg5 harg5 arg6 harg6 x0 x1 x2 x3 = k1_pay3 (acc i x0 x1 x2 x3 k1_t1_loop.trips) := by
  unfold out1_4
  rw [View.read_writes_junk_eq_canon, run_pieces, View.canon_unit_zero hz, View.readAt_writes_junk_eq_canon]
  show k1_pay3 (fun j => View.canon (pbN c i arg1 harg1 arg2 harg2 arg3 harg3 arg4 harg4 arg5 harg5 arg6 harg6 x0 x1 x2 x3 k1_t1_loop.trips ++ zfill) (colR.toLoadRect.idx j)) = _
  rw [canon_pb c i arg1 harg1 arg2 harg2 arg3 harg3 arg4 harg4 arg5 harg5 arg6 harg6 x0 x1 x2 x3 k1_t1_loop.trips (Nat.le_refl _)]
  have hl : (fun j => acc i x0 x1 x2 x3 k1_t1_loop.trips (colR.idx j)) = acc i x0 x1 x2 x3 k1_t1_loop.trips :=
    View.ld_unit_zero (Val := Elt Ideal) (S := S512x1) hz inb_S512x1_S512x1_0_0 (acc i x0 x1 x2 x3 k1_t1_loop.trips)
  exact congrArg (k1_pay3 (F := Ideal)) hl

theorem out1_4_apply (c : Dev nD) (i : grid1.Coords)
    (arg1 : Memref sig .tc .vmem S512x256 .bf16) (harg1 : arg1.IsWhole) (arg2 : Memref sig .tc .vmem S8192x256 .bf16) (harg2 : arg2.IsWhole)
    (arg3 : Memref sig .tc .vmem S512x1 .f32) (harg3 : arg3.IsWhole) (arg4 : Memref sig .tc .vmem S1x8192 .f32) (harg4 : arg4.IsWhole)
    (arg5 : Memref sig .tc .vmem S512x1 .f32) (harg5 : arg5.IsWhole) (arg6 : Memref sig .tc .vmem S512x1 .f32) (harg6 : arg6.IsWhole)
    (x0 : Vec Ideal S512x256 .bf16) (x1 : Vec Ideal S8192x256 .bf16) (x2 : Vec Ideal S512x1 .f32) (x3 : Vec Ideal S1x8192 .f32) (p : Fin 512) (z : Fin 1) :
    out1_4 (F := Ideal) c i arg1 harg1 arg2 harg2 arg3 harg3 arg4 harg4 arg5 harg5 arg6 harg6 x0 x1 x2 x3 (ix2 p z)
      = Ideal.log ((((0 + chunkB (i 0).val x0 x1 x2 x3 p 0) + chunkB (i 0).val x0 x1 x2 x3 p 1) + chunkB (i 0).val x0 x1 x2 x3 p 2) + chunkB (i 0).val x0 x1 x2 x3 p 3) := by
  rw [out_eq, pay3_apply, trips4]
  have e1 : acc i x0 x1 x2 x3 1 (ix2 p z) = acc i x0 x1 x2 x3 0 (ix2 p z) + chunkB (i 0).val x0 x1 x2 x3 p 0 :=
    acc_succ_apply i x0 x1 x2 x3 (0 : Fin 4) p z
  have e2 : acc i x0 x1 x2 x3 2 (ix2 p z) = acc i x0 x1 x2 x3 1 (ix2 p z) + chunkB (i 0).val x0 x1 x2 x3 p 1 :=
    acc_succ_apply i x0 x1 x2 x3 (1 : Fin 4) p z
  have e3 : acc i x0 x1 x2 x3 3 (ix2 p z) = acc i x0 x1 x2 x3 2 (ix2 p z) + chunkB (i 0).val x0 x1 x2 x3 p 2 :=
    acc_succ_apply i x0 x1 x2 x3 (2 : Fin 4) p z
  have e4 : acc i x0 x1 x2 x3 4 (ix2 p z) = acc i x0 x1 x2 x3 3 (ix2 p z) + chunkB (i 0).val x0 x1 x2 x3 p 3 :=
    acc_succ_apply i x0 x1 x2 x3 (3 : Fin 4) p z
  have e0 : acc i x0 x1 x2 x3 0 (ix2 p z) = 0 := pay1_apply p z
  rw [e4, e3, e2, e1, e0]

end Cert.Val1

end
-- ==== Proof.Val1.lean ====
/-
  From blocks to the whole array: the output of the second pallas_call after its 16 points.

  Point t loads rows 512·t … 512·t + 511 of the representations and of the column of squared norms, the whole table of
  representations and the whole row of squared norms, and leaves in its output block, at row p, the logarithm of the
  four runs of 2048 masked exponentials added onto zero. Read through the block index maps (a block's coordinate is its
  index times its size plus the coordinate inside it) those blocks are parts of two tables R and S of the global row
  number, the mask compares global row and column numbers, and the row of squared norms is the column transposed: so
  row p of point t's block is the log-denominator of the global row 512·t + p. The 16 blocks tile the 8192 rows (row r
  lies in block r / 512) and every point writes its block back, so the array ends holding the log-denominator of every row.
-/
import proofs.«413375_j26920855012068_3_alg».proof.Proof.Val1Block
import proofs.«413375_j26920855012068_3_alg».proof.Proof.Gen.KernelIdeal.Points
import Idealize.ShloMosaic.Lib.Pipeline.Value
import Idealize.ShloMosaic.Lib.ValueIdx

noncomputable section

namespace Cert.Val1

open Idealize.ShloMosaic Idealize.ShloMosaic.TcCoe Idealize.SL.Sem
open Idealize.ShloMosaic.Pipeline (Dat)
open Cert.KernelIdeal Cert.KernelIdeal.Gen Cert.KernelIdeal.Hand Cert.Spec ValueIdx

variable (V : (c : Dev nD) → (b : Ref sig .tc) → Buf (Elt Ideal) ((c : Thread nD τ).loc b))

namespace Arr

/-- The block indices of the five windows and the grid coordinate at each of the 16 points (decided): the row windows
    are at block (t, 0), the whole-array windows at block (0, 0), and the coordinate is the point's number. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ (grid1.coords t 0).val = t.val :=
  (by decide +kernel : ∀ t : Fin grid1.N, _)

/-! ## The input blocks as parts of their arrays -/

/-- Window 0's block at point t is rows 512·t … of the representations. -/
theorem iblk1_0_apply (c : Dev nD) (t : Fin cfg1.N) (x : S512x256.Idx) (k : S8192x256.Idx)
    (hk0 : (k 0).val = t.val * 512 + (x 0).val) (hk1 : (k 1).val = (x 1).val) :
    (iblk1 V c 0 t : Vec Ideal S512x256 .bf16) x = (V c main_v1 : S8192x256.Idx → EReal) k := by
  obtain ⟨e0, e1, -⟩ := idx_facts t
  unfold iblk1
  rw [View.read_apply]
  show V c main_v1 _ = V c main_v1 _
  congr 1
  funext a
  apply Fin.ext
  match a with
  | ⟨0, _⟩ => show win1_0.index t 0 * 512 + 1 * (x 0).val = (k 0).val; rw [e0, hk0]; omega
  | ⟨1, _⟩ => show win1_0.index t 1 * 256 + 1 * (x 1).val = (k 1).val; rw [e1, hk1]; omega

/-- Window 1's block at every point is the whole array of representations. -/
theorem iblk1_1_apply (c : Dev nD) (t : Fin cfg1.N) (x : S8192x256.Idx) :
    (iblk1 V c 1 t : Vec Ideal S8192x256 .bf16) x = (V c main_v1 : S8192x256.Idx → EReal) x := by
  obtain ⟨-, -, e0, e1, -⟩ := idx_facts t
  unfold iblk1
  rw [View.read_apply]
  show V c main_v1 _ = V c main_v1 _
  congr 1
  funext a
  apply Fin.ext
  match a with
  | ⟨0, _⟩ => show win1_1.index t 0 * 8192 + 1 * (x 0).val = (x 0).val; rw [e0]; omega
  | ⟨1, _⟩ => show win1_1.index t 1 * 256 + 1 * (x 1).val = (x 1).val; rw [e1]; omega

/-- Window 2's block at point t is rows 512·t … of the column of squared norms. -/
theorem iblk1_2_apply (c : Dev nD) (t : Fin cfg1.N) (x : S512x1.Idx) (k : S8192x1.Idx)
    (hk0 : (k 0).val = t.val * 512 + (x 0).val) (hk1 : (k 1).val = (x 1).val) :
    (iblk1 V c 2 t : Vec Ideal S512x1 .f32) x = (V c main_v2 : S8192x1.Idx → EReal) k := by
  obtain ⟨-, -, -, -, e0, e1, -⟩ := idx_facts t
  unfold iblk1
  rw [View.read_apply]
  show V c main_v2 _ = V c main_v2 _
  congr 1
  funext a
  apply Fin.ext
  match a with
  | ⟨0, _⟩ => show win1_2.index t 0 * 512 + 1 * (x 0).val = (k 0).val; rw [e0, hk0]; omega
  | ⟨1, _⟩ => show win1_2.index t 1 * 1 + 1 * (x 1).val = (k 1).val; rw [e1, hk1]; omega

/-- Window 3's block at every point is the whole row of squared norms. -/
theorem iblk1_3_apply (c : Dev nD) (t : Fin cfg1.N) (x : S1x8192.Idx) :
    (iblk1 V c 3 t : Vec Ideal S1x8192 .f32) x = (V c main_v3 : S1x8192.Idx → EReal) x := by
  obtain ⟨-, -, -, -, -, -, e0, e1, -⟩ := idx_facts t
  unfold iblk1
  rw [View.read_apply]
  show V c main_v3 _ = V c main_v3 _
  congr 1
  funext a
  apply Fin.ext
  match a with
  | ⟨0, _⟩ => show win1_3.index t 0 * 1 + 1 * (x 0).val = (x 0).val; rw [e0]; omega
  | ⟨1, _⟩ => show win1_3.index t 1 * 8192 + 1 * (x 1).val = (x 1).val; rw [e1]; omega

/-! ## One point's block of the output -/

/-- A run of 2048 columns from blocks that are the stated parts of one table of representations `R` and one table of
    squared norms `S` is Spec's run of the global row: the mask compares the same two numbers, as naturals or as
    row numbers. -/
theorem chunkB_eq (R : Fin 8192 → Fin 256 → EReal) (S : Fin 8192 → EReal) (i0 : ℕ) (hi0 : i0 < 16)
    (x0 : Vec Ideal S512x256 .bf16) (x1 : Vec Ideal S8192x256 .bf16) (x2 : Vec Ideal S512x1 .f32) (x3 : Vec Ideal S1x8192 .f32)
    (h0 : ∀ (p : Fin 512) (kk : Fin 256), x0 (ix2 p kk) = R ⟨i0 * 512 + p.val, by omega⟩ kk)
    (h1 : ∀ (s : Fin 8192) (kk : Fin 256), x1 (ix2 s kk) = R s kk)
    (h2 : ∀ p : Fin 512, x2 (ix2 p 0) = S ⟨i0 * 512 + p.val, by omega⟩)
    (h3 : ∀ s : Fin 8192, x3 (ix2 0 s) = S s)
    (p : Fin 512) (k : Fin 4) :
    chunkB i0 x0 x1 x2 x3 p k = chunk R S ⟨i0 * 512 + p.val, by omega⟩ k := by
  unfold chunkB chunk termK dotR
  refine Finset.sum_congr rfl fun j _ => ?_
  rw [h2 p, h3]
  simp only [h0, h1]
  exact if_congr (by rw [Fin.mk.injEq]) rfl rfl

/-- The table of representations and the table of squared norms, off the region's arrays. -/
abbrev RV (c : Dev nD) : Fin 8192 → Fin 256 → EReal := fun r k => V c main_v1 (ix2 r k)
abbrev SV (c : Dev nD) : Fin 8192 → EReal := fun r => V c main_v2 (ix2 r 0)

/-- What the whole output array ends holding: at row r the logarithm of that row's denominator. -/
def G (c : Dev nD) : S8192x1.Idx → EReal := fun j => Ideal.log (denomK (RV V c) (SV V c) (j 0))

/-- Point t's value at row p of its block is the log-denominator of the global row 512·t + p. -/
theorem point_eq (c : Dev nD) (hrow : ∀ r : Fin 8192, V c main_v3 (ix2 (0 : Fin 1) r) = V c main_v2 (ix2 r (0 : Fin 1)))
    (t : Fin cfg1.N) (p : Fin 512) (i0 : ℕ) (hi : i0 = t.val) (r : Fin 8192) (hr : r.val = t.val * 512 + p.val) :
    Ideal.log ((((0 + chunkB i0 (iblk1 V c 0 t) (iblk1 V c 1 t) (iblk1 V c 2 t) (iblk1 V c 3 t) p 0)
        + chunkB i0 (iblk1 V c 0 t) (iblk1 V c 1 t) (iblk1 V c 2 t) (iblk1 V c 3 t) p 1)
        + chunkB i0 (iblk1 V c 0 t) (iblk1 V c 1 t) (iblk1 V c 2 t) (iblk1 V c 3 t) p 2)
        + chunkB i0 (iblk1 V c 0 t) (iblk1 V c 1 t) (iblk1 V c 2 t) (iblk1 V c 3 t) p 3)
      = Ideal.log (denomK (RV V c) (SV V c) r) := by
  subst hi
  have ht : t.val < 16 := lt_of_lt_of_eq t.isLt N_1
  have hb : t.val * 512 + p.val < 8192 := by have := p.isLt; omega
  have e : r = ⟨t.val * 512 + p.val, hb⟩ := Fin.ext hr
  rw [e]
  have hc : ∀ k : Fin 4, chunkB t.val (iblk1 V c 0 t) (iblk1 V c 1 t) (iblk1 V c 2 t) (iblk1 V c 3 t) p k
      = chunk (RV V c) (SV V c) ⟨t.val * 512 + p.val, hb⟩ k := fun k =>
    chunkB_eq (RV V c) (SV V c) t.val ht _ _ _ _
      (fun p kk => iblk1_0_apply V c t _ _ rfl rfl)
      (fun s kk => iblk1_1_apply V c t _)
      (fun p => iblk1_2_apply V c t _ _ rfl rfl)
      (fun s => (iblk1_3_apply V c t _).trans (hrow s))
      p k
  unfold denomK
  rw [hc 0, hc 1, hc 2, hc 3]

/-! ## From blocks to the array -/

/-- What point t writes back is block t of `G`: row p of the block is the global row 512·t + p. -/
theorem flushed_eq (c : Dev nD) (hrow : ∀ r : Fin 8192, V c main_v3 (ix2 (0 : Fin 1) r) = V c main_v2 (ix2 r (0 : Fin 1)))
    (t : Fin cfg1.N) :
    (dat1 V c).flushed 4 t = ((cfg1.win 4).blk t).view.read (Elt Ideal) (G V c) := by
  obtain ⟨-, -, -, -, -, -, -, -, e0, e1, eg⟩ := idx_facts t
  show (cfg1.win 4).cut (grid1.coords t) ((dat1 V c).after 4 t) = _
  rw [after1_4]
  refine funext fun (j : S512x1.Idx) => ?_
  obtain ⟨p, z, rfl⟩ : ∃ (p : Fin 512) (z : Fin 1), j = ix2 p z := ⟨j 0, j 1, eq_ix2 (n0 := 512) (n1 := 1) j⟩
  rw [View.read_apply]
  show outsAt1 V c t (ix2 p z) = G V c (((cfg1.win 4).blk t).view.emb (ix2 p z))
  unfold outsAt1 G
  rw [out1_4_apply]
  exact point_eq V c hrow t p _ eg _
    (by show win1_4.index t (0 : Fin 2) * 512 + 1 * p.val = t.val * 512 + p.val; rw [e0]; omega)

/-- An index of the output array is in point t's block iff each coordinate is in the block's range on its axis. -/
theorem mem_blk (t : Fin cfg1.N) (i : S8192x1.Idx) :
    i ∈ ((cfg1.win 4).blk t).view.set ↔ ∀ a : Fin 2, win1_4.index t a * S512x1.size a ≤ (i a).val ∧ (i a).val < win1_4.index t a * S512x1.size a + S512x1.size a := by
  show i ∈ ((View.whole main_v6).slice (win1_4.rect t)).set ↔ _
  rw [View.set_slice_whole, Rect.mem_set_unit]
  exact Iff.rfl

/-- Row r of the output is in the block of point r / 512, and every point writes back. -/
theorem cover (i : S8192x1.Idx) : ∃ t : Fin cfg1.N, (cfg1.win 4).flush t = true ∧ i ∈ ((cfg1.win 4).blk t).view.set := by
  have h0 : (i 0).val < 8192 := (i 0).isLt
  have h1 : (i 1).val < 1 := (i 1).isLt
  obtain ⟨t, ht⟩ : ∃ t : Fin cfg1.N, t.val = (i 0).val / 512 :=
    ⟨⟨(i 0).val / 512, lt_of_lt_of_eq (by omega) N_1.symm⟩, rfl⟩
  obtain ⟨-, -, -, -, -, -, -, -, e0, e1, -⟩ := idx_facts t
  refine ⟨t, flush1_4 t, ?_⟩
  rw [mem_blk]
  intro a
  match a with
  | ⟨0, _⟩ =>
    show win1_4.index t (0 : Fin 2) * 512 ≤ (i 0).val ∧ (i 0).val < win1_4.index t (0 : Fin 2) * 512 + 512
    rw [e0, ht]; omega
  | ⟨1, _⟩ =>
    show win1_4.index t (1 : Fin 2) * 1 ≤ (i 1).val ∧ (i 1).val < win1_4.index t (1 : Fin 2) * 1 + 1
    rw [e1]; omega

end Arr

open Arr

/-- After the 16 points the output array holds, at every row, the logarithm of that row's denominator. -/
theorem arr1_4 (c : Dev nD) (hrow : ∀ r : Fin 8192, V c main_v3 (ix2 (0 : Fin 1) r) = V c main_v2 (ix2 r (0 : Fin 1))) (r : Fin 8192) (z : Fin 1) :
    (dat1 V c).arrAt 4 cfg1.N (ix2 r z) = Ideal.log (denomK (fun r k => V c main_v1 (ix2 r k)) (fun r => V c main_v2 (ix2 r 0)) r) := by
  rw [(dat1 V c).arrAt_eq_of_cover 4 (G V c) (fun t _ => flushed_eq V c hrow t) cover]
  rfl

end Cert.Val1

end
-- ==== Proof.HostVal.lean ====
/-
  What the two host stretches of the kernel program compute, read at an index on the extended reals, from any
  contents `W` of the buffers they read.

  The first stretch joins two arrays of 4096 rows along the rows, three times, and recasts two of the joined columns.
  A join read at row `r` is the first array's row `r` when `r < 4096` and the second's row `r - 4096` otherwise. A
  recast keeps the row-major position: `(r, 0)` of an [8192, 1] column, `(0, r)` of a [1, 8192] row and `r` of an
  [8192] vector all sit at position `r`. A column joined with itself therefore reads entry `r mod 4096`.

  The second stretch negates the positives, divides by the temperature word, adds the log-denominators, sums every
  entry from the zero word and divides by the row-count word. The sum into a result with one index is the total sum,
  the zero word is `0`, and a vector's index set is its coordinate range: what is left is the mean of
  `-p / T + l`.

  A buffer a stretch does not write keeps its contents.
-/
import proofs.«413375_j26920855012068_3_alg».proof.Proof.Gen.KernelIdeal.Launch
import proofs.«413375_j26920855012068_3_alg».proof.Proof.Gen.KernelIdeal.Regions
import proofs.«413375_j26920855012068_3_alg».proof.Proof.Spec
import Idealize.ShloMosaic.Lib.StableHlo.Run
import Idealize.ShloMosaic.Lib.Pipeline.Value
import Idealize.ShloMosaic.Lib.ValueIdx
import Idealize.ShloMosaic.Lib.ValueIdxRank1
import Idealize.ShloMosaic.Lib.ValueLayout
import Idealize.ShloMosaic.PureOps.Ideal.Laws

noncomputable section

namespace Cert.HostVal

open Cert.KernelIdeal Cert.KernelIdeal.Gen Cert.Spec Idealize.ShloMosaic Idealize.ShloMosaic.ValueIdx Idealize.ShloMosaic.StableHlo

variable (W : Valuation τ sig (Elt Ideal))

/-- Two arrays of 4096 rows joined along the rows, read at row `r`: below 4096 the first array's row `r`, from there
    on the second's row `r - 4096`; the column is kept. -/
theorem concat_rows {n : Nat} (a b : (⟨2, ![4096, n]⟩ : Shape).Idx → EReal)
    (h : Shape.Concatenates [(⟨2, ![4096, n]⟩ : Shape), ⟨2, ![4096, n]⟩] ⟨2, ![8192, n]⟩ 0) (r : Fin 8192) (k : Fin n) :
    concatenate (⟨2, ![8192, n]⟩ : Shape) 0 [⟨⟨2, ![4096, n]⟩, a⟩, ⟨⟨2, ![4096, n]⟩, b⟩] h (ix2 r k)
      = if h' : r.val < 4096 then a (ix2 ⟨r.val, h'⟩ k) else b (ix2 ⟨r.val - 4096, by omega⟩ k) := by
  split
  · next h' =>
    refine concatenate_pair_apply_left 0 a b h (ix2 r k) rfl (ix2 ⟨r.val, h'⟩ k) ?_
    intro c
    match c with
    | ⟨0, _⟩ => rfl
    | ⟨1, _⟩ => rfl
  · next h' =>
    refine concatenate_pair_apply_right 0 a b h (ix2 r k) rfl rfl (ix2 ⟨r.val - 4096, by omega⟩ k) ?_ ?_
    · intro c hc
      match c with
      | ⟨0, _⟩ => exact absurd rfl hc
      | ⟨1, _⟩ => rfl
    · show (r.val - 4096) + 4096 = r.val
      omega

/-- A column of 8192 entries recast as one row: both `(r, 0)` of the column and `(0, r)` of the row sit at row-major
    position `r`. -/
theorem cast_col_row (x : S8192x1.Idx → EReal) (h : S8192x1.ShapeCasts S1x8192) (r : Fin 8192) :
    shapeCast S1x8192 x h (ix2 (0 : Fin 1) r) = x (ix2 r (0 : Fin 1)) := by
  refine shapeCast_apply x h _ _ ?_
  rw [Shape.rowMajor_val_two, Shape.rowMajor_val_two]
  show r.val * 1 + 0 = 0 * 8192 + r.val
  omega

/-- A column of 8192 entries recast as a vector: `(r, 0)` of the column and `r` of the vector sit at position `r`. -/
theorem cast_col_vec (x : S8192x1.Idx → EReal) (h : S8192x1.ShapeCasts S8192) (r : Fin 8192) :
    shapeCast S8192 x h (ix1 r) = x (ix2 r (0 : Fin 1)) := by
  refine shapeCast_apply x h _ _ ?_
  rw [Shape.rowMajor_val_two, Shape.rowMajor_val_one]
  show r.val * 1 + 0 = r.val
  omega

/-- The joined representations: row `r` is row `r` of the first array or row `r - 4096` of the second. -/
theorem host1_v1 (r : Fin 8192) (k : Fin 256) :
    StableHlo.after (hostOps1 (F := Ideal)) W (Proc.devRef .tc main_v1) (ix2 r k)
      = if h : r.val < 4096 then W (Proc.devRef .tc main_v0_0) (ix2 ⟨r.val, h⟩ k)
        else W (Proc.devRef .tc main_v0_1) (ix2 ⟨r.val - 4096, by omega⟩ k) := by
  after_results
  exact concat_rows _ _ _ r k

/-- The joined squared norms, as a column. -/
theorem host1_v2 (r : Fin 8192) :
    StableHlo.after (hostOps1 (F := Ideal)) W (Proc.devRef .tc main_v2) (ix2 r (0 : Fin 1))
      = if h : r.val < 4096 then W (Proc.devRef .tc main_v0_2) (ix2 ⟨r.val, h⟩ (0 : Fin 1))
        else W (Proc.devRef .tc main_v0_3) (ix2 ⟨r.val - 4096, by omega⟩ (0 : Fin 1)) := by
  after_results
  exact concat_rows _ _ _ r 0

/-- The same column recast as a row. -/
theorem host1_v3 (r : Fin 8192) :
    StableHlo.after (hostOps1 (F := Ideal)) W (Proc.devRef .tc main_v3) (ix2 (0 : Fin 1) r)
      = if h : r.val < 4096 then W (Proc.devRef .tc main_v0_2) (ix2 ⟨r.val, h⟩ (0 : Fin 1))
        else W (Proc.devRef .tc main_v0_3) (ix2 ⟨r.val - 4096, by omega⟩ (0 : Fin 1)) := by
  after_results
  exact (cast_col_row _ shapeCasts_S8192x1_S1x8192 r).trans (concat_rows _ _ _ r 0)

/-- The positives, one column joined with itself and recast as a vector: entry `r` is entry `r mod 4096`. -/
theorem host1_v5 (r : Fin 8192) :
    StableHlo.after (hostOps1 (F := Ideal)) W (Proc.devRef .tc main_v5) (ix1 r)
      = W (Proc.devRef .tc main_v0_4) (ix2 ⟨r.val % 4096, Nat.mod_lt _ (by decide)⟩ (0 : Fin 1)) := by
  after_results
  refine (cast_col_vec _ shapeCasts_S8192x1_S8192 r).trans ((concat_rows _ _ _ r 0).trans ?_)
  have hr := r.isLt
  split
  · next h' =>
    exact congrArg (fun p : Fin 4096 => W (Proc.devRef .tc main_v0_4) (ix2 p (0 : Fin 1)))
      (Fin.ext (by show r.val = r.val % 4096; omega))
  · next h' =>
    exact congrArg (fun p : Fin 4096 => W (Proc.devRef .tc main_v0_4) (ix2 p (0 : Fin 1)))
      (Fin.ext (by show r.val - 4096 = r.val % 4096; omega))

/-- A buffer the first stretch does not write keeps its contents. -/
theorem host1_keep (b : Ref sig .tc) (hb : b ∉ hostOps1_W) :
    StableHlo.after (hostOps1 (F := Ideal)) W (Proc.devRef .tc b) = W (Proc.devRef .tc b) :=
  StableHlo.after_of_writes_sub hostOps1 W hostOps1_writes hb

/-- A buffer the second stretch does not write keeps its contents. -/
theorem host2_keep (b : Ref sig .tc) (hb : b ∉ hostOps2_W) :
    StableHlo.after (hostOps2 (F := Ideal)) W (Proc.devRef .tc b) = W (Proc.devRef .tc b) :=
  StableHlo.after_of_writes_sub hostOps2 W hostOps2_writes hb

/-- The second stretch's composed term over a vector `P` and a column `L`: the sum over every index of
    `-P / T + L` from the zero word, over the row count, is the loss of `P` and `L`. The sum into the one-index
    result is the total sum; the vector's index set is its coordinate range; the column recast as a vector reads the
    column at `(r, 0)`. -/
theorem loss_term (P : FVec Ideal S8192 .f32) (L : FVec Ideal S8192x1 .f32) :
    Host.divf
      (Host.reduceAdd
        (addf (Host.divf (Host.negf P) (broadcastInDim S8192 ![] bcast_S_S8192 (constant S_ .f32 0x3DCCCCCD#32)))
          (shapeCast S8192 L shapeCasts_S8192x1_S8192))
        (constant S_ .f32 0x00000000#32) reducesTo_S8192_S_d0 h_S_)
      (constant S_ .f32 0x46000000#32) ix0
      = lossOf (fun r => P (ix1 r)) (fun r => L (ix2 r (0 : Fin 1))) := by
  unfold lossOf
  show Ideal.div _ nrows = Ideal.div _ nrows
  congr 1
  refine (Ideal.hostReduceAdd_total reducesTo_S8192_S_d0 (fun b => b.elim0) _ _ ix0).trans ?_
  show Ideal.ofBits .f32 0x00000000#32 + _ = _
  rw [Ideal.ofBits_zero_f32, zero_add]
  refine (Equiv.sum_comp (idxEquiv1 (n := 8192)).symm _).symm.trans ?_
  refine Finset.sum_congr rfl fun r _ => ?_
  show Ideal.div (-(P (ix1 r))) tenth + shapeCast S8192 L shapeCasts_S8192x1_S8192 (ix1 r) = _
  rw [cast_col_vec]

/-- The loss the second stretch leaves: the mean over the 8192 rows of `-p / T + l`, `p` the positives' vector and
    `l` the log-denominators' column. -/
theorem host2_v13 :
    StableHlo.after (hostOps2 (F := Ideal)) W (Proc.devRef .tc main_v13) ix0
      = lossOf (fun r => W (Proc.devRef .tc main_v5) (ix1 r)) (fun r => W (Proc.devRef .tc main_v6) (ix2 r (0 : Fin 1))) := by
  after_results
  exact loss_term _ _

end Cert.HostVal

end
-- ==== Proof.KVal.lean ====
/-
  The number the kernel program leaves in its result buffer, as the loss of the two argument arrays read the kernel's
  own way.

  The program's buffers pass through four boundaries. After the first pass its five result arrays hold the normalised
  rows of each argument, the squared norms of those rows, and the positive pair's value of each row. The joins then
  stack the two normalised arrays into the 8192 representations, stack the two columns of squared norms (and lay the
  stack out once more as a row, the same numbers), and stack the positives' column on itself, so that entry `r` is the
  positive pair's value of rows `r mod 4096`. The second pass turns the representations and their squared norms into
  the logarithm of each row's denominator. The last stretch takes the mean of `-p / T + l` over the rows. Reading each
  boundary at an index and chaining the readings gives the loss.
-/
import proofs.«413375_j26920855012068_3_alg».proof.Proof.Run
import proofs.«413375_j26920855012068_3_alg».proof.Proof.Val0
import proofs.«413375_j26920855012068_3_alg».proof.Proof.Val1
import proofs.«413375_j26920855012068_3_alg».proof.Proof.HostVal
import proofs.«413375_j26920855012068_3_alg».proof.Proof.Spec

noncomputable section

namespace Cert.KVal

open Idealize.ShloMosaic Idealize.ShloMosaic.TcCoe Idealize.SL.Sem
open Cert.KernelIdeal Cert.KernelIdeal.Gen Cert.KernelIdeal.Hand Cert.Spec ValueIdx

variable (m : (ℓ : Loc nD τ sig) → Buf (Elt Ideal) ℓ) (c : Dev nD)

/-- The rows of the two argument arrays in the launch memory. -/
abbrev xin : Fin 4096 → Fin 256 → EReal := fun r k => m ((c : Thread nD τ).loc main_arg0) (ix2 r k)
abbrev yin : Fin 4096 → Fin 256 → EReal := fun r k => m ((c : Thread nD τ).loc main_arg1) (ix2 r k)

/-! ## After the first pass: its five result arrays, as functions of the launch memory's rows -/

theorem v0_0_at (p : Fin 4096) (q : Fin 256) :
    W1 (F := Ideal) m c (Proc.devRef .tc main_v0_0) (ix2 p q) = zrow (xin m c p) q :=
  (congrFun (W1_arr m c 2) (ix2 p q)).trans (Cert.Val0.arr0_2 (V0 m) c p q)

theorem v0_1_at (p : Fin 4096) (q : Fin 256) :
    W1 (F := Ideal) m c (Proc.devRef .tc main_v0_1) (ix2 p q) = zrow (yin m c p) q :=
  (congrFun (W1_arr m c 3) (ix2 p q)).trans (Cert.Val0.arr0_3 (V0 m) c p q)

theorem v0_2_at (p : Fin 4096) (z : Fin 1) :
    W1 (F := Ideal) m c (Proc.devRef .tc main_v0_2) (ix2 p z) = sqz (xin m c p) :=
  (congrFun (W1_arr m c 4) (ix2 p z)).trans (Cert.Val0.arr0_4 (V0 m) c p z)

theorem v0_3_at (p : Fin 4096) (z : Fin 1) :
    W1 (F := Ideal) m c (Proc.devRef .tc main_v0_3) (ix2 p z) = sqz (yin m c p) :=
  (congrFun (W1_arr m c 5) (ix2 p z)).trans (Cert.Val0.arr0_5 (V0 m) c p z)

theorem v0_4_at (p : Fin 4096) (z : Fin 1) :
    W1 (F := Ideal) m c (Proc.devRef .tc main_v0_4) (ix2 p z) = posK (xin m c p) (yin m c p) :=
  (congrFun (W1_arr m c 6) (ix2 p z)).trans (Cert.Val0.arr0_6 (V0 m) c p z)

/-! ## After the joins: the representations, their squared norms, the positives -/

/-- The joined array of normalised rows is the 8192 representations. -/
theorem reps_at (r : Fin 8192) (k : Fin 256) :
    W2 (F := Ideal) m c (Proc.devRef .tc main_v1) (ix2 r k) = reps (xin m c) (yin m c) r k := by
  refine (Cert.HostVal.host1_v1 (W1 m c) r k).trans ?_
  unfold reps
  by_cases h : r.val < 4096
  · rw [dif_pos h, dif_pos h]; exact v0_0_at m c _ k
  · rw [dif_neg h, dif_neg h]; exact v0_1_at m c _ k

/-- The joined column of squared norms: the first array's below row 4096, the second's from there on. -/
theorem sq_at (r : Fin 8192) :
    W2 (F := Ideal) m c (Proc.devRef .tc main_v2) (ix2 r (0 : Fin 1))
      = if h : r.val < 4096 then sqz (xin m c ⟨r.val, h⟩) else sqz (yin m c ⟨r.val - 4096, by omega⟩) := by
  refine (Cert.HostVal.host1_v2 (W1 m c) r).trans ?_
  by_cases h : r.val < 4096
  · rw [dif_pos h, dif_pos h]; exact v0_2_at m c _ 0
  · rw [dif_neg h, dif_neg h]; exact v0_3_at m c _ 0

/-- The same column laid out as a row holds the same numbers. -/
theorem row_eq_col (r : Fin 8192) :
    W2 (F := Ideal) m c (Proc.devRef .tc main_v3) (ix2 (0 : Fin 1) r) = W2 (F := Ideal) m c (Proc.devRef .tc main_v2) (ix2 r (0 : Fin 1)) :=
  (Cert.HostVal.host1_v3 (W1 m c) r).trans (Cert.HostVal.host1_v2 (W1 m c) r).symm

/-- The positives: entry `r` is the positive pair's value of rows `r mod 4096`. -/
theorem pos_at (r : Fin 8192) :
    W3 (F := Ideal) m c (Proc.devRef .tc main_v5) (ix1 r)
      = posK (xin m c ⟨r.val % 4096, Nat.mod_lt _ (by decide)⟩) (yin m c ⟨r.val % 4096, Nat.mod_lt _ (by decide)⟩) :=
  (congrFun (W3_of_ne m c main_v5 (by decide)) (ix1 r)).trans
    ((Cert.HostVal.host1_v5 (W1 m c) r).trans (v0_4_at m c _ 0))

/-! ## After the second pass: the log-denominators -/

theorem logden_at (r : Fin 8192) :
    W3 (F := Ideal) m c (Proc.devRef .tc main_v6) (ix2 r (0 : Fin 1))
      = Ideal.log (denomK (reps (xin m c) (yin m c))
          (fun r => if h : r.val < 4096 then sqz (xin m c ⟨r.val, h⟩) else sqz (yin m c ⟨r.val - 4096, by omega⟩)) r) := by
  refine (congrFun (W3_out m c) (ix2 r 0)).trans ?_
  refine (Cert.Val1.arr1_4 (Hand.V2 m) c (row_eq_col m c) r 0).trans ?_
  have hR : (fun r k => Hand.V2 m c main_v1 (ix2 r k)) = reps (xin m c) (yin m c) :=
    funext fun r => funext fun k => reps_at m c r k
  have hS : (fun r => Hand.V2 m c main_v2 (ix2 r 0))
      = fun r : Fin 8192 => if h : r.val < 4096 then sqz (xin m c ⟨r.val, h⟩) else sqz (yin m c ⟨r.val - 4096, by omega⟩) :=
    funext fun r => sq_at m c r
  rw [hR, hS]

/-! ## The result -/

/-- The number the program leaves in its result buffer is the loss read the second way, of the launch memory's two
    argument arrays. -/
theorem result_eq (m : (ℓ : Loc nD τ sig) → Buf (Elt Ideal) ℓ) (c : Dev nD) :
    W4 (F := Ideal) m c (Proc.devRef .tc main_v13) ix0
      = lossK (fun r k => m ((c : Thread nD τ).loc main_arg0) (ix2 r k)) (fun r k => m ((c : Thread nD τ).loc main_arg1) (ix2 r k)) := by
  refine (Cert.HostVal.host2_v13 (W3 m c)).trans ?_
  unfold lossK
  exact congrArg₂ lossOf (funext fun r => pos_at m c r) (funext fun r => logden_at m c r)

end Cert.KVal

end
-- ==== Proof.RefValue.lean ====
/-
  The reference program's result, read one operation at a time, is the contrastive loss of the specification.

  Each lemma below reads ONE stage of the program at an index and names it by the specification's pieces: the
  guarded norm and the normalised row, the 8192 representations, their squared norms and inner products, the
  similarity, the positives (the similarity of a row with its partner, fetched through two gathers whose start
  indices are (i, i + 4096) and (i + 4096, i)), the diagonal mask times the exponential, the row's denominator,
  its logarithm, and the mean. Sums start from the zero word, which is the extended real 0.
-/
import proofs.«413375_j26920855012068_3_alg».proof.Proof.PRead
import proofs.«413375_j26920855012068_3_alg».proof.Proof.Spec
import Idealize.ShloMosaic.Lib.ValueIdx
import Idealize.ShloMosaic.Lib.ValueIdxRank1
import Idealize.ShloMosaic.Lib.Pipeline.Value
import Idealize.ShloMosaic.Lib.StableHlo.Predicate
import Idealize.ShloMosaic.PureOps.Ideal.Laws

noncomputable section

namespace Cert.RefValue

open Cert.ReferenceIdeal Cert.ReferenceIdeal.Gen Cert.ReferenceIdeal.ReadP Idealize.ShloMosaic Idealize.ShloMosaic.ValueIdx

/-! ## Layout operations of this program read at an index -/

/-- The gather with both operand axes collapsed and a two-component start index: result element `p` is the operand
    at (row, column) = the two components of start index `p`, each read signed and clamped into `[0, 8191]`. -/
theorem gather_pair_apply {α : Type} {w : Nat} (x : S8192x8192.Idx → α) (idx : IVec S4096x2 w) (p : Fin 4096) :
    Host.gather gather_S8192x8192_S4096x2_S4096_n_01_n_n_01_1_11 x idx (ix1 p)
      = x (ix2 (⟨min (idx (ix2 p (0 : Fin 2))).toInt.toNat 8191, by omega⟩ : Fin 8192)
            (⟨min (idx (ix2 p (1 : Fin 2))).toInt.toNat 8191, by omega⟩ : Fin 8192)) := by
  unfold Host.gather
  congr 1
  funext a
  have ha : a = (0 : Fin 2) ∨ a = (1 : Fin 2) := by
    match a with
    | ⟨0, _⟩ => exact Or.inl rfl
    | ⟨1, _⟩ => exact Or.inr rfl
  refine Fin.ext ?_
  show gather_S8192x8192_S4096x2_S4096_n_01_n_n_01_1_11.start (ix1 p) idx a
      + gather_S8192x8192_S4096x2_S4096_n_01_n_n_01_1_11.batchCoord (ix1 p) a
      + gather_S8192x8192_S4096x2_S4096_n_01_n_n_01_1_11.offCoord (ix1 p) a = _
  rcases ha with rfl | rfl
  · rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S8192x8192_S4096x2_S4096_n_01_n_n_01_1_11.startIndexMap by decide)]
    have hsi : gather_S8192x8192_S4096x2_S4096_n_01_n_n_01_1_11.siIdx (ix1 p)
        ⟨List.idxOf (0 : Fin 2) gather_S8192x8192_S4096x2_S4096_n_01_n_n_01_1_11.startIndexMap,
          List.idxOf_lt_length_iff.2 (by decide)⟩ = ix2 p (0 : Fin 2) := by
      funext b; refine Fin.ext ?_
      match b with
      | ⟨0, _⟩ => rfl
      | ⟨1, _⟩ => rfl
    rw [hsi]
    rfl
  · rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S8192x8192_S4096x2_S4096_n_01_n_n_01_1_11.startIndexMap by decide)]
    have hsi : gather_S8192x8192_S4096x2_S4096_n_01_n_n_01_1_11.siIdx (ix1 p)
        ⟨List.idxOf (1 : Fin 2) gather_S8192x8192_S4096x2_S4096_n_01_n_n_01_1_11.startIndexMap,
          List.idxOf_lt_length_iff.2 (by decide)⟩ = ix2 p (1 : Fin 2) := by
      funext b; refine Fin.ext ?_
      match b with
      | ⟨0, _⟩ => rfl
      | ⟨1, _⟩ => rfl
    rw [hsi]
    rfl

/-- Two [4096, 256] arrays joined along the rows, read at (r, k): the first array's row `r` below 4096, else the
    second's row `r - 4096`. -/
theorem concat_rows_apply {α : Type} (a b : S4096x256.Idx → α) (r : Fin 8192) (k : Fin 256) :
    concatenate S8192x256 0 [⟨S4096x256, a⟩, ⟨S4096x256, b⟩] concatenates_S4096x256_S4096x256_S8192x256_d0 (ix2 r k)
      = if h : r.val < 4096 then a (ix2 (⟨r.val, h⟩ : Fin 4096) k) else b (ix2 (⟨r.val - 4096, by omega⟩ : Fin 4096) k) := by
  by_cases h : r.val < 4096
  · rw [dif_pos h]
    exact concatenate_pair_apply_left 0 a b _ (ix2 r k) rfl (ix2 (⟨r.val, h⟩ : Fin 4096) k)
      (fun c => match c with | ⟨0, _⟩ => rfl | ⟨1, _⟩ => rfl)
  · rw [dif_neg h]
    exact concatenate_pair_apply_right 0 a b _ (ix2 r k) rfl rfl (ix2 (⟨r.val - 4096, by omega⟩ : Fin 4096) k)
      (fun c hc => match c, hc with
        | ⟨0, _⟩, hc => absurd rfl hc
        | ⟨1, _⟩, _ => rfl)
      (by show r.val - 4096 + 4096 = r.val; omega)

/-- Two [4096, 1] columns joined side by side, read at (p, 0) and at (p, 1): the first column's, the second's row `p`. -/
theorem concat_cols_apply_zero {α : Type} (a b : S4096x1.Idx → α) (p : Fin 4096) :
    concatenate S4096x2 1 [⟨S4096x1, a⟩, ⟨S4096x1, b⟩] concatenates_S4096x1_S4096x1_S4096x2_d1 (ix2 p (0 : Fin 2))
      = a (ix2 p (0 : Fin 1)) :=
  concatenate_pair_apply_left 1 a b _ (ix2 p (0 : Fin 2)) rfl (ix2 p (0 : Fin 1))
    (fun c => match c with | ⟨0, _⟩ => rfl | ⟨1, _⟩ => rfl)
theorem concat_cols_apply_one {α : Type} (a b : S4096x1.Idx → α) (p : Fin 4096) :
    concatenate S4096x2 1 [⟨S4096x1, a⟩, ⟨S4096x1, b⟩] concatenates_S4096x1_S4096x1_S4096x2_d1 (ix2 p (1 : Fin 2))
      = b (ix2 p (0 : Fin 1)) :=
  concatenate_pair_apply_right 1 a b _ (ix2 p (1 : Fin 2)) rfl rfl (ix2 p (0 : Fin 1))
    (fun c hc => match c, hc with
      | ⟨0, _⟩, _ => rfl
      | ⟨1, _⟩, hc => absurd rfl hc)
    rfl

/-- Two length-4096 vectors joined end to end, read at `r`. -/
theorem concat_vec_apply {α : Type} (a b : S4096.Idx → α) (r : Fin 8192) :
    concatenate S8192 0 [⟨S4096, a⟩, ⟨S4096, b⟩] concatenates_S4096_S4096_S8192_d0 (ix1 r)
      = if h : r.val < 4096 then a (ix1 (⟨r.val, h⟩ : Fin 4096)) else b (ix1 (⟨r.val - 4096, by omega⟩ : Fin 4096)) := by
  by_cases h : r.val < 4096
  · rw [dif_pos h]
    exact concatenate_pair_apply_left 0 a b _ (ix1 r) rfl (ix1 (⟨r.val, h⟩ : Fin 4096))
      (fun c => match c with | ⟨0, _⟩ => rfl)
  · rw [dif_neg h]
    exact concatenate_pair_apply_right 0 a b _ (ix1 r) rfl rfl (ix1 (⟨r.val - 4096, by omega⟩ : Fin 4096))
      (fun c hc => match c, hc with
        | ⟨0, _⟩, hc => absurd rfl hc)
      (by show r.val - 4096 + 4096 = r.val; omega)

/-! ## Words: the start indices of the two gathers, and the diagonal mask -/

open Idealize.ShloMosaic.StableHlo.Predicate in
/-- The wrap of a negative index does not fire on a small non-negative word: "less than zero" is false, so the
    select keeps the word itself. -/
theorem select_slt_zero {α : Type} (n : Nat) (hn : n < 2 ^ 31) (A B : α) :
    Scalar.select (IntOp.cmpi .slt (BitVec.ofNat 32 n) 0#32) A B = B := by
  have h1 : (BitVec.ofNat 32 n).toNat < 2 ^ 31 := by
    rw [BitVec.toNat_ofNat]; exact lt_of_le_of_lt (Nat.mod_le _ _) hn
  have h0 : ¬ IntOp.cmpi .slt (BitVec.ofNat 32 n) 0#32 = 1#1 := fun h =>
    absurd ((slt_iff_toNat h1 (by decide)).mp h) (Nat.not_lt_zero _)
  rw [eq_zero_of_ne_one h0, select_zero]

open Idealize.ShloMosaic.StableHlo.Predicate in
/-- A small word read signed and then as a natural number is the number it was built from. -/
theorem toNat_toInt_ofNat (n : Nat) (hn : n < 2 ^ 31) : (BitVec.ofNat 32 n).toInt.toNat = n := by
  rw [toInt_ofNat_small n hn]; rfl

/-- Adding the half-extent to an iota word. -/
theorem addi_ofNat (n m : Nat) : IntOp.addi (BitVec.ofNat 32 n) (BitVec.ofNat 32 m) = BitVec.ofNat 32 (n + m) :=
  (BitVec.ofNat_add n m).symm

open Idealize.ShloMosaic.StableHlo.Predicate in
/-- The diagonal mask at `(r, s)`: the one-bit comparison of the row and column iotas, converted to a float, is the
    indicator of `r = s`. -/
theorem mask_word (r s : Fin 8192) :
    FloatOps.uitofp (F := Ideal) .f32
        (IntOp.cmpi .eq (IntOp.addi (BitVec.ofNat 32 r.val) 0#32) (BitVec.ofNat 32 s.val))
      = if r = s then (1 : EReal) else 0 := by
  have hadd : IntOp.addi (BitVec.ofNat 32 r.val) 0#32 = BitVec.ofNat 32 r.val := BitVec.add_zero _
  rw [hadd]
  show (((IntOp.cmpi .eq (BitVec.ofNat 32 r.val) (BitVec.ofNat 32 s.val)).toNat : ℝ) : EReal) = _
  by_cases h : r = s
  · rw [if_pos h, cmpi_eq_iff.mpr (by rw [h])]
    show (((1 : ℕ) : ℝ) : EReal) = 1
    rw [Nat.cast_one, EReal.coe_one]
  · rw [if_neg h]
    have hne : ¬ IntOp.cmpi .eq (BitVec.ofNat 32 r.val) (BitVec.ofNat 32 s.val) = 1#1 := fun hc => by
      have e := congrArg BitVec.toNat (cmpi_eq_iff.mp hc)
      rw [BitVec.toNat_ofNat, BitVec.toNat_ofNat, Nat.mod_eq_of_lt (by omega), Nat.mod_eq_of_lt (by omega)] at e
      exact h (Fin.ext e)
    rw [eq_zero_of_ne_one hne]
    show (((0 : ℕ) : ℝ) : EReal) = 0
    rw [Nat.cast_zero, EReal.coe_zero]

/-! ## The stages, in program order -/

/-- Two indices agree when their coordinates do: rank 2, rank 1. -/
macro "coords2" : tactic => `(tactic| (funext a; match a with | ⟨0, _⟩ => rfl | ⟨1, _⟩ => rfl))
macro "coords1" : tactic => `(tactic| (funext a; match a with | ⟨0, _⟩ => rfl))

/-- The zero word every sum starts from is the extended real `0`. -/
theorem zero_word : FloatOps.ofBits (F := Ideal) .f32 0x00000000#32 = (0 : EReal) := Ideal.ofBits_zero_f32

/-- An array as its family of rows; the representations built from two arrays; their squared norms. -/
abbrev rows (x : (⟨S4096x256, .f32⟩ : BufTy).Contents (Elt Ideal)) : Fin 4096 → Fin 256 → EReal := fun r k => x (ix2 r k)
abbrev repsOf (x0 x1 : (⟨S4096x256, .f32⟩ : BufTy).Contents (Elt Ideal)) : Fin 8192 → Fin 256 → EReal :=
  Cert.Spec.reps (rows x0) (rows x1)
abbrev sqOf (x0 x1 : (⟨S4096x256, .f32⟩ : BufTy).Contents (Elt Ideal)) : Fin 8192 → EReal :=
  fun r => ∑ k, repsOf x0 x1 r k * repsOf x0 x1 r k

section Stages
variable (x0 x1 : (⟨S4096x256, .f32⟩ : BufTy).Contents (Elt Ideal))

/-! ### The first array's rows, normalised -/

/-- The sum of squares of row `p`. -/
theorem v1_at (p : Fin 4096) :
    val_main_v1 (F := Ideal) x0 (ix1 p) = ∑ k : Fin 256, x0 (ix2 p k) * x0 (ix2 p k) := by
  rw [val_main_v1_apply, val_main_cst_apply, zero_word, zero_add]
  refine Finset.sum_congr rfl fun k _ => ?_
  rw [val_main_v0_apply, show idx_main_v1 (ix1 p) k = ix2 p k by coords2]
  rfl

/-- The guarded norm of row `p`. -/
theorem v5_at (p : Fin 4096) :
    val_main_v5 (F := Ideal) x0 (ix2 p (0 : Fin 1)) = Cert.Spec.nrm (fun k => x0 (ix2 p k)) := by
  rw [val_main_v5_apply, val_main_v3_apply, val_main_v2_apply, val_main_v4_apply, val_main_cst_0_apply,
    show idx_main_v2 (ix2 p (0 : Fin 1)) = ix1 p by coords1, v1_at]
  rfl

/-- Row `p` divided by its guarded norm. -/
theorem v7_at (p : Fin 4096) (q : Fin 256) :
    val_main_v7 (F := Ideal) x0 (ix2 p q) = Cert.Spec.zrow (fun k => x0 (ix2 p k)) q := by
  rw [val_main_v7_apply, val_main_v6_apply, show idx_main_v6 (ix2 p q) = ix2 p (0 : Fin 1) by coords2, v5_at]
  rfl

/-! ### The second array's rows, normalised -/

theorem v9_at (p : Fin 4096) :
    val_main_v9 (F := Ideal) x1 (ix1 p) = ∑ k : Fin 256, x1 (ix2 p k) * x1 (ix2 p k) := by
  rw [val_main_v9_apply, val_main_cst_1_apply, zero_word, zero_add]
  refine Finset.sum_congr rfl fun k _ => ?_
  rw [val_main_v8_apply, show idx_main_v9 (ix1 p) k = ix2 p k by coords2]
  rfl

theorem v13_at (p : Fin 4096) :
    val_main_v13 (F := Ideal) x1 (ix2 p (0 : Fin 1)) = Cert.Spec.nrm (fun k => x1 (ix2 p k)) := by
  rw [val_main_v13_apply, val_main_v11_apply, val_main_v10_apply, val_main_v12_apply, val_main_cst_2_apply,
    show idx_main_v10 (ix2 p (0 : Fin 1)) = ix1 p by coords1, v9_at]
  rfl

theorem v15_at (p : Fin 4096) (q : Fin 256) :
    val_main_v15 (F := Ideal) x1 (ix2 p q) = Cert.Spec.zrow (fun k => x1 (ix2 p k)) q := by
  rw [val_main_v15_apply, val_main_v14_apply, show idx_main_v14 (ix2 p q) = ix2 p (0 : Fin 1) by coords2, v13_at]
  rfl

/-! ### The representations, their squared norms, inner products and similarity -/

/-- The joined array at `(r, k)` is the representation `r` at `k`. -/
theorem v16_at (r : Fin 8192) (k : Fin 256) :
    val_main_v16 (F := Ideal) x0 x1 (ix2 r k) = repsOf x0 x1 r k := by
  unfold val_main_v16
  rw [concat_rows_apply]
  unfold repsOf Cert.Spec.reps
  by_cases h : r.val < 4096
  · rw [dif_pos h, dif_pos h, v7_at]
  · rw [dif_neg h, dif_neg h, v15_at]

/-- The squared norm of representation `r`. -/
theorem v18_at (r : Fin 8192) :
    val_main_v18 (F := Ideal) x0 x1 (ix1 r) = sqOf x0 x1 r := by
  rw [val_main_v18_apply, val_main_cst_3_apply, zero_word, zero_add]
  refine Finset.sum_congr rfl fun k _ => ?_
  rw [val_main_v17_apply, show idx_main_v18 (ix1 r) k = ix2 r k by coords2, v16_at]
  rfl

/-- The inner product of representations `r` and `s`: the product with the transposed array contracts `k`. -/
theorem v25_at (r s : Fin 8192) :
    val_main_v25 (F := Ideal) x0 x1 (ix2 r s) = Cert.Spec.dotR (repsOf x0 x1) r s := by
  rw [val_main_v25_apply]
  unfold Cert.Spec.dotR
  refine Finset.sum_congr rfl fun k _ => ?_
  rw [val_main_v24_apply, show lidx_main_v25 (ix2 r s) k = ix2 r k by coords2,
    show idx_main_v24 (ridx_main_v25 (ix2 r s) k) = ix2 s k by coords2, v16_at, v16_at]

/-- The similarity of representations `r` and `s`: minus (squared norms added, less twice the inner product). -/
theorem v29_at (r s : Fin 8192) :
    val_main_v29 (F := Ideal) x0 x1 (ix2 r s) = Cert.Spec.sim (repsOf x0 x1) (sqOf x0 x1) r s := by
  rw [val_main_v29_apply, val_main_v28_apply, val_main_v23_apply, val_main_v27_apply, val_main_v21_apply,
    val_main_v22_apply, val_main_v19_apply, val_main_v20_apply, val_main_v26_apply, val_main_cst_4_apply,
    show idx_main_v19 (idx_main_v21 (ix2 r s)) = ix1 r by coords1,
    show idx_main_v20 (idx_main_v22 (ix2 r s)) = ix1 s by coords1, v18_at, v18_at, v25_at]
  rfl

/-! ### The positives: two gathers of the similarity and their join -/

/-- Start indices of the first gather: `(p, p + 4096)`. -/
theorem v45_at_zero (p : Fin 4096) : val_main_v45 (F := Ideal) (ix2 p (0 : Fin 2)) = BitVec.ofNat 32 p.val := by
  unfold val_main_v45
  rw [concat_cols_apply_zero, val_main_v43_apply, show idx_main_v43 (ix2 p (0 : Fin 1)) = ix1 p by coords1,
    val_main_v37_apply, val_main_v34_apply, val_main_v30_apply, val_main_v33_apply, val_main_c_5_apply]
  exact select_slt_zero p.val (by omega) _ _
theorem v45_at_one (p : Fin 4096) : val_main_v45 (F := Ideal) (ix2 p (1 : Fin 2)) = BitVec.ofNat 32 (p.val + 4096) := by
  unfold val_main_v45
  rw [concat_cols_apply_one, val_main_v44_apply, show idx_main_v44 (ix2 p (0 : Fin 1)) = ix1 p by coords1,
    val_main_v42_apply, val_main_v39_apply, val_main_v32_apply, val_main_v30_apply, val_main_v31_apply,
    val_main_c_apply, val_main_v38_apply, val_main_c_7_apply]
  show Scalar.select (IntOp.cmpi .slt (IntOp.addi (BitVec.ofNat 32 p.val) (BitVec.ofNat 32 4096)) 0#32) _
      (IntOp.addi (BitVec.ofNat 32 p.val) (BitVec.ofNat 32 4096)) = _
  rw [addi_ofNat]
  exact select_slt_zero (p.val + 4096) (by omega) _ _

/-- Start indices of the second gather: `(p + 4096, p)`. -/
theorem v61_at_zero (p : Fin 4096) : val_main_v61 (F := Ideal) (ix2 p (0 : Fin 2)) = BitVec.ofNat 32 (p.val + 4096) := by
  unfold val_main_v61
  rw [concat_cols_apply_zero, val_main_v59_apply, show idx_main_v59 (ix2 p (0 : Fin 1)) = ix1 p by coords1,
    val_main_v53_apply, val_main_v50_apply, val_main_v48_apply, val_main_v30_apply, val_main_v47_apply,
    val_main_c_9_apply, val_main_v49_apply, val_main_c_10_apply]
  show Scalar.select (IntOp.cmpi .slt (IntOp.addi (BitVec.ofNat 32 p.val) (BitVec.ofNat 32 4096)) 0#32) _
      (IntOp.addi (BitVec.ofNat 32 p.val) (BitVec.ofNat 32 4096)) = _
  rw [addi_ofNat]
  exact select_slt_zero (p.val + 4096) (by omega) _ _
theorem v61_at_one (p : Fin 4096) : val_main_v61 (F := Ideal) (ix2 p (1 : Fin 2)) = BitVec.ofNat 32 p.val := by
  unfold val_main_v61
  rw [concat_cols_apply_one, val_main_v60_apply, show idx_main_v60 (ix2 p (0 : Fin 1)) = ix1 p by coords1,
    val_main_v58_apply, val_main_v55_apply, val_main_v30_apply, val_main_v54_apply, val_main_c_12_apply]
  exact select_slt_zero p.val (by omega) _ _

/-- Two rank-2 indices with the same coordinate values are the same index. -/
theorem ix2_congr {n0 n1 : Nat} {a a' : Fin n0} {b b' : Fin n1} (ha : a.val = a'.val) (hb : b.val = b'.val) :
    ix2 a b = ix2 a' b' := by
  rw [Fin.ext ha, Fin.ext hb]

/-- The first gather at `p`: the similarity of row `p` with row `p + 4096` (no start index is clamped). -/
theorem v46_at (p : Fin 4096) :
    val_main_v46 (F := Ideal) x0 x1 (ix1 p)
      = val_main_v29 (F := Ideal) x0 x1 (ix2 (⟨p.val, by omega⟩ : Fin 8192) (⟨p.val + 4096, by omega⟩ : Fin 8192)) := by
  unfold val_main_v46
  rw [gather_pair_apply]
  refine congrArg _ (ix2_congr ?_ ?_)
  · show min (val_main_v45 (F := Ideal) (ix2 p (0 : Fin 2))).toInt.toNat 8191 = p.val
    rw [v45_at_zero, toNat_toInt_ofNat _ (by omega)]
    exact Nat.min_eq_left (by omega)
  · show min (val_main_v45 (F := Ideal) (ix2 p (1 : Fin 2))).toInt.toNat 8191 = p.val + 4096
    rw [v45_at_one, toNat_toInt_ofNat _ (by omega)]
    exact Nat.min_eq_left (by omega)

/-- The second gather at `p`: the similarity of row `p + 4096` with row `p`. -/
theorem v62_at (p : Fin 4096) :
    val_main_v62 (F := Ideal) x0 x1 (ix1 p)
      = val_main_v29 (F := Ideal) x0 x1 (ix2 (⟨p.val + 4096, by omega⟩ : Fin 8192) (⟨p.val, by omega⟩ : Fin 8192)) := by
  unfold val_main_v62
  rw [gather_pair_apply]
  refine congrArg _ (ix2_congr ?_ ?_)
  · show min (val_main_v61 (F := Ideal) (ix2 p (0 : Fin 2))).toInt.toNat 8191 = p.val + 4096
    rw [v61_at_zero, toNat_toInt_ofNat _ (by omega)]
    exact Nat.min_eq_left (by omega)
  · show min (val_main_v61 (F := Ideal) (ix2 p (1 : Fin 2))).toInt.toNat 8191 = p.val
    rw [v61_at_one, toNat_toInt_ofNat _ (by omega)]
    exact Nat.min_eq_left (by omega)

/-- The positives: row `r`'s similarity with its partner. -/
theorem v63_at (r : Fin 8192) :
    val_main_v63 (F := Ideal) x0 x1 (ix1 r)
      = Cert.Spec.sim (repsOf x0 x1) (sqOf x0 x1) r (Cert.Spec.partner r) := by
  unfold val_main_v63
  rw [concat_vec_apply]
  unfold Cert.Spec.partner
  by_cases h : r.val < 4096
  · rw [dif_pos h, dif_pos h, v46_at, v29_at]
  · rw [dif_neg h, dif_neg h, v62_at, v29_at]
    exact congrArg (fun t => Cert.Spec.sim (repsOf x0 x1) (sqOf x0 x1) t _)
      (Fin.ext (show r.val - 4096 + 4096 = r.val by omega))

/-! ### The masked exponentials, the denominators, and the mean -/

/-- One minus the indicator of the diagonal. -/
theorem v71_at (r s : Fin 8192) :
    val_main_v71 (F := Ideal) (ix2 r s) = 1 - (if r = s then (1 : EReal) else 0) := by
  rw [val_main_v71_apply, val_main_v70_apply, val_main_cst_15_apply, val_main_v69_apply, val_main_v68_apply,
    val_main_v67_apply, val_main_v64_apply, val_main_v65_apply, val_main_v66_apply, val_main_c_14_apply]
  show Ideal.ofBits .f32 0x3F800000#32
      - FloatOps.uitofp (F := Ideal) .f32 (IntOp.cmpi .eq (IntOp.addi (BitVec.ofNat 32 r.val) 0#32) (BitVec.ofNat 32 s.val)) = _
  rw [mask_word, show Ideal.ofBits .f32 0x3F800000#32 = 1 from IdealRules.sign_bit.ideal_onePat .f32]

/-- One term of row `r`'s denominator. -/
theorem v75_at (r s : Fin 8192) :
    val_main_v75 (F := Ideal) x0 x1 (ix2 r s) = Cert.Spec.termR (repsOf x0 x1) (sqOf x0 x1) r s := by
  rw [val_main_v75_apply, v71_at, val_main_v74_apply, val_main_v73_apply, v29_at, val_main_v72_apply,
    val_main_cst_16_apply]
  rfl

/-- Row `r`'s denominator. -/
theorem v76_at (r : Fin 8192) :
    val_main_v76 (F := Ideal) x0 x1 (ix1 r) = Cert.Spec.denomR (repsOf x0 x1) (sqOf x0 x1) r := by
  rw [val_main_v76_apply, val_main_cst_17_apply, zero_word, zero_add]
  unfold Cert.Spec.denomR
  refine Finset.sum_congr rfl fun s _ => ?_
  rw [show idx_main_v76 (ix1 r) s = ix2 r s by coords2, v75_at]

/-- Row `r`'s summand: minus its positive over the temperature, plus the logarithm of its denominator. -/
theorem v81_at (r : Fin 8192) :
    val_main_v81 (F := Ideal) x0 x1 (ix1 r)
      = Ideal.div (-(Cert.Spec.sim (repsOf x0 x1) (sqOf x0 x1) r (Cert.Spec.partner r))) Cert.Spec.tenth
        + Ideal.log (Cert.Spec.denomR (repsOf x0 x1) (sqOf x0 x1) r) := by
  rw [val_main_v81_apply, val_main_v79_apply, val_main_v77_apply, v63_at, val_main_v78_apply, val_main_cst_18_apply,
    val_main_v80_apply, v76_at]
  rfl

end Stages

/-- The reference's result is the loss of the specification, read the reference's way. -/
theorem ref_loss (x0 x1 : (⟨Cert.ReferenceIdeal.S4096x256, .f32⟩ : BufTy).Contents (Elt Ideal)) (i : Cert.ReferenceIdeal.S_.Idx) :
    Cert.ReferenceIdeal.ReadP.val_main_v83 (F := Ideal) x0 x1 i = Cert.Spec.lossR (fun r k => x0 (ValueIdx.ix2 r k)) (fun r k => x1 (ValueIdx.ix2 r k)) := by
  rw [val_main_v83_apply, val_main_v82_apply, val_main_cst_19_apply, val_main_cst_20_apply, zero_word, zero_add]
  have hs : ∑ j : S8192.Idx, val_main_v81 (F := Ideal) x0 x1 j
      = ∑ r : Fin 8192, (Ideal.div (-(Cert.Spec.sim (repsOf x0 x1) (sqOf x0 x1) r (Cert.Spec.partner r))) Cert.Spec.tenth
          + Ideal.log (Cert.Spec.denomR (repsOf x0 x1) (sqOf x0 x1) r)) :=
    ((Equiv.sum_comp (idxEquiv1 (n := 8192)).symm (val_main_v81 (F := Ideal) x0 x1)).symm).trans
      (Finset.sum_congr rfl fun r _ => v81_at x0 x1 r)
  rw [hs]
  unfold Cert.Spec.lossR Cert.Spec.lossOf
  rfl

end Cert.RefValue

end
-- ==== Proof.Algebra.lean ====
/-
  The two spellings of the contrastive loss agree on rows of reals.

  The temperature word is the real `13421773 / 2^27`, so the product with its reciprocal is the division by it, at the
  infinities too. The product mask `(1 - [r = s]) · e` is the choice `if r = s then 0 else e` because `0 · e = 0` for
  every extended real. A sum over 8192 columns is the sum of its four runs of 2048 added onto zero: the extended reals
  are a commutative additive monoid, so no finiteness enters. A row of reals normalises to a row of reals (its sum of
  squares is a nonnegative real, the root of that is real, the guard is a positive real, a real over a positive real is
  real), and on reals `2⟨a, b⟩ - |a|² - |b|² = -(|a|² + |b|² - 2⟨a, b⟩)` is an identity of the field. The loss's two
  readings then feed the same positives (row `r` and row `r ± 4096` are the same pair, exchanged) and the same
  log-denominators to the same mean.
-/
import proofs.«413375_j26920855012068_3_alg».proof.Proof.Spec
import Idealize.ShloMosaic.PureOps.Ideal
import Idealize.ShloMosaic.PureOps.Ideal.Laws
import Mathlib.Algebra.BigOperators.Fin
import Mathlib.Logic.Equiv.Fin.Basic

noncomputable section

namespace Cert.Spec

open Idealize.ShloMosaic

/-! ### The constant words as reals -/

namespace Alg

/-- The factor two, the row count and the guard, each read exactly from its word. -/
theorem two_val : two = ((2 : ℝ) : EReal) := by
  simp [Ideal.ofBits, Ideal.ieee, -EReal.coe_mul]; norm_num

theorem nrows_val : nrows = ((8192 : ℝ) : EReal) := by
  simp [Ideal.ofBits, Ideal.ieee, -EReal.coe_mul]; norm_num

theorem eps_val : eps = ((9223372 / 9223372036854775808 : ℝ) : EReal) := by
  simp [Ideal.ofBits, Ideal.ieee, -EReal.coe_mul]; norm_num

end Alg

/-- The temperature word is `(2^23 + 5033165) · 2^(123 - 150) = 13421773 / 2^27`. -/
theorem tenth_val : tenth = ((13421773 / 134217728 : ℝ) : EReal) := by
  simp [Ideal.ofBits, Ideal.ieee, -EReal.coe_mul]; norm_num

/-! ### The masked term and the denominator -/

/-- Multiplying by the reciprocal of the temperature word is dividing by it, at every extended real
    (the word is a nonzero real, so the quotient is the product with its real reciprocal). -/
theorem mul_invT (x : EReal) : x * invT = Ideal.div x tenth := by
  have h : ((1 / (13421773 / 134217728 : ℝ) : ℝ)) = (134217728 / 13421773 : ℝ) := by norm_num
  rw [tenth_val, Ideal.div_coe (by norm_num) x, h]

namespace Alg

theorem one_sub_one : (1 : EReal) - 1 = 0 := by
  rw [← EReal.coe_one, ← EReal.coe_sub, sub_self, EReal.coe_zero]

/-- A sum over 8192 indices is the sum of its four runs of 2048: the index `c · 2048 + j` runs over
    `Fin 4 × Fin 2048`. -/
theorem sum_four_runs {M : Type*} [AddCommMonoid M] (f : Fin 8192 → M) :
    ∑ s, f s = ∑ c : Fin 4, ∑ j : Fin 2048, f ⟨c.val * 2048 + j.val, by omega⟩ := by
  calc ∑ s, f s = ∑ p : Fin 4 × Fin 2048, f (finProdFinEquiv p) :=
        (Equiv.sum_comp (finProdFinEquiv : Fin 4 × Fin 2048 ≃ Fin 8192) f).symm
    _ = ∑ c : Fin 4, ∑ j : Fin 2048, f (finProdFinEquiv (c, j)) := Fintype.sum_prod_type _
    _ = _ := by
        refine Finset.sum_congr rfl fun c _ => Finset.sum_congr rfl fun j _ => ?_
        congr 1
        ext
        simp only [finProdFinEquiv_apply_val]
        omega

end Alg

open Alg

/-- On the diagonal the product mask is `(1 - 1) · e = 0 · e = 0` whatever `e` is; off it
    `(1 - 0) · e = e`, `0 - v = -v`, and the reciprocal temperature is the division. -/
theorem termK_eq_termR (R : Fin 8192 → Fin 256 → EReal) (S : Fin 8192 → EReal) (r s : Fin 8192) :
    termK R S r s = termR R S r s := by
  unfold termK termR sim
  by_cases h : r = s
  · rw [if_pos h, if_pos h, one_sub_one, zero_mul]
  · rw [if_neg h, if_neg h, sub_zero, one_mul, zero_sub, mul_invT]

/-- Four runs added onto zero are the whole sum; no finiteness is used. -/
theorem denomK_eq_denomR (R : Fin 8192 → Fin 256 → EReal) (S : Fin 8192 → EReal) (r : Fin 8192) :
    denomK R S r = denomR R S r := by
  unfold denomK denomR
  rw [zero_add, ← Fin.sum_univ_four (fun c => chunk R S r c)]
  unfold chunk
  rw [← sum_four_runs (fun s => termK R S r s)]
  exact Finset.sum_congr rfl fun s _ => termK_eq_termR R S r s

/-! ### Rows of reals -/

/-- A row all of whose entries are real numbers. -/
def RealRow (a : Fin 256 → EReal) : Prop := ∀ k, ∃ v : ℝ, a k = (v : EReal)

namespace Alg

/-- A finite sum of reals, read in the extended reals, is the real sum. -/
theorem coe_sum {ι : Type*} (s : Finset ι) (v : ι → ℝ) :
    ∑ k ∈ s, ((v k : ℝ) : EReal) = ((∑ k ∈ s, v k : ℝ) : EReal) := by
  classical
  induction s using Finset.induction_on with
  | empty => simp
  | insert i s hi ih => rw [Finset.sum_insert hi, Finset.sum_insert hi, ih, EReal.coe_add]

/-- The guard as a real; the guarded norm and the normalised entries of a row of reals, as reals. -/
def epsR : ℝ := 9223372 / 9223372036854775808
def nrmR (v : Fin 256 → ℝ) : ℝ := max (Real.sqrt (∑ k, v k * v k)) epsR
def zR (v : Fin 256 → ℝ) (k : Fin 256) : ℝ := v k / nrmR v

theorem epsR_pos : 0 < epsR := by unfold epsR; norm_num

theorem nrmR_pos (v : Fin 256 → ℝ) : 0 < nrmR v := lt_max_of_lt_right epsR_pos

/-- The sum of squares of reals is a nonnegative real, its root is real, and the larger of two reals is real. -/
theorem nrm_coe (v : Fin 256 → ℝ) : nrm (fun k => (v k : EReal)) = (nrmR v : EReal) := by
  unfold nrm nrmR
  have hs : ∑ k, ((v k : ℝ) : EReal) * ((v k : ℝ) : EReal) = ((∑ k, v k * v k : ℝ) : EReal) := by
    rw [← coe_sum]; exact Finset.sum_congr rfl fun k _ => (EReal.coe_mul _ _).symm
  have h0 : ¬ (∑ k, v k * v k) < 0 := not_lt.mpr (Finset.sum_nonneg fun k _ => mul_self_nonneg (v k))
  rw [hs, Ideal.sqrt_coe, if_neg h0, eps_val, EReal.coe_strictMono.monotone.map_max]
  rfl

/-- A real over a positive real is a real. -/
theorem zrow_coe (v : Fin 256 → ℝ) (k : Fin 256) :
    zrow (fun k => (v k : EReal)) k = ((zR v k : ℝ) : EReal) := by
  unfold zrow zR
  rw [nrm_coe, Ideal.div_coe (nrmR_pos v).ne', ← EReal.coe_mul, mul_one_div]

theorem dotz_coe (v w : Fin 256 → ℝ) :
    dotz (fun k => (v k : EReal)) (fun k => (w k : EReal)) = ((∑ k, zR v k * zR w k : ℝ) : EReal) := by
  unfold dotz
  rw [← coe_sum]
  exact Finset.sum_congr rfl fun k _ => by rw [zrow_coe, zrow_coe, ← EReal.coe_mul]

theorem sqz_coe (v : Fin 256 → ℝ) :
    sqz (fun k => (v k : EReal)) = ((∑ k, zR v k * zR v k : ℝ) : EReal) := dotz_coe v v

theorem dotz_comm (a b : Fin 256 → EReal) : dotz a b = dotz b a := by
  unfold dotz
  exact Finset.sum_congr rfl fun k _ => mul_comm _ _

end Alg

theorem zrow_real {a : Fin 256 → EReal} (h : RealRow a) : RealRow (zrow a) := by
  choose v hv using h
  obtain rfl : a = fun k => (v k : EReal) := funext hv
  intro k
  exact ⟨_, zrow_coe v k⟩

/-- With every quantity a real, `2d - p - q = -(p + q - 2d)` is an identity of the real field. -/
theorem posK_eq {a b : Fin 256 → EReal} (ha : RealRow a) (hb : RealRow b) :
    posK a b = -(sqz a + sqz b - two * dotz a b) := by
  choose v hv using ha
  choose w hw using hb
  obtain rfl : a = fun k => (v k : EReal) := funext hv
  obtain rfl : b = fun k => (w k : EReal) := funext hw
  unfold posK
  rw [sqz_coe, sqz_coe, dotz_coe, two_val, ← EReal.coe_mul, ← EReal.coe_sub, ← EReal.coe_sub,
    ← EReal.coe_add, ← EReal.coe_sub, ← EReal.coe_neg]
  congr 1
  ring

/-- The same with the two rows exchanged on the right: the inner product and the sum commute. -/
theorem posK_eq' {a b : Fin 256 → EReal} (ha : RealRow a) (hb : RealRow b) :
    posK a b = -(sqz b + sqz a - two * dotz b a) := by
  rw [posK_eq ha hb, dotz_comm a b, add_comm (sqz a) (sqz b)]

/-! ### The loss -/

namespace Alg

/-- The squared norms of the representations, spelt the two ways. -/
def SK (x y : Fin 4096 → Fin 256 → EReal) (r : Fin 8192) : EReal :=
  if h : r.val < 4096 then sqz (x ⟨r.val, h⟩) else sqz (y ⟨r.val - 4096, by omega⟩)
def SR (x y : Fin 4096 → Fin 256 → EReal) (r : Fin 8192) : EReal := ∑ k, reps x y r k * reps x y r k

theorem lossK_def (x y : Fin 4096 → Fin 256 → EReal) : lossK x y =
    lossOf (fun r => posK (x ⟨r.val % 4096, Nat.mod_lt _ (by decide)⟩) (y ⟨r.val % 4096, Nat.mod_lt _ (by decide)⟩))
      (fun r => Ideal.log (denomK (reps x y) (SK x y) r)) := rfl

theorem lossR_def (x y : Fin 4096 → Fin 256 → EReal) : lossR x y =
    lossOf (fun r => sim (reps x y) (SR x y) r (partner r))
      (fun r => Ideal.log (denomR (reps x y) (SR x y) r)) := rfl

/-- In either half a representation is the normalised row, so its squared norm is that row's. -/
theorem SK_eq_SR (x y : Fin 4096 → Fin 256 → EReal) : SK x y = SR x y := by
  funext r
  unfold SK SR sqz reps
  by_cases h : r.val < 4096
  · simp only [dif_pos h]
  · simp only [dif_neg h]

/-- A property of all 8192 rows follows from it on row `i` and on row `i + 4096`, `i < 4096`. -/
theorem forall_rows {P : Fin 8192 → Prop} (h1 : ∀ i : Fin 4096, P ⟨i.val, by omega⟩)
    (h2 : ∀ i : Fin 4096, P ⟨i.val + 4096, by omega⟩) (r : Fin 8192) : P r := by
  by_cases h : r.val < 4096
  · exact h1 ⟨r.val, h⟩
  · have e : r = ⟨(⟨r.val - 4096, by omega⟩ : Fin 4096).val + 4096, by omega⟩ :=
      Fin.ext (by show r.val = r.val - 4096 + 4096; omega)
    rw [e]
    exact h2 _

theorem reps_fst (x y : Fin 4096 → Fin 256 → EReal) (i : Fin 4096) :
    reps x y ⟨i.val, by omega⟩ = zrow (x i) := by
  funext k
  have h : (⟨i.val, by omega⟩ : Fin 8192).val < 4096 := i.isLt
  unfold reps
  rw [dif_pos h]

theorem reps_snd (x y : Fin 4096 → Fin 256 → EReal) (i : Fin 4096) :
    reps x y ⟨i.val + 4096, by omega⟩ = zrow (y i) := by
  funext k
  have h : ¬ (⟨i.val + 4096, by omega⟩ : Fin 8192).val < 4096 := Nat.not_lt.mpr (Nat.le_add_left _ _)
  have e : (⟨i.val + 4096 - 4096, by omega⟩ : Fin 4096) = i := Fin.ext (by show i.val + 4096 - 4096 = i.val; omega)
  unfold reps
  rw [dif_neg h]
  show zrow (y ⟨i.val + 4096 - 4096, _⟩) k = _
  rw [e]

theorem partner_fst (i : Fin 4096) : partner ⟨i.val, by omega⟩ = ⟨i.val + 4096, by omega⟩ := by
  have h : (⟨i.val, by omega⟩ : Fin 8192).val < 4096 := i.isLt
  unfold partner
  rw [dif_pos h]

theorem partner_snd (i : Fin 4096) : partner ⟨i.val + 4096, by omega⟩ = ⟨i.val, by omega⟩ := by
  have h : ¬ (⟨i.val + 4096, by omega⟩ : Fin 8192).val < 4096 := Nat.not_lt.mpr (Nat.le_add_left _ _)
  unfold partner
  rw [dif_neg h]
  exact Fin.ext (by show i.val + 4096 - 4096 = i.val; omega)

theorem idx_fst (i : Fin 4096) (h : i.val % 4096 < 4096) : (⟨i.val % 4096, h⟩ : Fin 4096) = i :=
  Fin.ext (Nat.mod_eq_of_lt i.isLt)

theorem idx_snd (i : Fin 4096) (h : (i.val + 4096) % 4096 < 4096) :
    (⟨(i.val + 4096) % 4096, h⟩ : Fin 4096) = i :=
  Fin.ext (by show (i.val + 4096) % 4096 = i.val; rw [Nat.add_mod_right, Nat.mod_eq_of_lt i.isLt])

/-- The positive of a first-half row: its partner's representation is the second array's row. -/
theorem pos_fst (x y : Fin 4096 → Fin 256 → EReal) (hx : ∀ r, RealRow (x r)) (hy : ∀ r, RealRow (y r))
    (i : Fin 4096) :
    posK (x i) (y i) = sim (reps x y) (SR x y) ⟨i.val, by omega⟩ ⟨i.val + 4096, by omega⟩ := by
  unfold sim SR dotR
  rw [reps_fst, reps_snd]
  exact posK_eq (hx i) (hy i)

/-- The positive of a second-half row: the two rows appear exchanged. -/
theorem pos_snd (x y : Fin 4096 → Fin 256 → EReal) (hx : ∀ r, RealRow (x r)) (hy : ∀ r, RealRow (y r))
    (i : Fin 4096) :
    posK (x i) (y i) = sim (reps x y) (SR x y) ⟨i.val + 4096, by omega⟩ ⟨i.val, by omega⟩ := by
  unfold sim SR dotR
  rw [reps_fst, reps_snd]
  exact posK_eq' (hx i) (hy i)

end Alg

/-- Both readings feed the same positives and the same log-denominators to the mean. -/
theorem lossK_eq_lossR (x y : Fin 4096 → Fin 256 → EReal) (hx : ∀ r, RealRow (x r)) (hy : ∀ r, RealRow (y r)) :
    lossK x y = lossR x y := by
  rw [lossK_def, lossR_def, SK_eq_SR]
  have hp : ∀ r : Fin 8192,
      posK (x ⟨r.val % 4096, Nat.mod_lt _ (by decide)⟩) (y ⟨r.val % 4096, Nat.mod_lt _ (by decide)⟩)
        = sim (reps x y) (SR x y) r (partner r) := by
    refine forall_rows (fun i => ?_) (fun i => ?_)
    · show posK (x ⟨i.val % 4096, _⟩) (y ⟨i.val % 4096, _⟩)
        = sim (reps x y) (SR x y) ⟨i.val, _⟩ (partner ⟨i.val, _⟩)
      rw [idx_fst, partner_fst]
      exact pos_fst x y hx hy i
    · show posK (x ⟨(i.val + 4096) % 4096, _⟩) (y ⟨(i.val + 4096) % 4096, _⟩)
        = sim (reps x y) (SR x y) ⟨i.val + 4096, _⟩ (partner ⟨i.val + 4096, _⟩)
      rw [idx_snd, partner_snd]
      exact pos_snd x y hx hy i
  have hl : ∀ r : Fin 8192, Ideal.log (denomK (reps x y) (SR x y) r) = Ideal.log (denomR (reps x y) (SR x y) r) :=
    fun r => by rw [denomK_eq_denomR]
  rw [funext hp, funext hl]

end Cert.Spec

end
-- ==== Proof.Finite.lean ====
/-
  From "every entry of both arrays has absolute value below +∞" to "every entry of both arrays is a real".

  The condition is one bit: the conjunction of two bits, each the `and` over all 4096 × 256 entries of the bit
  `|a| < +∞`, where `|a| = max a (-a)` on the extended reals and `+∞` is what the single-precision word
  `0x7F800000` denotes. A conjunction that is 1 has both sides 1; an `and` over all entries that is 1 met a 1 at
  every entry; and `max a (-a) < ⊤` rules out `a = ⊤` (then `a < ⊤` fails) and `a = ⊥` (then `-a = ⊤`), which
  leaves the reals.
-/
import proofs.«413375_j26920855012068_3_alg».proof.Proof.Gen.Pre_finite_inputs
import Idealize.ShloMosaic.Lib.ReduceAll
import Idealize.ShloMosaic.Lib.ValueIdx
import Idealize.ShloMosaic.PureOps.Ideal

noncomputable section

namespace Cert.Fin

open Idealize.ShloMosaic Idealize.ShloMosaic.ValueIdx Cert.Pre_finite_inputs

/-- The rank-0 shape has exactly one index: there is no axis on which two indices could differ. -/
instance : Subsingleton S_.Idx := ⟨fun a b => funext fun d => d.elim0⟩

/-- The word with all eight exponent bits set, sign and fraction clear, denotes `+∞`. -/
theorem inf_word : Ideal.ofBits .f32 0x7F800000#32 = (⊤ : EReal) := by
  simp [Ideal.ofBits, Ideal.ieee]

/-- An extended real whose absolute value compares below `+∞` is a real: `max a (-a) < ⊤` gives `a < ⊤` and
    `-a < ⊤`; the first excludes `⊤`, the second excludes `⊥` because `-⊥ = ⊤`. -/
theorem real_of_abs_lt (a : EReal)
    (h : Ideal.cmp .olt (max a (-a)) (Ideal.ofBits .f32 0x7F800000#32) = 1#1) : ∃ v : ℝ, a = (v : EReal) := by
  rw [inf_word] at h
  -- the comparison's bit is the truth value of the strict inequality
  change BitVec.ofBool (decide (max a (-a) < ⊤)) = 1#1 at h
  have hlt : max a (-a) < ⊤ := by
    by_contra hn
    rw [decide_eq_false hn] at h
    exact absurd h (by decide)
  obtain ⟨h1, h2⟩ := max_lt_iff.1 hlt
  induction a using EReal.rec with
  | bot => rw [EReal.neg_bot] at h2; exact absurd h2 (lt_irrefl _)
  | coe v => exact ⟨v, rfl⟩
  | top => exact absurd h1 (lt_irrefl _)

/-- The condition read back: the result bit at its one index is the conjunction of the two `and`-reductions; each
    being 1 gives the bit `|a| < +∞` at every index of its array, and that bit makes the entry a real. -/
theorem real_of_pre (x y : (⟨Cert.Pre_finite_inputs.S4096x256, .f32⟩ : BufTy).Contents (Elt Ideal))
    (h : Cert.Pre_finite_inputs.fn (F := Ideal) x y = fun _ => 1#1) :
    (∀ i, ∃ v : ℝ, x i = (v : EReal)) ∧ (∀ i, ∃ v : ℝ, y i = (v : EReal)) := by
  have e := congrFun h ValueIdx.ix0
  dsimp only [Cert.Pre_finite_inputs.fn] at e
  obtain ⟨ex, ey⟩ := IntOp.andi_eq_one.1 e
  exact ⟨fun i => real_of_abs_lt (x i) (Host.reduce_andi_all _ _ _ _ ValueIdx.ix0 ex i),
    fun i => real_of_abs_lt (y i) (Host.reduce_andi_all _ _ _ _ ValueIdx.ix0 ey i)⟩

end Cert.Fin

end
-- ==== Proof.lean ====
/-
  The five claims, assembled.

  Both programs compute the SimCLR-style contrastive loss of two arrays of 4096 embeddings: rows are normalised by their
  guarded norm, the 8192 normalised rows' pairwise similarities `-(|a|² + |b|² - 2⟨a, b⟩)` are exponentiated at temperature
  `T` and summed over every other row, and the loss is the mean over rows of `-sim(row, partner) / T + log(sum)`.

  The kernel never forms the 8192 × 8192 matrix. Its first pass normalises the rows and computes each pair's positive value as
  `2⟨a, b⟩ - |a|² - |b|²`; its second pass takes 512 rows at a time against all 8192, adds the masked exponentials in four
  runs of 2048 columns, and takes the logarithm. It multiplies by the reciprocal of the temperature where the reference
  divides; the idealized kernel names that reciprocal `1 / T` exactly (the one rewrite `preserves` restates), so on the
  extended reals the two agree entry by entry. The positive value's two spellings agree because finite inputs normalise to
  finite rows, where `-(a + b - c) = c - a - b`; the sums agree because addition of extended reals is commutative and
  associative; the mask as a product with `1 - [r = s]` and as a choice agree because `0 · x = 0` for every extended real.

  The kernel's two frames are its run through the four segments of @main with every buffer's contents named at each
  boundary; the reference's frame is its run over its operations' results, read one operation at a time, with the result dropped.
-/
import proofs.«413375_j26920855012068_3_alg».proof.Defs
import proofs.«413375_j26920855012068_3_alg».proof.Proof.Gen.Kernel
import proofs.«413375_j26920855012068_3_alg».proof.Proof.Gen.KernelIdeal
import proofs.«413375_j26920855012068_3_alg».proof.Proof.Gen.ReferenceIdeal
import proofs.«413375_j26920855012068_3_alg».proof.Proof.Gen.Pre_finite_inputs
import proofs.«413375_j26920855012068_3_alg».proof.Proof.RefStages
import proofs.«413375_j26920855012068_3_alg».proof.Proof.KRun
import proofs.«413375_j26920855012068_3_alg».proof.Proof.Run
import proofs.«413375_j26920855012068_3_alg».proof.Proof.KVal
import proofs.«413375_j26920855012068_3_alg».proof.Proof.RefValue
import proofs.«413375_j26920855012068_3_alg».proof.Proof.Algebra
import proofs.«413375_j26920855012068_3_alg».proof.Proof.Finite
import Idealize.ShloMosaic.Adequacy
import Idealize.ShloMosaic.Init

noncomputable section

namespace Cert.Proof

open Idealize.ShloMosaic Idealize.ShloMosaic.TcCoe Idealize.SL.Sem ValueIdx

theorem frame_p : Cert.frame_Kernel := fun m ρ _ => Cert.Kernel.Hand.frame (F := Bits) m ρ
theorem frame_pi : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.RefStages.ref_result (F := Ideal) m ρ)

/-- The one rewrite: the table gives the kernel's folded `10.0` the value `1 / T`, `T` the temperature word. -/
theorem preserves : Cert.preserves_Kernel_KernelIdeal :=
  IdealRules.named_const.statement Cert.KernelIdeal.κ "inv_t" .f32 0x41200000#32 ((134217728 / 13421773 : ℝ) : EReal) rfl

/-- The kernel's result is its own arrangement of the loss (`lossK`), the reference's the textbook one (`lossR`); on finite
    inputs they are one number. -/
theorem algebraic : Cert.algebraic_KernelIdeal_ReferenceIdeal := by
  intro m ρ m' ρ' hpre hagree
  refine ⟨fun c => Cert.KernelIdeal.Hand.W4 (F := Ideal) m c (Proc.devRef .tc Cert.KernelIdeal.main_v13),
    Cert.KernelIdeal.Hand.run_result (F := Ideal) m ρ, ?_⟩
  refine (θ_run Cert.ReferenceIdeal.defs _ _).mono (fun _ h c => ⟨(h c).1.trans ?_, (h c).2⟩)
    (Cert.RefStages.ref_result (F := Ideal) m' ρ')
  obtain ⟨hx, hy⟩ := Cert.Fin.real_of_pre _ _ (hpre c)
  funext i
  show _ = Cert.KernelIdeal.Hand.W4 (F := Ideal) m c (Proc.devRef .tc Cert.KernelIdeal.main_v13) i
  rw [Cert.RefValue.ref_loss, (hagree c).1, (hagree c).2, eq_ix0 i,
    Cert.KVal.result_eq,
    Cert.Spec.lossK_eq_lossR _ _ (fun r k => hx (ix2 r k)) (fun r k => hy (ix2 r k))]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
